-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S1x4x32 : Shape := ⟨3, ![1, 4, 32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1x4x32 : S_.BroadcastsInDim S1x4x32 (![] : Fin 0 → Fin S1x4x32.rank)
  reducesTo_S1x4x32_S_d0_1_2 : S1x4x32.ReducesTo [0, 1, 2] S_

variable [Facts]

def fn_part1 {F : FTy → Type} [FloatOps F] (main_v13 : IVec S_ 1) (main_v16 : IVec S1x4x32 1) : IVec S_ 1 :=
  let main_c_5 : IVec S_ 1 := constantI S_ 1 1#1
  let main_v17 : IVec S_ 1 := (fun x v => Host.reduce IntOp.andi x v reducesTo_S1x4x32_S_d0_1_2 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S128x128 .f32) (main_arg3 : FVec F S1x4x32 .f32) (main_arg4 : FVec F S1x4x32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S1x4x32 .f32 := Host.absf main_arg3
  let main_cst_2 : FVec F S_ .f32 := constant S_ .f32 0x7F800000#32
  let main_v10 : FVec F S1x4x32 .f32 := broadcastInDim S1x4x32 ![] bcast_S_S1x4x32 main_cst_2
  let main_v11 : IVec S1x4x32 1 := cmpf .olt main_v9 main_v10
  let main_c_3 : IVec S_ 1 := constantI S_ 1 1#1
  let main_v12 : IVec S_ 1 := (fun x v => Host.reduce IntOp.andi x v reducesTo_S1x4x32_S_d0_1_2 h_S_) main_v11 main_c_3
  let main_v13 : IVec S_ 1 := andi main_v8 main_v12
  let main_v14 : FVec F S1x4x32 .f32 := Host.absf main_arg4
  let main_cst_4 : FVec F S_ .f32 := constant S_ .f32 0x7F800000#32
  let main_v15 : FVec F S1x4x32 .f32 := broadcastInDim S1x4x32 ![] bcast_S_S1x4x32 main_cst_4
  let main_v16 : IVec S1x4x32 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S1x4x32 : Shape := ⟨3, ![1, 4, 32]⟩
abbrev S1x1600000 : Shape := ⟨2, ![1, 1600000]⟩
abbrev S1600000 : Shape := ⟨1, ![1600000]⟩
abbrev S128 : Shape := ⟨1, ![128]⟩
abbrev S_ : Shape := ⟨0, ![]⟩
abbrev S4 : Shape := ⟨1, ![4]⟩
abbrev S128x1 : Shape := ⟨2, ![128, 1]⟩
abbrev S1x4 : Shape := ⟨2, ![1, 4]⟩
abbrev S128x4 : Shape := ⟨2, ![128, 4]⟩
abbrev S128x8 : Shape := ⟨2, ![128, 8]⟩
abbrev S100000x8 : Shape := ⟨2, ![100000, 8]⟩
abbrev S10000x128 : Shape := ⟨2, ![10000, 128]⟩
abbrev S10000x8 : Shape := ⟨2, ![10000, 8]⟩
abbrev S100000x4 : Shape := ⟨2, ![100000, 4]⟩
abbrev S1600000x1 : Shape := ⟨2, ![1600000, 1]⟩
abbrev S1600000x4 : Shape := ⟨2, ![1600000, 4]⟩
abbrev S1600000x128 : Shape := ⟨2, ![1600000, 128]⟩
abbrev S4x1 : Shape := ⟨2, ![4, 1]⟩
abbrev S1x128 : Shape := ⟨2, ![1, 128]⟩
abbrev S4x128 : Shape := ⟨2, ![4, 128]⟩
abbrev S8000x128 : Shape := ⟨2, ![8000, 128]⟩
abbrev S8000x4 : Shape := ⟨2, ![8000, 4]⟩

abbrev nBuf : Space → Nat
  | .hbm => 138
  | .vmem => 15
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S1x4x32, .f32⟩
  | 4 => ⟨S1x4x32, .f32⟩
  | 5 => ⟨S1x1600000, .i32⟩
  | 6 => ⟨S1600000, .i32⟩
  | 7 => ⟨S1x1600000, .i32⟩
  | 8 => ⟨S1600000, .i32⟩
  | 9 => ⟨S128, .f32⟩
  | 10 => ⟨S128, .f32⟩
  | 11 => ⟨S128, .i32⟩
  | 12 => ⟨S_, .i32⟩
  | 13 => ⟨S_, .i32⟩
  | 14 => ⟨S128, .i32⟩
  | 15 => ⟨S128, .i32⟩
  | 16 => ⟨S128, .i32⟩
  | 17 => ⟨S_, .i32⟩
  | 18 => ⟨S128, .i32⟩
  | 19 => ⟨S128, .i1⟩
  | 20 => ⟨S128, .i32⟩
  | 21 => ⟨S128, .i32⟩
  | 22 => ⟨S_, .i32⟩
  | 23 => ⟨S128, .i32⟩
  | 24 => ⟨S128, .i1⟩
  | 25 => ⟨S128, .i1⟩
  | 26 => ⟨S_, .i32⟩
  | 27 => ⟨S128, .i32⟩
  | 28 => ⟨S128, .i32⟩
  | 29 => ⟨S128, .i32⟩
  | 30 => ⟨S4, .i32⟩
  | 31 => ⟨S128x1, .i32⟩
  | 32 => ⟨S1x4, .i32⟩
  | 33 => ⟨S128x4, .i32⟩
  | 34 => ⟨S128x4, .i32⟩
  | 35 => ⟨S128x4, .i1⟩
  | 36 => ⟨S128x4, .f32⟩
  | 37 => ⟨S128x1, .f32⟩
  | 38 => ⟨S128x4, .f32⟩
  | 39 => ⟨S128x4, .f32⟩
  | 40 => ⟨S128x1, .f32⟩
  | 41 => ⟨S128x4, .f32⟩
  | 42 => ⟨S128x4, .f32⟩
  | 43 => ⟨S128x8, .f32⟩
  | 44 => ⟨S128x8, .bf16⟩
  | 45 => ⟨S100000x128, .bf16⟩
  | 46 => ⟨S100000x8, .f32⟩
  | 47 => ⟨S100000x4, .f32⟩
  | 48 => ⟨S100000x4, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x4, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x4, .f32⟩
  | 67 => ⟨S1600000x4, .f32⟩
  | 68 => ⟨S_, .f32⟩
  | 69 => ⟨S_, .f32⟩
  | 70 => ⟨S1600000x4, .f32⟩
  | 71 => ⟨S1600000x4, .i1⟩
  | 72 => ⟨S_, .f32⟩
  | 73 => ⟨S1600000x4, .f32⟩
  | 74 => ⟨S1600000x4, .f32⟩
  | 75 => ⟨S1600000x4, .f32⟩
  | 76 => ⟨S_, .f32⟩
  | 77 => ⟨S_, .f32⟩
  | 78 => ⟨S1600000x4, .f32⟩
  | 79 => ⟨S1600000x4, .f32⟩
  | 80 => ⟨S1600000x4, .f32⟩
  | 81 => ⟨S_, .f32⟩
  | 82 => ⟨S100000x4, .f32⟩
  | 83 => ⟨S1600000x1, .i32⟩
  | 84 => ⟨S100000x4, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x4, .f32⟩
  | 94 => ⟨S_, .f32⟩
  | 95 => ⟨S1600000x4, .f32⟩
  | 96 => ⟨S1600000x4, .f32⟩
  | 97 => ⟨S1600000x4, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x128, .bf16⟩
  | 107 => ⟨S4, .i32⟩
  | 108 => ⟨S4x1, .i32⟩
  | 109 => ⟨S128, .i32⟩
  | 110 => ⟨S1x128, .i32⟩
  | 111 => ⟨S_, .i32⟩
  | 112 => ⟨S_, .i32⟩
  | 113 => ⟨S1x128, .i32⟩
  | 114 => ⟨S1x128, .i32⟩
  | 115 => ⟨S1x128, .i32⟩
  | 116 => ⟨S_, .i32⟩
  | 117 => ⟨S1x128, .i32⟩
  | 118 => ⟨S1x128, .i1⟩
  | 119 => ⟨S1x128, .i32⟩
  | 120 => ⟨S1x128, .i32⟩
  | 121 => ⟨S_, .i32⟩
  | 122 => ⟨S1x128, .i32⟩
  | 123 => ⟨S1x128, .i1⟩
  | 124 => ⟨S1x128, .i1⟩
  | 125 => ⟨S_, .i32⟩
  | 126 => ⟨S1x128, .i32⟩
  | 127 => ⟨S1x128, .i32⟩
  | _ => ⟨S100000x128, .f32⟩

abbrev hbmTy0_1 (i : Nat) : BufTy := match i % 128 with
  | 0 => ⟨S1x128, .i32⟩
  | 1 => ⟨S4x128, .i32⟩
  | 2 => ⟨S4x128, .i32⟩
  | 3 => ⟨S4x128, .i1⟩
  | 4 => ⟨S4x128, .bf16⟩
  | 5 => ⟨S1600000x128, .f32⟩
  | 6 => ⟨S_, .f32⟩
  | 7 => ⟨S100000x128, .f32⟩
  | 8 => ⟨S1600000x1, .i32⟩
  | 9 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128x8, .bf16⟩
  | .local _ .vmem, ⟨4, _⟩ => ⟨S10000x128, .bf16⟩
  | .local _ .vmem, ⟨5, _⟩ => ⟨S10000x128, .bf16⟩
  | .local _ .vmem, ⟨6, _⟩ => ⟨S10000x8, .f32⟩
  | .local _ .vmem, ⟨7, _⟩ => ⟨S10000x8, .f32⟩
  | .local _ .vmem, ⟨8, _⟩ => ⟨S8000x128, .bf16⟩
  | .local _ .vmem, ⟨9, _⟩ => ⟨S8000x128, .bf16⟩
  | .local _ .vmem, ⟨10, _⟩ => ⟨S8000x4, .f32⟩
  | .local _ .vmem, ⟨11, _⟩ => ⟨S8000x4, .f32⟩
  | .local _ .vmem, ⟨12, _⟩ => ⟨S4x128, .bf16⟩
  | .local _ .vmem, ⟨13, _⟩ => ⟨S8000x128, .f32⟩
  | .local _ .vmem, ⟨14, _⟩ => ⟨S8000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23_0 : Ref sig .tc := ⟨.hbm, 45, rfl⟩
abbrev main_v23_1 : Ref sig .tc := ⟨.hbm, 46, rfl⟩
abbrev main_v24 : Ref sig .tc := ⟨.hbm, 47, rfl⟩
abbrev main_v25 : Ref sig .tc := ⟨.hbm, 48, rfl⟩
abbrev main_c_0 : Ref sig .tc := ⟨.hbm, 49, rfl⟩
abbrev main_v26 : Ref sig .tc := ⟨.hbm, 50, rfl⟩
abbrev main_v27 : Ref sig .tc := ⟨.hbm, 51, rfl⟩
abbrev main_c_1 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_2 : Ref sig .tc := ⟨.hbm, 58, rfl⟩
abbrev main_v33 : Ref sig .tc := ⟨.hbm, 59, rfl⟩
abbrev main_v34 : Ref sig .tc := ⟨.hbm, 60, rfl⟩
abbrev main_c_3 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_v41 : Ref sig .tc := ⟨.hbm, 75, rfl⟩
abbrev main_cst_4 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_5 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_c_6 : Ref sig .tc := ⟨.hbm, 85, rfl⟩
abbrev main_v49 : Ref sig .tc := ⟨.hbm, 86, rfl⟩
abbrev main_v50 : Ref sig .tc := ⟨.hbm, 87, rfl⟩
abbrev main_c_7 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_8 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_c_9 : Ref sig .tc := ⟨.hbm, 98, rfl⟩
abbrev main_v59 : Ref sig .tc := ⟨.hbm, 99, rfl⟩
abbrev main_v60 : Ref sig .tc := ⟨.hbm, 100, rfl⟩
abbrev main_c_10 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_c_11 : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_v6 : Ref sig .tc := ⟨.hbm, 118, rfl⟩
abbrev main_call2_v7 : Ref sig .tc := ⟨.hbm, 119, rfl⟩
abbrev main_call2_v8 : Ref sig .tc := ⟨.hbm, 120, rfl⟩
abbrev main_call2_c : Ref sig .tc := ⟨.hbm, 121, rfl⟩
abbrev main_call2_v9 : Ref sig .tc := ⟨.hbm, 122, rfl⟩
abbrev main_call2_v10 : Ref sig .tc := ⟨.hbm, 123, rfl⟩
abbrev main_call2_v11 : Ref sig .tc := ⟨.hbm, 124, rfl⟩
abbrev main_call2_c_0 : Ref sig .tc := ⟨.hbm, 125, rfl⟩
abbrev main_call2_v12 : Ref sig .tc := ⟨.hbm, 126, rfl⟩
abbrev main_call2_v13 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_cst_12 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x8 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S1x4x32_S128 : S1x4x32.ShapeCasts S128
  bcast_S_S128 : S_.BroadcastsInDim S128 (![] : Fin 0 → Fin S128.rank)
  bcast_S128_S128x1_0 : S128.BroadcastsInDim S128x1 (![0] : Fin 1 → Fin S128x1.rank)
  bcast_S4_S1x4_1 : S4.BroadcastsInDim S1x4 (![1] : Fin 1 → Fin S1x4.rank)
  bcast_S128x1_S128x4_0_1 : S128x1.BroadcastsInDim S128x4 (![0, 1] : Fin 2 → Fin S128x4.rank)
  bcast_S1x4_S128x4_0_1 : S1x4.BroadcastsInDim S128x4 (![0, 1] : Fin 2 → Fin S128x4.rank)
  concatenates_S128x4_S128x4_S128x8_d1 : Shape.Concatenates [S128x4, S128x4] S128x8 1
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S10000x8_S10000x8_0_0 : ∀ a, (![0, 0] : Fin 2 → Nat) a + S10000x8.size a ≤ S10000x8.size a
  h_S10000x8 : 0 < S10000x8.numel
  slices_S100000x8_S100000x4_0_0 : S100000x8.Slices ![0, 0] S100000x4
  slices_S100000x8_S100000x4_0_4 : S100000x8.Slices ![0, 4] S100000x4
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x4 : S_.BroadcastsInDim S1600000x4 (![] : Fin 0 → Fin S1600000x4.rank)
  reducesTo_S1600000x4_S_d0_1 : S1600000x4.ReducesTo [0, 1] S_
  h_S_ : 0 < S_.numel
  bcast_S_S100000x4 : S_.BroadcastsInDim S100000x4 (![] : Fin 0 → Fin S100000x4.rank)
  bcast_S4_S4x1_0 : S4.BroadcastsInDim S4x1 (![0] : Fin 1 → Fin S4x1.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S4x128_0_1 : S1x128.BroadcastsInDim S4x128 (![0, 1] : Fin 2 → Fin S4x128.rank)
  bcast_S4x1_S4x128_0_1 : S4x1.BroadcastsInDim S4x128 (![0, 1] : Fin 2 → Fin S4x128.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x4_S8000x4_0_0 : ∀ a, (![0, 0] : Fin 2 → Nat) a + S8000x4.size a ≤ S8000x4.size a
  h_S8000x4 : 0 < S8000x4.numel
  shapeCasts_S8000x4_S8000x4 : S8000x4.ShapeCasts S8000x4
  inb_S4x128_S4x128_0_0 : ∀ a, (![0, 0] : Fin 2 → Nat) a + S4x128.size a ≤ S4x128.size a
  h_S4x128 : 0 < S4x128.numel
  shapeCasts_S4x128_S4x128 : S4x128.ShapeCasts S4x128
  bcast_S_S100000x128 : S_.BroadcastsInDim S100000x128 (![] : Fin 0 → Fin S100000x128.rank)
  dot_S10000x128_S128x128_S10000x128_1_0_0_1_n_n_wf : DotDims.WF S10000x128 S128x128 S10000x128 [1] [0] [0] [1] [] []
  dot_S10000x128_S128x8_S10000x8_1_0_0_1_n_n_wf : DotDims.WF S10000x128 S128x8 S10000x8 [1] [0] [0] [1] [] []
  gather_S100000x4_S1600000x1_S1600000x4_1_0_n_n_0_1_14_wf : GatherDims.WF S100000x4 S1600000x1 S1600000x4 [1] [0] [] [0] [] 1 ![1, 4]
  scatter_S100000x4_S1600000x1_S1600000x4_1_0_0_1_wf : ScatterDims.WF S100000x4 S1600000x1 S1600000x4 [1] [0] [0] 1
  gather_S100000x128_S1600000x1_S1600000x128_1_0_n_n_0_1_1128_wf : GatherDims.WF S100000x128 S1600000x1 S1600000x128 [1] [0] [] [0] [] 1 ![1, 128]
  dot_S8000x4_S4x128_S8000x128_1_0_0_1_n_n_wf : DotDims.WF S8000x4 S4x128 S8000x128 [1] [0] [0] [1] [] []
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x8.size a ≤ S128x8.size a
  hwx0_2 : ∀ i : grid0.Coords, EltTy.bits .bf16 = 32 ∨ (Rect.block (s := S128x8) S128x8.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .bf16 = 32 ∨ (Rect.block (s := S100000x128) S10000x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x8.size a ≤ S100000x8.size a
  hwx0_4 : ∀ i : grid0.Coords, EltTy.bits .f32 = 32 ∨ (Rect.block (s := S100000x8) S10000x8.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S1600000x128.size a
  hwx1_0 : ∀ i : grid1.Coords, EltTy.bits .bf16 = 32 ∨ (Rect.block (s := S1600000x128) S8000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x4.size a ≤ S1600000x4.size a
  hwx1_1 : ∀ i : grid1.Coords, EltTy.bits .f32 = 32 ∨ (Rect.block (s := S1600000x4) S8000x4.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x128.size a ≤ S4x128.size a
  hwx1_2 : ∀ i : grid1.Coords, EltTy.bits .bf16 = 32 ∨ (Rect.block (s := S4x128) S4x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S1600000x128.size a
  hwx1_3 : ∀ i : grid1.Coords, EltTy.bits .f32 = 32 ∨ (Rect.block (s := S1600000x128) S8000x128.size (cc1_transform_3 i) (hinb1_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x8_S10000x8_1_0_0_1_n_n : DotDims S10000x128 S128x8 S10000x8 where
  lhsContracting := [1]
  rhsContracting := [0]
  lhsNonContracting := [0]
  rhsNonContracting := [1]
  lhsBatch := []
  rhsBatch := []
  wf := dot_S10000x128_S128x8_S10000x8_1_0_0_1_n_n_wf
def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S8000x4_S4x128_S8000x128_1_0_0_1_n_n : DotDims S8000x4 S4x128 S8000x128 where
  lhsContracting := [1]
  rhsContracting := [0]
  lhsNonContracting := [0]
  rhsNonContracting := [1]
  lhsBatch := []
  rhsBatch := []
  wf := dot_S8000x4_S4x128_S8000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23_0) S10000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v23_1) S10000x8.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v65) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S8000x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v74) S4x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v75) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S1x4x32 : Shape := ⟨3, ![1, 4, 32]⟩
abbrev S100000x4x32 : Shape := ⟨3, ![100000, 4, 32]⟩
abbrev S_ : Shape := ⟨0, ![]⟩
abbrev S100000x4 : Shape := ⟨2, ![100000, 4]⟩
abbrev S1x1600000 : Shape := ⟨2, ![1, 1600000]⟩
abbrev S1600000 : Shape := ⟨1, ![1600000]⟩
abbrev S1600000x1 : Shape := ⟨2, ![1600000, 1]⟩
abbrev S1600000x4 : Shape := ⟨2, ![1600000, 4]⟩
abbrev S1600000x4x32 : Shape := ⟨3, ![1600000, 4, 32]⟩
abbrev S1600000x4x1 : Shape := ⟨3, ![1600000, 4, 1]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S1x4x32, .f32⟩
  | .hbm, ⟨4, _⟩ => ⟨S1x4x32, .f32⟩
  | .hbm, ⟨5, _⟩ => ⟨S100000x128, .f32⟩
  | .hbm, ⟨6, _⟩ => ⟨S100000x4x32, .f32⟩
  | .hbm, ⟨7, _⟩ => ⟨S100000x4x32, .f32⟩
  | .hbm, ⟨8, _⟩ => ⟨S100000x4x32, .f32⟩
  | .hbm, ⟨9, _⟩ => ⟨S_, .f32⟩
  | .hbm, ⟨10, _⟩ => ⟨S100000x4, .f32⟩
  | .hbm, ⟨11, _⟩ => ⟨S100000x4x32, .f32⟩
  | .hbm, ⟨12, _⟩ => ⟨S100000x4x32, .f32⟩
  | .hbm, ⟨13, _⟩ => ⟨S_, .f32⟩
  | .hbm, ⟨14, _⟩ => ⟨S100000x4, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x4, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x4, .f32⟩
  | .hbm, ⟨37, _⟩ => ⟨S1600000x4, .f32⟩
  | .hbm, ⟨38, _⟩ => ⟨S_, .f32⟩
  | .hbm, ⟨39, _⟩ => ⟨S_, .f32⟩
  | .hbm, ⟨40, _⟩ => ⟨S1600000x4, .f32⟩
  | .hbm, ⟨41, _⟩ => ⟨S1600000x4, .i1⟩
  | .hbm, ⟨42, _⟩ => ⟨S_, .f32⟩
  | .hbm, ⟨43, _⟩ => ⟨S1600000x4, .f32⟩
  | .hbm, ⟨44, _⟩ => ⟨S1600000x4, .f32⟩
  | .hbm, ⟨45, _⟩ => ⟨S1600000x4, .f32⟩
  | .hbm, ⟨46, _⟩ => ⟨S_, .f32⟩
  | .hbm, ⟨47, _⟩ => ⟨S_, .f32⟩
  | .hbm, ⟨48, _⟩ => ⟨S1600000x4, .f32⟩
  | .hbm, ⟨49, _⟩ => ⟨S1600000x4, .f32⟩
  | .hbm, ⟨50, _⟩ => ⟨S1600000x4, .f32⟩
  | .hbm, ⟨51, _⟩ => ⟨S_, .f32⟩
  | .hbm, ⟨52, _⟩ => ⟨S100000x4, .f32⟩
  | .hbm, ⟨53, _⟩ => ⟨S1600000x1, .i32⟩
  | .hbm, ⟨54, _⟩ => ⟨S100000x4, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x4, .f32⟩
  | .hbm, ⟨64, _⟩ => ⟨S_, .f32⟩
  | .hbm, ⟨65, _⟩ => ⟨S1600000x4, .f32⟩
  | .hbm, ⟨66, _⟩ => ⟨S1600000x4, .f32⟩
  | .hbm, ⟨67, _⟩ => ⟨S1600000x4, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x4x32, .f32⟩
  | .hbm, ⟨77, _⟩ => ⟨S1600000x4x1, .f32⟩
  | .hbm, ⟨78, _⟩ => ⟨S1600000x4x32, .f32⟩
  | .hbm, ⟨79, _⟩ => ⟨S1600000x4x32, .f32⟩
  | .hbm, ⟨80, _⟩ => ⟨S_, .f32⟩
  | .hbm, ⟨81, _⟩ => ⟨S100000x4x32, .f32⟩
  | .hbm, ⟨82, _⟩ => ⟨S1600000x1, .i32⟩
  | .hbm, ⟨83, _⟩ => ⟨S100000x4x32, .f32⟩
  | .hbm, ⟨84, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_10 : Ref sig .tc := ⟨.hbm, 68, rfl⟩
abbrev main_v45 : Ref sig .tc := ⟨.hbm, 69, rfl⟩
abbrev main_v46 : Ref sig .tc := ⟨.hbm, 70, rfl⟩
abbrev main_c_11 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_12 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩

abbrev nD : Nat := 1
abbrev τ : Topo := Topo.v7x

variable {F : FTy → Type} [FloatOps F]

class Facts₀ : Prop where
  shapeCasts_S100000x128_S100000x4x32 : S100000x128.ShapeCasts S100000x4x32
  bcast_S1x4x32_S100000x4x32_0_1_2 : S1x4x32.BroadcastsInDim S100000x4x32 (![0, 1, 2] : Fin 3 → Fin S100000x4x32.rank)
  reducesTo_S100000x4x32_S100000x4_d2 : S100000x4x32.ReducesTo [2] S100000x4
  h_S_ : 0 < S_.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x4 : S_.BroadcastsInDim S1600000x4 (![] : Fin 0 → Fin S1600000x4.rank)
  reducesTo_S1600000x4_S_d0_1 : S1600000x4.ReducesTo [0, 1] S_
  bcast_S_S100000x4 : S_.BroadcastsInDim S100000x4 (![] : Fin 0 → Fin S100000x4.rank)
  bcast_S1600000x4_S1600000x4x1_0_1 : S1600000x4.BroadcastsInDim S1600000x4x1 (![0, 1] : Fin 2 → Fin S1600000x4x1.rank)
  bcast_S1600000x4x1_S1600000x4x32_0_1_2 : S1600000x4x1.BroadcastsInDim S1600000x4x32 (![0, 1, 2] : Fin 3 → Fin S1600000x4x32.rank)
  bcast_S_S100000x4x32 : S_.BroadcastsInDim S100000x4x32 (![] : Fin 0 → Fin S100000x4x32.rank)
  shapeCasts_S100000x4x32_S100000x128 : S100000x4x32.ShapeCasts S100000x128
  dot_S100000x128_S128x128_S100000x128_1_0_0_1_n_n_wf : DotDims.WF S100000x128 S128x128 S100000x128 [1] [0] [0] [1] [] []
  gather_S100000x4_S1600000x1_S1600000x4_1_0_n_n_0_1_14_wf : GatherDims.WF S100000x4 S1600000x1 S1600000x4 [1] [0] [] [0] [] 1 ![1, 4]
  scatter_S100000x4_S1600000x1_S1600000x4_1_0_0_1_wf : ScatterDims.WF S100000x4 S1600000x1 S1600000x4 [1] [0] [0] 1
  gather_S100000x4x32_S1600000x1_S1600000x4x32_12_0_n_n_0_1_1432_wf : GatherDims.WF S100000x4x32 S1600000x1 S1600000x4x32 [1, 2] [0] [] [0] [] 1 ![1, 4, 32]
  scatter_S100000x4x32_S1600000x1_S1600000x4x32_12_0_0_1_wf : ScatterDims.WF S100000x4x32 S1600000x1 S1600000x4x32 [1, 2] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf
def gather_S100000x4x32_S1600000x1_S1600000x4x32_12_0_n_n_0_1_1432 : GatherDims S100000x4x32 S1600000x1 S1600000x4x32 where
  offsetDims := [1, 2]
  collapsedSliceDims := [0]
  operandBatchingDims := []
  startIndicesBatchingDims := []
  startIndexMap := [0]
  indexVectorDim := 1
  sliceSizes := ![1, 4, 32]
  wf := gather_S100000x4x32_S1600000x1_S1600000x4x32_12_0_n_n_0_1_1432_wf
def scatter_S100000x4x32_S1600000x1_S1600000x4x32_12_0_0_1 : ScatterDims S100000x4x32 S1600000x1 S1600000x4x32 where
  updateWindowDims := [1, 2]
  insertedWindowDims := [0]
  scatterDimsToOperandDims := [0]
  indexVectorDim := 1
  wf := scatter_S100000x4x32_S1600000x1_S1600000x4x32_12_0_0_1_wf

class Facts : Prop extends Facts₀ where

variable [Facts]
-- ==== Proof.KVals.lean ====
/- GENERATED by: python3 scratch/gen_vals.py K   (in the unit directory; the script is filed with the unit)
   from proof/Proof/Gen/KernelIdeal/Launch.lean (the lists hostOps…) and proof/KernelIdeal.lean — a TABLE, no argument: the result of each host operation of the program's @main as that operation's
   printed function applied to the definitions of its operands, stage by stage over the stage's named inputs. -/
import proofs.«132320_j74148315398470_1_alg».proof.Proof.Gen.KernelIdeal.Launch

noncomputable section

namespace Cert.KernelIdeal.KV

open Cert.KernelIdeal Cert.KernelIdeal.Gen Idealize.ShloMosaic Idealize.ShloMosaic.TcCoe Idealize.SL.Sem

variable {F : FTy → Type} [FloatOps F]

/-! ## Before the first kernel region: over the edge list and the two attention vectors -/

def val_main_v0 (adj : (⟨S2x1600000, .i32⟩ : BufTy).Contents (Elt F)) : (⟨S1x1600000, .i32⟩ : BufTy).Contents (Elt F) :=
  ((extractStridedSlice S1x1600000 ![0, 0] · slices_S2x1600000_S1x1600000_0_0) : (⟨S2x1600000, .i32⟩ : BufTy).Contents (Elt F) → (⟨S1x1600000, .i32⟩ : BufTy).Contents (Elt F)) adj
def val_main_v1 (adj : (⟨S2x1600000, .i32⟩ : BufTy).Contents (Elt F)) : (⟨S1600000, .i32⟩ : BufTy).Contents (Elt F) :=
  ((fun v => shapeCast S1600000 v shapeCasts_S1x1600000_S1600000) : (⟨S1x1600000, .i32⟩ : BufTy).Contents (Elt F) → (⟨S1600000, .i32⟩ : BufTy).Contents (Elt F)) (val_main_v0 (F := F) adj)
def val_main_v2 (adj : (⟨S2x1600000, .i32⟩ : BufTy).Contents (Elt F)) : (⟨S1x1600000, .i32⟩ : BufTy).Contents (Elt F) :=
  ((extractStridedSlice S1x1600000 ![1, 0] · slices_S2x1600000_S1x1600000_1_0) : (⟨S2x1600000, .i32⟩ : BufTy).Contents (Elt F) → (⟨S1x1600000, .i32⟩ : BufTy).Contents (Elt F)) adj
def val_main_v3 (adj : (⟨S2x1600000, .i32⟩ : BufTy).Contents (Elt F)) : (⟨S1600000, .i32⟩ : BufTy).Contents (Elt F) :=
  ((fun v => shapeCast S1600000 v shapeCasts_S1x1600000_S1600000) : (⟨S1x1600000, .i32⟩ : BufTy).Contents (Elt F) → (⟨S1600000, .i32⟩ : BufTy).Contents (Elt F)) (val_main_v2 (F := F) adj)
def val_main_v4 (a3 : (⟨S1x4x32, .f32⟩ : BufTy).Contents (Elt F)) : (⟨S128, .f32⟩ : BufTy).Contents (Elt F) :=
  ((fun v => shapeCast S128 v shapeCasts_S1x4x32_S128) : (⟨S1x4x32, .f32⟩ : BufTy).Contents (Elt F) → (⟨S128, .f32⟩ : BufTy).Contents (Elt F)) a3
def val_main_v5 (a4 : (⟨S1x4x32, .f32⟩ : BufTy).Contents (Elt F)) : (⟨S128, .f32⟩ : BufTy).Contents (Elt F) :=
  ((fun v => shapeCast S128 v shapeCasts_S1x4x32_S128) : (⟨S1x4x32, .f32⟩ : BufTy).Contents (Elt F) → (⟨S128, .f32⟩ : BufTy).Contents (Elt F)) a4
def val_main_v6 : (⟨S128, .i32⟩ : BufTy).Contents (Elt F) :=
  ((iotaInDim S128 32 0) : (⟨S128, .i32⟩ : BufTy).Contents (Elt F))
def val_main_c : (⟨S_, .i32⟩ : BufTy).Contents (Elt F) :=
  ((constantI S_ 32 32#32) : (⟨S_, .i32⟩ : BufTy).Contents (Elt F))
def val_main_call0_v0 : (⟨S_, .i32⟩ : BufTy).Contents (Elt F) :=
  (id : (⟨S_, .i32⟩ : BufTy).Contents (Elt F) → (⟨S_, .i32⟩ : BufTy).Contents (Elt F)) (val_main_c (F := F))
def val_main_call0_v1 : (⟨S128, .i32⟩ : BufTy).Contents (Elt F) :=
  ((broadcastInDim S128 ![] bcast_S_S128) : (⟨S_, .i32⟩ : BufTy).Contents (Elt F) → (⟨S128, .i32⟩ : BufTy).Contents (Elt F)) (val_main_call0_v0 (F := F))
def val_main_call0_v2 : (⟨S128, .i32⟩ : BufTy).Contents (Elt F) :=
  (Host.divsi : (⟨S128, .i32⟩ : BufTy).Contents (Elt F) → (⟨S128, .i32⟩ : BufTy).Contents (Elt F) → (⟨S128, .i32⟩ : BufTy).Contents (Elt F)) (val_main_v6 (F := F)) (val_main_call0_v1 (F := F))
def val_main_call0_v3 : (⟨S128, .i32⟩ : BufTy).Contents (Elt F) :=
  (signi : (⟨S128, .i32⟩ : BufTy).Contents (Elt F) → (⟨S128, .i32⟩ : BufTy).Contents (Elt F)) (val_main_v6 (F := F))
def val_main_call0_v4 : (⟨S_, .i32⟩ : BufTy).Contents (Elt F) :=
  (signi : (⟨S_, .i32⟩ : BufTy).Contents (Elt F) → (⟨S_, .i32⟩ : BufTy).Contents (Elt F)) (val_main_call0_v0 (F := F))
def val_main_call0_v5 : (⟨S128, .i32⟩ : BufTy).Contents (Elt F) :=
  ((broadcastInDim S128 ![] bcast_S_S128) : (⟨S_, .i32⟩ : BufTy).Contents (Elt F) → (⟨S128, .i32⟩ : BufTy).Contents (Elt F)) (val_main_call0_v4 (F := F))
def val_main_call0_v6 : (⟨S128, .i1⟩ : BufTy).Contents (Elt F) :=
  ((cmpi .ne) : (⟨S128, .i32⟩ : BufTy).Contents (Elt F) → (⟨S128, .i32⟩ : BufTy).Contents (Elt F) → (⟨S128, .i1⟩ : BufTy).Contents (Elt F)) (val_main_call0_v3 (F := F)) (val_main_call0_v5 (F := F))
def val_main_call0_v7 : (⟨S128, .i32⟩ : BufTy).Contents (Elt F) :=
  ((broadcastInDim S128 ![] bcast_S_S128) : (⟨S_, .i32⟩ : BufTy).Contents (Elt F) → (⟨S128, .i32⟩ : BufTy).Contents (Elt F)) (val_main_call0_v0 (F := F))
def val_main_call0_v8 : (⟨S128, .i32⟩ : BufTy).Contents (Elt F) :=
  (Host.remsi : (⟨S128, .i32⟩ : BufTy).Contents (Elt F) → (⟨S128, .i32⟩ : BufTy).Contents (Elt F) → (⟨S128, .i32⟩ : BufTy).Contents (Elt F)) (val_main_v6 (F := F)) (val_main_call0_v7 (F := F))
def val_main_call0_c : (⟨S_, .i32⟩ : BufTy).Contents (Elt F) :=
  ((constantI S_ 32 0#32) : (⟨S_, .i32⟩ : BufTy).Contents (Elt F))
def val_main_call0_v9 : (⟨S128, .i32⟩ : BufTy).Contents (Elt F) :=
  ((broadcastInDim S128 ![] bcast_S_S128) : (⟨S_, .i32⟩ : BufTy).Contents (Elt F) → (⟨S128, .i32⟩ : BufTy).Contents (Elt F)) (val_main_call0_c (F := F))
def val_main_call0_v10 : (⟨S128, .i1⟩ : BufTy).Contents (Elt F) :=
  ((cmpi .ne) : (⟨S128, .i32⟩ : BufTy).Contents (Elt F) → (⟨S128, .i32⟩ : BufTy).Contents (Elt F) → (⟨S128, .i1⟩ : BufTy).Contents (Elt F)) (val_main_call0_v8 (F := F)) (val_main_call0_v9 (F := F))
def val_main_call0_v11 : (⟨S128, .i1⟩ : BufTy).Contents (Elt F) :=
  (andi : (⟨S128, .i1⟩ : BufTy).Contents (Elt F) → (⟨S128, .i1⟩ : BufTy).Contents (Elt F) → (⟨S128, .i1⟩ : BufTy).Contents (Elt F)) (val_main_call0_v6 (F := F)) (val_main_call0_v10 (F := F))
def val_main_call0_c_0 : (⟨S_, .i32⟩ : BufTy).Contents (Elt F) :=
  ((constantI S_ 32 1#32) : (⟨S_, .i32⟩ : BufTy).Contents (Elt F))
def val_main_call0_v12 : (⟨S128, .i32⟩ : BufTy).Contents (Elt F) :=
  ((broadcastInDim S128 ![] bcast_S_S128) : (⟨S_, .i32⟩ : BufTy).Contents (Elt F) → (⟨S128, .i32⟩ : BufTy).Contents (Elt F)) (val_main_call0_c_0 (F := F))
def val_main_call0_v13 : (⟨S128, .i32⟩ : BufTy).Contents (Elt F) :=
  (subi : (⟨S128, .i32⟩ : BufTy).Contents (Elt F) → (⟨S128, .i32⟩ : BufTy).Contents (Elt F) → (⟨S128, .i32⟩ : BufTy).Contents (Elt F)) (val_main_call0_v2 (F := F)) (val_main_call0_v12 (F := F))
def val_main_v7 : (⟨S128, .i32⟩ : BufTy).Contents (Elt F) :=
  (select : (⟨S128, .i1⟩ : BufTy).Contents (Elt F) → (⟨S128, .i32⟩ : BufTy).Contents (Elt F) → (⟨S128, .i32⟩ : BufTy).Contents (Elt F) → (⟨S128, .i32⟩ : BufTy).Contents (Elt F)) (val_main_call0_v11 (F := F)) (val_main_call0_v13 (F := F)) (val_main_call0_v2 (F := F))
def val_main_v8 : (⟨S4, .i32⟩ : BufTy).Contents (Elt F) :=
  ((iotaInDim S4 32 0) : (⟨S4, .i32⟩ : BufTy).Contents (Elt F))
def val_main_v9 : (⟨S128x1, .i32⟩ : BufTy).Contents (Elt F) :=
  (broadcastInDim S128x1 ![0] bcast_S128_S128x1_0 : (⟨S128, .i32⟩ : BufTy).Contents (Elt F) → (⟨S128x1, .i32⟩ : BufTy).Contents (Elt F)) (val_main_v7 (F := F))
def val_main_v10 : (⟨S1x4, .i32⟩ : BufTy).Contents (Elt F) :=
  (broadcastInDim S1x4 ![1] bcast_S4_S1x4_1 : (⟨S4, .i32⟩ : BufTy).Contents (Elt F) → (⟨S1x4, .i32⟩ : BufTy).Contents (Elt F)) (val_main_v8 (F := F))
def val_main_v11 : (⟨S128x4, .i32⟩ : BufTy).Contents (Elt F) :=
  (broadcastInDim S128x4 ![0, 1] bcast_S128x1_S128x4_0_1 : (⟨S128x1, .i32⟩ : BufTy).Contents (Elt F) → (⟨S128x4, .i32⟩ : BufTy).Contents (Elt F)) (val_main_v9 (F := F))
def val_main_v12 : (⟨S128x4, .i32⟩ : BufTy).Contents (Elt F) :=
  (broadcastInDim S128x4 ![0, 1] bcast_S1x4_S128x4_0_1 : (⟨S1x4, .i32⟩ : BufTy).Contents (Elt F) → (⟨S128x4, .i32⟩ : BufTy).Contents (Elt F)) (val_main_v10 (F := F))
def val_main_v13 : (⟨S128x4, .i1⟩ : BufTy).Contents (Elt F) :=
  (cmpi .eq : (⟨S128x4, .i32⟩ : BufTy).Contents (Elt F) → (⟨S128x4, .i32⟩ : BufTy).Contents (Elt F) → (⟨S128x4, .i1⟩ : BufTy).Contents (Elt F)) (val_main_v11 (F := F)) (val_main_v12 (F := F))
def val_main_v14 : (⟨S128x4, .f32⟩ : BufTy).Contents (Elt F) :=
  (uitofp .f32 : (⟨S128x4, .i1⟩ : BufTy).Contents (Elt F) → (⟨S128x4, .f32⟩ : BufTy).Contents (Elt F)) (val_main_v13 (F := F))
def val_main_v15 (a3 : (⟨S1x4x32, .f32⟩ : BufTy).Contents (Elt F)) : (⟨S128x1, .f32⟩ : BufTy).Contents (Elt F) :=
  (broadcastInDim S128x1 ![0] bcast_S128_S128x1_0 : (⟨S128, .f32⟩ : BufTy).Contents (Elt F) → (⟨S128x1, .f32⟩ : BufTy).Contents (Elt F)) (val_main_v4 (F := F) a3)
def val_main_v16 (a3 : (⟨S1x4x32, .f32⟩ : BufTy).Contents (Elt F)) : (⟨S128x4, .f32⟩ : BufTy).Contents (Elt F) :=
  (broadcastInDim S128x4 ![0, 1] bcast_S128x1_S128x4_0_1 : (⟨S128x1, .f32⟩ : BufTy).Contents (Elt F) → (⟨S128x4, .f32⟩ : BufTy).Contents (Elt F)) (val_main_v15 (F := F) a3)
def val_main_v17 (a3 : (⟨S1x4x32, .f32⟩ : BufTy).Contents (Elt F)) : (⟨S128x4, .f32⟩ : BufTy).Contents (Elt F) :=
  (mulf : (⟨S128x4, .f32⟩ : BufTy).Contents (Elt F) → (⟨S128x4, .f32⟩ : BufTy).Contents (Elt F) → (⟨S128x4, .f32⟩ : BufTy).Contents (Elt F)) (val_main_v14 (F := F)) (val_main_v16 (F := F) a3)
def val_main_v18 (a4 : (⟨S1x4x32, .f32⟩ : BufTy).Contents (Elt F)) : (⟨S128x1, .f32⟩ : BufTy).Contents (Elt F) :=
  (broadcastInDim S128x1 ![0] bcast_S128_S128x1_0 : (⟨S128, .f32⟩ : BufTy).Contents (Elt F) → (⟨S128x1, .f32⟩ : BufTy).Contents (Elt F)) (val_main_v5 (F := F) a4)
def val_main_v19 (a4 : (⟨S1x4x32, .f32⟩ : BufTy).Contents (Elt F)) : (⟨S128x4, .f32⟩ : BufTy).Contents (Elt F) :=
  (broadcastInDim S128x4 ![0, 1] bcast_S128x1_S128x4_0_1 : (⟨S128x1, .f32⟩ : BufTy).Contents (Elt F) → (⟨S128x4, .f32⟩ : BufTy).Contents (Elt F)) (val_main_v18 (F := F) a4)
def val_main_v20 (a4 : (⟨S1x4x32, .f32⟩ : BufTy).Contents (Elt F)) : (⟨S128x4, .f32⟩ : BufTy).Contents (Elt F) :=
  (mulf : (⟨S128x4, .f32⟩ : BufTy).Contents (Elt F) → (⟨S128x4, .f32⟩ : BufTy).Contents (Elt F) → (⟨S128x4, .f32⟩ : BufTy).Contents (Elt F)) (val_main_v14 (F := F)) (val_main_v19 (F := F) a4)
def val_main_v21 (a3 : (⟨S1x4x32, .f32⟩ : BufTy).Contents (Elt F)) (a4 : (⟨S1x4x32, .f32⟩ : BufTy).Contents (Elt F)) : (⟨S128x8, .f32⟩ : BufTy).Contents (Elt F) :=
  ((fun a b => concatenate S128x8 1 [⟨S128x4, a⟩, ⟨S128x4, b⟩] concatenates_S128x4_S128x4_S128x8_d1) : (⟨S128x4, .f32⟩ : BufTy).Contents (Elt F) → (⟨S128x4, .f32⟩ : BufTy).Contents (Elt F) → (⟨S128x8, .f32⟩ : BufTy).Contents (Elt F)) (val_main_v17 (F := F) a3) (val_main_v20 (F := F) a4)
def val_main_v22 (a3 : (⟨S1x4x32, .f32⟩ : BufTy).Contents (Elt F)) (a4 : (⟨S1x4x32, .f32⟩ : BufTy).Contents (Elt F)) : (⟨S128x8, .bf16⟩ : BufTy).Contents (Elt F) :=
  ((truncf .bf16 · bitsLt_bf16_f32) : (⟨S128x8, .f32⟩ : BufTy).Contents (Elt F) → (⟨S128x8, .bf16⟩ : BufTy).Contents (Elt F)) (val_main_v21 (F := F) a3 a4)

/-! ## The two halves of the first region's score array -/

def val_main_v24 (sc : (⟨S100000x8, .f32⟩ : BufTy).Contents (Elt F)) : (⟨S100000x4, .f32⟩ : BufTy).Contents (Elt F) :=
  ((extractStridedSlice S100000x4 ![0, 0] · slices_S100000x8_S100000x4_0_0) : (⟨S100000x8, .f32⟩ : BufTy).Contents (Elt F) → (⟨S100000x4, .f32⟩ : BufTy).Contents (Elt F)) sc
def val_main_v25 (sc : (⟨S100000x8, .f32⟩ : BufTy).Contents (Elt F)) : (⟨S100000x4, .f32⟩ : BufTy).Contents (Elt F) :=
  ((extractStridedSlice S100000x4 ![0, 4] · slices_S100000x8_S100000x4_0_4) : (⟨S100000x8, .f32⟩ : BufTy).Contents (Elt F) → (⟨S100000x4, .f32⟩ : BufTy).Contents (Elt F)) sc

/-! ## Between the regions: over the two score halves, the two index rows and the projected rows -/

def val_main_c_0 : (⟨S_, .i32⟩ : BufTy).Contents (Elt F) :=
  ((constantI S_ 32 0#32) : (⟨S_, .i32⟩ : BufTy).Contents (Elt F))
def val_main_v26 : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (val_main_c_0 (F := F))
def val_main_v27 (src : (⟨S1600000, .i32⟩ : BufTy).Contents (Elt F)) : (⟨S1600000, .i1⟩ : BufTy).Contents (Elt F) :=
  (cmpi .slt : (⟨S1600000, .i32⟩ : BufTy).Contents (Elt F) → (⟨S1600000, .i32⟩ : BufTy).Contents (Elt F) → (⟨S1600000, .i1⟩ : BufTy).Contents (Elt F)) src (val_main_v26 (F := F))
def val_main_c_1 : (⟨S_, .i32⟩ : BufTy).Contents (Elt F) :=
  ((constantI S_ 32 100000#32) : (⟨S_, .i32⟩ : BufTy).Contents (Elt F))
def val_main_v28 : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (val_main_c_1 (F := F))
def val_main_v29 (src : (⟨S1600000, .i32⟩ : BufTy).Contents (Elt F)) : (⟨S1600000, .i32⟩ : BufTy).Contents (Elt F) :=
  (addi : (⟨S1600000, .i32⟩ : BufTy).Contents (Elt F) → (⟨S1600000, .i32⟩ : BufTy).Contents (Elt F) → (⟨S1600000, .i32⟩ : BufTy).Contents (Elt F)) src (val_main_v28 (F := F))
def val_main_v30 (src : (⟨S1600000, .i32⟩ : BufTy).Contents (Elt F)) : (⟨S1600000, .i32⟩ : BufTy).Contents (Elt F) :=
  (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (val_main_v27 (F := F) src) (val_main_v29 (F := F) src) src
def val_main_v31 (src : (⟨S1600000, .i32⟩ : BufTy).Contents (Elt F)) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (val_main_v30 (F := F) src)
def val_main_v32 (ss : (⟨S100000x4, .f32⟩ : BufTy).Contents (Elt F)) (src : (⟨S1600000, .i32⟩ : BufTy).Contents (Elt F)) : (⟨S1600000x4, .f32⟩ : BufTy).Contents (Elt F) :=
  ((fun x i => Host.gather gather_S100000x4_S1600000x1_S1600000x4_1_0_n_n_0_1_14 x i) : (⟨S100000x4, .f32⟩ : BufTy).Contents (Elt F) → (⟨S1600000x1, .i32⟩ : BufTy).Contents (Elt F) → (⟨S1600000x4, .f32⟩ : BufTy).Contents (Elt F)) ss (val_main_v31 (F := F) src)
def val_main_c_2 : (⟨S_, .i32⟩ : BufTy).Contents (Elt F) :=
  ((constantI S_ 32 0#32) : (⟨S_, .i32⟩ : BufTy).Contents (Elt F))
def val_main_v33 : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (val_main_c_2 (F := F))
def val_main_v34 (dst : (⟨S1600000, .i32⟩ : BufTy).Contents (Elt F)) : (⟨S1600000, .i1⟩ : BufTy).Contents (Elt F) :=
  (cmpi .slt : (⟨S1600000, .i32⟩ : BufTy).Contents (Elt F) → (⟨S1600000, .i32⟩ : BufTy).Contents (Elt F) → (⟨S1600000, .i1⟩ : BufTy).Contents (Elt F)) dst (val_main_v33 (F := F))
def val_main_c_3 : (⟨S_, .i32⟩ : BufTy).Contents (Elt F) :=
  ((constantI S_ 32 100000#32) : (⟨S_, .i32⟩ : BufTy).Contents (Elt F))
def val_main_v35 : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (val_main_c_3 (F := F))
def val_main_v36 (dst : (⟨S1600000, .i32⟩ : BufTy).Contents (Elt F)) : (⟨S1600000, .i32⟩ : BufTy).Contents (Elt F) :=
  (addi : (⟨S1600000, .i32⟩ : BufTy).Contents (Elt F) → (⟨S1600000, .i32⟩ : BufTy).Contents (Elt F) → (⟨S1600000, .i32⟩ : BufTy).Contents (Elt F)) dst (val_main_v35 (F := F))
def val_main_v37 (dst : (⟨S1600000, .i32⟩ : BufTy).Contents (Elt F)) : (⟨S1600000, .i32⟩ : BufTy).Contents (Elt F) :=
  (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (val_main_v34 (F := F) dst) (val_main_v36 (F := F) dst) dst
def val_main_v38 (dst : (⟨S1600000, .i32⟩ : BufTy).Contents (Elt F)) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (val_main_v37 (F := F) dst)
def val_main_v39 (sd : (⟨S100000x4, .f32⟩ : BufTy).Contents (Elt F)) (dst : (⟨S1600000, .i32⟩ : BufTy).Contents (Elt F)) : (⟨S1600000x4, .f32⟩ : BufTy).Contents (Elt F) :=
  ((fun x i => Host.gather gather_S100000x4_S1600000x1_S1600000x4_1_0_n_n_0_1_14 x i) : (⟨S100000x4, .f32⟩ : BufTy).Contents (Elt F) → (⟨S1600000x1, .i32⟩ : BufTy).Contents (Elt F) → (⟨S1600000x4, .f32⟩ : BufTy).Contents (Elt F)) sd (val_main_v38 (F := F) dst)
def val_main_v40 (ss : (⟨S100000x4, .f32⟩ : BufTy).Contents (Elt F)) (sd : (⟨S100000x4, .f32⟩ : BufTy).Contents (Elt F)) (src : (⟨S1600000, .i32⟩ : BufTy).Contents (Elt F)) (dst : (⟨S1600000, .i32⟩ : BufTy).Contents (Elt F)) : (⟨S1600000x4, .f32⟩ : BufTy).Contents (Elt F) :=
  (addf : (⟨S1600000x4, .f32⟩ : BufTy).Contents (Elt F) → (⟨S1600000x4, .f32⟩ : BufTy).Contents (Elt F) → (⟨S1600000x4, .f32⟩ : BufTy).Contents (Elt F)) (val_main_v32 (F := F) ss src) (val_main_v39 (F := F) sd dst)
def val_main_cst : (⟨S_, .f32⟩ : BufTy).Contents (Elt F) :=
  ((constant S_ .f32 0x3E4CCCCD#32) : (⟨S_, .f32⟩ : BufTy).Contents (Elt F))
def val_main_call1_cst : (⟨S_, .f32⟩ : BufTy).Contents (Elt F) :=
  ((constant S_ .f32 0x00000000#32) : (⟨S_, .f32⟩ : BufTy).Contents (Elt F))
def val_main_call1_v0 : (⟨S1600000x4, .f32⟩ : BufTy).Contents (Elt F) :=
  ((broadcastInDim S1600000x4 ![] bcast_S_S1600000x4) : (⟨S_, .f32⟩ : BufTy).Contents (Elt F) → (⟨S1600000x4, .f32⟩ : BufTy).Contents (Elt F)) (val_main_call1_cst (F := F))
def val_main_call1_v1 (ss : (⟨S100000x4, .f32⟩ : BufTy).Contents (Elt F)) (sd : (⟨S100000x4, .f32⟩ : BufTy).Contents (Elt F)) (src : (⟨S1600000, .i32⟩ : BufTy).Contents (Elt F)) (dst : (⟨S1600000, .i32⟩ : BufTy).Contents (Elt F)) : (⟨S1600000x4, .i1⟩ : BufTy).Contents (Elt F) :=
  ((cmpf .oge) : (⟨S1600000x4, .f32⟩ : BufTy).Contents (Elt F) → (⟨S1600000x4, .f32⟩ : BufTy).Contents (Elt F) → (⟨S1600000x4, .i1⟩ : BufTy).Contents (Elt F)) (val_main_v40 (F := F) ss sd src dst) (val_main_call1_v0 (F := F))
def val_main_call1_v2 : (⟨S_, .f32⟩ : BufTy).Contents (Elt F) :=
  (id : (⟨S_, .f32⟩ : BufTy).Contents (Elt F) → (⟨S_, .f32⟩ : BufTy).Contents (Elt F)) (val_main_cst (F := F))
def val_main_call1_v3 : (⟨S1600000x4, .f32⟩ : BufTy).Contents (Elt F) :=
  ((broadcastInDim S1600000x4 ![] bcast_S_S1600000x4) : (⟨S_, .f32⟩ : BufTy).Contents (Elt F) → (⟨S1600000x4, .f32⟩ : BufTy).Contents (Elt F)) (val_main_call1_v2 (F := F))
def val_main_call1_v4 (ss : (⟨S100000x4, .f32⟩ : BufTy).Contents (Elt F)) (sd : (⟨S100000x4, .f32⟩ : BufTy).Contents (Elt F)) (src : (⟨S1600000, .i32⟩ : BufTy).Contents (Elt F)) (dst : (⟨S1600000, .i32⟩ : BufTy).Contents (Elt F)) : (⟨S1600000x4, .f32⟩ : BufTy).Contents (Elt F) :=
  (mulf : (⟨S1600000x4, .f32⟩ : BufTy).Contents (Elt F) → (⟨S1600000x4, .f32⟩ : BufTy).Contents (Elt F) → (⟨S1600000x4, .f32⟩ : BufTy).Contents (Elt F)) (val_main_call1_v3 (F := F)) (val_main_v40 (F := F) ss sd src dst)
def val_main_v41 (ss : (⟨S100000x4, .f32⟩ : BufTy).Contents (Elt F)) (sd : (⟨S100000x4, .f32⟩ : BufTy).Contents (Elt F)) (src : (⟨S1600000, .i32⟩ : BufTy).Contents (Elt F)) (dst : (⟨S1600000, .i32⟩ : BufTy).Contents (Elt F)) : (⟨S1600000x4, .f32⟩ : BufTy).Contents (Elt F) :=
  (select : (⟨S1600000x4, .i1⟩ : BufTy).Contents (Elt F) → (⟨S1600000x4, .f32⟩ : BufTy).Contents (Elt F) → (⟨S1600000x4, .f32⟩ : BufTy).Contents (Elt F) → (⟨S1600000x4, .f32⟩ : BufTy).Contents (Elt F)) (val_main_call1_v1 (F := F) ss sd src dst) (val_main_v40 (F := F) ss sd src dst) (val_main_call1_v4 (F := F) ss sd src dst)
def val_main_cst_4 : (⟨S_, .f32⟩ : BufTy).Contents (Elt F) :=
  ((constant S_ .f32 0xFF800000#32) : (⟨S_, .f32⟩ : BufTy).Contents (Elt F))
def val_main_v42 (ss : (⟨S100000x4, .f32⟩ : BufTy).Contents (Elt F)) (sd : (⟨S100000x4, .f32⟩ : BufTy).Contents (Elt F)) (src : (⟨S1600000, .i32⟩ : BufTy).Contents (Elt F)) (dst : (⟨S1600000, .i32⟩ : BufTy).Contents (Elt F)) : (⟨S_, .f32⟩ : BufTy).Contents (Elt F) :=
  ((fun x v => Host.reduce FloatOps.maximumf x v reducesTo_S1600000x4_S_d0_1 h_S_) : (⟨S1600000x4, .f32⟩ : BufTy).Contents (Elt F) → (⟨S_, .f32⟩ : BufTy).Contents (Elt F) → (⟨S_, .f32⟩ : BufTy).Contents (Elt F)) (val_main_v41 (F := F) ss sd src dst) (val_main_cst_4 (F := F))
def val_main_v43 (ss : (⟨S100000x4, .f32⟩ : BufTy).Contents (Elt F)) (sd : (⟨S100000x4, .f32⟩ : BufTy).Contents (Elt F)) (src : (⟨S1600000, .i32⟩ : BufTy).Contents (Elt F)) (dst : (⟨S1600000, .i32⟩ : BufTy).Contents (Elt F)) : (⟨S1600000x4, .f32⟩ : BufTy).Contents (Elt F) :=
  (broadcastInDim S1600000x4 ![] bcast_S_S1600000x4 : (⟨S_, .f32⟩ : BufTy).Contents (Elt F) → (⟨S1600000x4, .f32⟩ : BufTy).Contents (Elt F)) (val_main_v42 (F := F) ss sd src dst)
def val_main_v44 (ss : (⟨S100000x4, .f32⟩ : BufTy).Contents (Elt F)) (sd : (⟨S100000x4, .f32⟩ : BufTy).Contents (Elt F)) (src : (⟨S1600000, .i32⟩ : BufTy).Contents (Elt F)) (dst : (⟨S1600000, .i32⟩ : BufTy).Contents (Elt F)) : (⟨S1600000x4, .f32⟩ : BufTy).Contents (Elt F) :=
  (subf : (⟨S1600000x4, .f32⟩ : BufTy).Contents (Elt F) → (⟨S1600000x4, .f32⟩ : BufTy).Contents (Elt F) → (⟨S1600000x4, .f32⟩ : BufTy).Contents (Elt F)) (val_main_v41 (F := F) ss sd src dst) (val_main_v43 (F := F) ss sd src dst)
def val_main_v45 (ss : (⟨S100000x4, .f32⟩ : BufTy).Contents (Elt F)) (sd : (⟨S100000x4, .f32⟩ : BufTy).Contents (Elt F)) (src : (⟨S1600000, .i32⟩ : BufTy).Contents (Elt F)) (dst : (⟨S1600000, .i32⟩ : BufTy).Contents (Elt F)) : (⟨S1600000x4, .f32⟩ : BufTy).Contents (Elt F) :=
  (Host.exp : (⟨S1600000x4, .f32⟩ : BufTy).Contents (Elt F) → (⟨S1600000x4, .f32⟩ : BufTy).Contents (Elt F)) (val_main_v44 (F := F) ss sd src dst)
def val_main_cst_5 : (⟨S_, .f32⟩ : BufTy).Contents (Elt F) :=
  ((constant S_ .f32 0x00000000#32) : (⟨S_, .f32⟩ : BufTy).Contents (Elt F))
def val_main_v46 : (⟨S100000x4, .f32⟩ : BufTy).Contents (Elt F) :=
  (broadcastInDim S100000x4 ![] bcast_S_S100000x4 : (⟨S_, .f32⟩ : BufTy).Contents (Elt F) → (⟨S100000x4, .f32⟩ : BufTy).Contents (Elt F)) (val_main_cst_5 (F := F))
def val_main_v47 (dst : (⟨S1600000, .i32⟩ : BufTy).Contents (Elt F)) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) dst
def val_main_v48 (ss : (⟨S100000x4, .f32⟩ : BufTy).Contents (Elt F)) (sd : (⟨S100000x4, .f32⟩ : BufTy).Contents (Elt F)) (src : (⟨S1600000, .i32⟩ : BufTy).Contents (Elt F)) (dst : (⟨S1600000, .i32⟩ : BufTy).Contents (Elt F)) : (⟨S100000x4, .f32⟩ : BufTy).Contents (Elt F) :=
  ((fun x i u => Host.scatterAdd scatter_S100000x4_S1600000x1_S1600000x4_1_0_0_1 x i u) : (⟨S100000x4, .f32⟩ : BufTy).Contents (Elt F) → (⟨S1600000x1, .i32⟩ : BufTy).Contents (Elt F) → (⟨S1600000x4, .f32⟩ : BufTy).Contents (Elt F) → (⟨S100000x4, .f32⟩ : BufTy).Contents (Elt F)) (val_main_v46 (F := F)) (val_main_v47 (F := F) dst) (val_main_v45 (F := F) ss sd src dst)
def val_main_c_6 : (⟨S_, .i32⟩ : BufTy).Contents (Elt F) :=
  ((constantI S_ 32 0#32) : (⟨S_, .i32⟩ : BufTy).Contents (Elt F))
def val_main_v49 : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (val_main_c_6 (F := F))
def val_main_v50 (dst : (⟨S1600000, .i32⟩ : BufTy).Contents (Elt F)) : (⟨S1600000, .i1⟩ : BufTy).Contents (Elt F) :=
  (cmpi .slt : (⟨S1600000, .i32⟩ : BufTy).Contents (Elt F) → (⟨S1600000, .i32⟩ : BufTy).Contents (Elt F) → (⟨S1600000, .i1⟩ : BufTy).Contents (Elt F)) dst (val_main_v49 (F := F))
def val_main_c_7 : (⟨S_, .i32⟩ : BufTy).Contents (Elt F) :=
  ((constantI S_ 32 100000#32) : (⟨S_, .i32⟩ : BufTy).Contents (Elt F))
def val_main_v51 : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (val_main_c_7 (F := F))
def val_main_v52 (dst : (⟨S1600000, .i32⟩ : BufTy).Contents (Elt F)) : (⟨S1600000, .i32⟩ : BufTy).Contents (Elt F) :=
  (addi : (⟨S1600000, .i32⟩ : BufTy).Contents (Elt F) → (⟨S1600000, .i32⟩ : BufTy).Contents (Elt F) → (⟨S1600000, .i32⟩ : BufTy).Contents (Elt F)) dst (val_main_v51 (F := F))
def val_main_v53 (dst : (⟨S1600000, .i32⟩ : BufTy).Contents (Elt F)) : (⟨S1600000, .i32⟩ : BufTy).Contents (Elt F) :=
  (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (val_main_v50 (F := F) dst) (val_main_v52 (F := F) dst) dst
def val_main_v54 (dst : (⟨S1600000, .i32⟩ : BufTy).Contents (Elt F)) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (val_main_v53 (F := F) dst)
def val_main_v55 (ss : (⟨S100000x4, .f32⟩ : BufTy).Contents (Elt F)) (sd : (⟨S100000x4, .f32⟩ : BufTy).Contents (Elt F)) (src : (⟨S1600000, .i32⟩ : BufTy).Contents (Elt F)) (dst : (⟨S1600000, .i32⟩ : BufTy).Contents (Elt F)) : (⟨S1600000x4, .f32⟩ : BufTy).Contents (Elt F) :=
  ((fun x i => Host.gather gather_S100000x4_S1600000x1_S1600000x4_1_0_n_n_0_1_14 x i) : (⟨S100000x4, .f32⟩ : BufTy).Contents (Elt F) → (⟨S1600000x1, .i32⟩ : BufTy).Contents (Elt F) → (⟨S1600000x4, .f32⟩ : BufTy).Contents (Elt F)) (val_main_v48 (F := F) ss sd src dst) (val_main_v54 (F := F) dst)
def val_main_cst_8 : (⟨S_, .f32⟩ : BufTy).Contents (Elt F) :=
  ((constant S_ .f32 0x24E69595#32) : (⟨S_, .f32⟩ : BufTy).Contents (Elt F))
def val_main_v56 : (⟨S1600000x4, .f32⟩ : BufTy).Contents (Elt F) :=
  (broadcastInDim S1600000x4 ![] bcast_S_S1600000x4 : (⟨S_, .f32⟩ : BufTy).Contents (Elt F) → (⟨S1600000x4, .f32⟩ : BufTy).Contents (Elt F)) (val_main_cst_8 (F := F))
def val_main_v57 (ss : (⟨S100000x4, .f32⟩ : BufTy).Contents (Elt F)) (sd : (⟨S100000x4, .f32⟩ : BufTy).Contents (Elt F)) (src : (⟨S1600000, .i32⟩ : BufTy).Contents (Elt F)) (dst : (⟨S1600000, .i32⟩ : BufTy).Contents (Elt F)) : (⟨S1600000x4, .f32⟩ : BufTy).Contents (Elt F) :=
  (addf : (⟨S1600000x4, .f32⟩ : BufTy).Contents (Elt F) → (⟨S1600000x4, .f32⟩ : BufTy).Contents (Elt F) → (⟨S1600000x4, .f32⟩ : BufTy).Contents (Elt F)) (val_main_v55 (F := F) ss sd src dst) (val_main_v56 (F := F))
def val_main_v58 (ss : (⟨S100000x4, .f32⟩ : BufTy).Contents (Elt F)) (sd : (⟨S100000x4, .f32⟩ : BufTy).Contents (Elt F)) (src : (⟨S1600000, .i32⟩ : BufTy).Contents (Elt F)) (dst : (⟨S1600000, .i32⟩ : BufTy).Contents (Elt F)) : (⟨S1600000x4, .f32⟩ : BufTy).Contents (Elt F) :=
  (Host.divf : (⟨S1600000x4, .f32⟩ : BufTy).Contents (Elt F) → (⟨S1600000x4, .f32⟩ : BufTy).Contents (Elt F) → (⟨S1600000x4, .f32⟩ : BufTy).Contents (Elt F)) (val_main_v45 (F := F) ss sd src dst) (val_main_v57 (F := F) ss sd src dst)
def val_main_c_9 : (⟨S_, .i32⟩ : BufTy).Contents (Elt F) :=
  ((constantI S_ 32 0#32) : (⟨S_, .i32⟩ : BufTy).Contents (Elt F))
def val_main_v59 : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (val_main_c_9 (F := F))
def val_main_v60 (src : (⟨S1600000, .i32⟩ : BufTy).Contents (Elt F)) : (⟨S1600000, .i1⟩ : BufTy).Contents (Elt F) :=
  (cmpi .slt : (⟨S1600000, .i32⟩ : BufTy).Contents (Elt F) → (⟨S1600000, .i32⟩ : BufTy).Contents (Elt F) → (⟨S1600000, .i1⟩ : BufTy).Contents (Elt F)) src (val_main_v59 (F := F))
def val_main_c_10 : (⟨S_, .i32⟩ : BufTy).Contents (Elt F) :=
  ((constantI S_ 32 100000#32) : (⟨S_, .i32⟩ : BufTy).Contents (Elt F))
def val_main_v61 : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (val_main_c_10 (F := F))
def val_main_v62 (src : (⟨S1600000, .i32⟩ : BufTy).Contents (Elt F)) : (⟨S1600000, .i32⟩ : BufTy).Contents (Elt F) :=
  (addi : (⟨S1600000, .i32⟩ : BufTy).Contents (Elt F) → (⟨S1600000, .i32⟩ : BufTy).Contents (Elt F) → (⟨S1600000, .i32⟩ : BufTy).Contents (Elt F)) src (val_main_v61 (F := F))
def val_main_v63 (src : (⟨S1600000, .i32⟩ : BufTy).Contents (Elt F)) : (⟨S1600000, .i32⟩ : BufTy).Contents (Elt F) :=
  (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (val_main_v60 (F := F) src) (val_main_v62 (F := F) src) src
def val_main_v64 (src : (⟨S1600000, .i32⟩ : BufTy).Contents (Elt F)) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (val_main_v63 (F := F) src)
def val_main_v65 (src : (⟨S1600000, .i32⟩ : BufTy).Contents (Elt F)) (p : (⟨S100000x128, .bf16⟩ : BufTy).Contents (Elt F)) : (⟨S1600000x128, .bf16⟩ : BufTy).Contents (Elt F) :=
  ((fun x i => Host.gather gather_S100000x128_S1600000x1_S1600000x128_1_0_n_n_0_1_1128 x i) : (⟨S100000x128, .bf16⟩ : BufTy).Contents (Elt F) → (⟨S1600000x1, .i32⟩ : BufTy).Contents (Elt F) → (⟨S1600000x128, .bf16⟩ : BufTy).Contents (Elt F)) p (val_main_v64 (F := F) src)
def val_main_v66 : (⟨S4, .i32⟩ : BufTy).Contents (Elt F) :=
  ((iotaInDim S4 32 0) : (⟨S4, .i32⟩ : BufTy).Contents (Elt F))
def val_main_v67 : (⟨S4x1, .i32⟩ : BufTy).Contents (Elt F) :=
  (broadcastInDim S4x1 ![0] bcast_S4_S4x1_0 : (⟨S4, .i32⟩ : BufTy).Contents (Elt F) → (⟨S4x1, .i32⟩ : BufTy).Contents (Elt F)) (val_main_v66 (F := F))
def val_main_v68 : (⟨S128, .i32⟩ : BufTy).Contents (Elt F) :=
  ((iotaInDim S128 32 0) : (⟨S128, .i32⟩ : BufTy).Contents (Elt F))
def val_main_v69 : (⟨S1x128, .i32⟩ : BufTy).Contents (Elt F) :=
  (broadcastInDim S1x128 ![1] bcast_S128_S1x128_1 : (⟨S128, .i32⟩ : BufTy).Contents (Elt F) → (⟨S1x128, .i32⟩ : BufTy).Contents (Elt F)) (val_main_v68 (F := F))
def val_main_c_11 : (⟨S_, .i32⟩ : BufTy).Contents (Elt F) :=
  ((constantI S_ 32 32#32) : (⟨S_, .i32⟩ : BufTy).Contents (Elt F))
def val_main_call2_v0 : (⟨S_, .i32⟩ : BufTy).Contents (Elt F) :=
  (id : (⟨S_, .i32⟩ : BufTy).Contents (Elt F) → (⟨S_, .i32⟩ : BufTy).Contents (Elt F)) (val_main_c_11 (F := F))
def val_main_call2_v1 : (⟨S1x128, .i32⟩ : BufTy).Contents (Elt F) :=
  ((broadcastInDim S1x128 ![] bcast_S_S1x128) : (⟨S_, .i32⟩ : BufTy).Contents (Elt F) → (⟨S1x128, .i32⟩ : BufTy).Contents (Elt F)) (val_main_call2_v0 (F := F))
def val_main_call2_v2 : (⟨S1x128, .i32⟩ : BufTy).Contents (Elt F) :=
  (Host.divsi : (⟨S1x128, .i32⟩ : BufTy).Contents (Elt F) → (⟨S1x128, .i32⟩ : BufTy).Contents (Elt F) → (⟨S1x128, .i32⟩ : BufTy).Contents (Elt F)) (val_main_v69 (F := F)) (val_main_call2_v1 (F := F))
def val_main_call2_v3 : (⟨S1x128, .i32⟩ : BufTy).Contents (Elt F) :=
  (signi : (⟨S1x128, .i32⟩ : BufTy).Contents (Elt F) → (⟨S1x128, .i32⟩ : BufTy).Contents (Elt F)) (val_main_v69 (F := F))
def val_main_call2_v4 : (⟨S_, .i32⟩ : BufTy).Contents (Elt F) :=
  (signi : (⟨S_, .i32⟩ : BufTy).Contents (Elt F) → (⟨S_, .i32⟩ : BufTy).Contents (Elt F)) (val_main_call2_v0 (F := F))
def val_main_call2_v5 : (⟨S1x128, .i32⟩ : BufTy).Contents (Elt F) :=
  ((broadcastInDim S1x128 ![] bcast_S_S1x128) : (⟨S_, .i32⟩ : BufTy).Contents (Elt F) → (⟨S1x128, .i32⟩ : BufTy).Contents (Elt F)) (val_main_call2_v4 (F := F))
def val_main_call2_v6 : (⟨S1x128, .i1⟩ : BufTy).Contents (Elt F) :=
  ((cmpi .ne) : (⟨S1x128, .i32⟩ : BufTy).Contents (Elt F) → (⟨S1x128, .i32⟩ : BufTy).Contents (Elt F) → (⟨S1x128, .i1⟩ : BufTy).Contents (Elt F)) (val_main_call2_v3 (F := F)) (val_main_call2_v5 (F := F))
def val_main_call2_v7 : (⟨S1x128, .i32⟩ : BufTy).Contents (Elt F) :=
  ((broadcastInDim S1x128 ![] bcast_S_S1x128) : (⟨S_, .i32⟩ : BufTy).Contents (Elt F) → (⟨S1x128, .i32⟩ : BufTy).Contents (Elt F)) (val_main_call2_v0 (F := F))
def val_main_call2_v8 : (⟨S1x128, .i32⟩ : BufTy).Contents (Elt F) :=
  (Host.remsi : (⟨S1x128, .i32⟩ : BufTy).Contents (Elt F) → (⟨S1x128, .i32⟩ : BufTy).Contents (Elt F) → (⟨S1x128, .i32⟩ : BufTy).Contents (Elt F)) (val_main_v69 (F := F)) (val_main_call2_v7 (F := F))
def val_main_call2_c : (⟨S_, .i32⟩ : BufTy).Contents (Elt F) :=
  ((constantI S_ 32 0#32) : (⟨S_, .i32⟩ : BufTy).Contents (Elt F))
def val_main_call2_v9 : (⟨S1x128, .i32⟩ : BufTy).Contents (Elt F) :=
  ((broadcastInDim S1x128 ![] bcast_S_S1x128) : (⟨S_, .i32⟩ : BufTy).Contents (Elt F) → (⟨S1x128, .i32⟩ : BufTy).Contents (Elt F)) (val_main_call2_c (F := F))
def val_main_call2_v10 : (⟨S1x128, .i1⟩ : BufTy).Contents (Elt F) :=
  ((cmpi .ne) : (⟨S1x128, .i32⟩ : BufTy).Contents (Elt F) → (⟨S1x128, .i32⟩ : BufTy).Contents (Elt F) → (⟨S1x128, .i1⟩ : BufTy).Contents (Elt F)) (val_main_call2_v8 (F := F)) (val_main_call2_v9 (F := F))
def val_main_call2_v11 : (⟨S1x128, .i1⟩ : BufTy).Contents (Elt F) :=
  (andi : (⟨S1x128, .i1⟩ : BufTy).Contents (Elt F) → (⟨S1x128, .i1⟩ : BufTy).Contents (Elt F) → (⟨S1x128, .i1⟩ : BufTy).Contents (Elt F)) (val_main_call2_v6 (F := F)) (val_main_call2_v10 (F := F))
def val_main_call2_c_0 : (⟨S_, .i32⟩ : BufTy).Contents (Elt F) :=
  ((constantI S_ 32 1#32) : (⟨S_, .i32⟩ : BufTy).Contents (Elt F))
def val_main_call2_v12 : (⟨S1x128, .i32⟩ : BufTy).Contents (Elt F) :=
  ((broadcastInDim S1x128 ![] bcast_S_S1x128) : (⟨S_, .i32⟩ : BufTy).Contents (Elt F) → (⟨S1x128, .i32⟩ : BufTy).Contents (Elt F)) (val_main_call2_c_0 (F := F))
def val_main_call2_v13 : (⟨S1x128, .i32⟩ : BufTy).Contents (Elt F) :=
  (subi : (⟨S1x128, .i32⟩ : BufTy).Contents (Elt F) → (⟨S1x128, .i32⟩ : BufTy).Contents (Elt F) → (⟨S1x128, .i32⟩ : BufTy).Contents (Elt F)) (val_main_call2_v2 (F := F)) (val_main_call2_v12 (F := F))
def val_main_v70 : (⟨S1x128, .i32⟩ : BufTy).Contents (Elt F) :=
  (select : (⟨S1x128, .i1⟩ : BufTy).Contents (Elt F) → (⟨S1x128, .i32⟩ : BufTy).Contents (Elt F) → (⟨S1x128, .i32⟩ : BufTy).Contents (Elt F) → (⟨S1x128, .i32⟩ : BufTy).Contents (Elt F)) (val_main_call2_v11 (F := F)) (val_main_call2_v13 (F := F)) (val_main_call2_v2 (F := F))
def val_main_v71 : (⟨S4x128, .i32⟩ : BufTy).Contents (Elt F) :=
  (broadcastInDim S4x128 ![0, 1] bcast_S1x128_S4x128_0_1 : (⟨S1x128, .i32⟩ : BufTy).Contents (Elt F) → (⟨S4x128, .i32⟩ : BufTy).Contents (Elt F)) (val_main_v70 (F := F))
def val_main_v72 : (⟨S4x128, .i32⟩ : BufTy).Contents (Elt F) :=
  (broadcastInDim S4x128 ![0, 1] bcast_S4x1_S4x128_0_1 : (⟨S4x1, .i32⟩ : BufTy).Contents (Elt F) → (⟨S4x128, .i32⟩ : BufTy).Contents (Elt F)) (val_main_v67 (F := F))
def val_main_v73 : (⟨S4x128, .i1⟩ : BufTy).Contents (Elt F) :=
  (cmpi .eq : (⟨S4x128, .i32⟩ : BufTy).Contents (Elt F) → (⟨S4x128, .i32⟩ : BufTy).Contents (Elt F) → (⟨S4x128, .i1⟩ : BufTy).Contents (Elt F)) (val_main_v71 (F := F)) (val_main_v72 (F := F))
def val_main_v74 : (⟨S4x128, .bf16⟩ : BufTy).Contents (Elt F) :=
  (uitofp .bf16 : (⟨S4x128, .i1⟩ : BufTy).Contents (Elt F) → (⟨S4x128, .bf16⟩ : BufTy).Contents (Elt F)) (val_main_v73 (F := F))

/-! ## After the second region: over its output and the destination row -/

def val_main_cst_12 : (⟨S_, .f32⟩ : BufTy).Contents (Elt F) :=
  ((constant S_ .f32 0x00000000#32) : (⟨S_, .f32⟩ : BufTy).Contents (Elt F))
def val_main_v76 : (⟨S100000x128, .f32⟩ : BufTy).Contents (Elt F) :=
  (broadcastInDim S100000x128 ![] bcast_S_S100000x128 : (⟨S_, .f32⟩ : BufTy).Contents (Elt F) → (⟨S100000x128, .f32⟩ : BufTy).Contents (Elt F)) (val_main_cst_12 (F := F))
def val_main_v77 (dst : (⟨S1600000, .i32⟩ : BufTy).Contents (Elt F)) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) dst
def val_main_v78 (wk : (⟨S1600000x128, .f32⟩ : BufTy).Contents (Elt F)) (dst : (⟨S1600000, .i32⟩ : BufTy).Contents (Elt F)) : (⟨S100000x128, .f32⟩ : BufTy).Contents (Elt F) :=
  ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) (val_main_v76 (F := F)) (val_main_v77 (F := F) dst) wk

end Cert.KernelIdeal.KV

end
-- ==== Proof.KRead.lean ====
/-
  The kernel program's buffers at its kernels' entries and at the return, read back through the host operations.

  Between the launch and the first kernel the host operations only build the 128 × 8 matrix from the two attention
  vectors and cut the edge list into its two rows; the node features and the weights reach the kernel as launched.
  Between the two kernels they read the first kernel's two output arrays and the two index rows: the gathered
  projection rows, the attention weights and the 4 × 128 matrix are the second kernel's three inputs. After it one
  scatter-add of its output array by the destination row gives the result. Each buffer is followed one stretch of
  operations at a time: a stretch that does not write it leaves it, a kernel leaves every array but its own, and the
  stretch that writes it applies the operation's function to the operands' contents.
-/
import proofs.«132320_j74148315398470_1_alg».proof.Proof.Gen.KernelIdeal.Frame
import proofs.«132320_j74148315398470_1_alg».proof.Proof.KVals
import Idealize.ShloMosaic.Lib.StableHlo.Run
import Idealize.ShloMosaic.Lib.ValueIdx

set_option maxRecDepth 16384
noncomputable section

open scoped BigOperators
open Idealize.ShloMosaic Idealize.ShloMosaic.TcCoe Idealize.SL.Sem Idealize.ShloMosaic.ValueIdx

open Idealize.ShloMosaic.Pipeline (Dat)

namespace Cert.KernelIdeal.KRead

open Cert.KernelIdeal Cert.KernelIdeal.Gen

variable {F : FTy → Type} [FloatOps F]
variable (m : (ℓ : Loc nD τ sig) → Buf (Elt F) ℓ) (ρ : Dev nD → PrngReg)

/-- A stretch of host operations none of which writes the buffer leaves the buffer as it was:
    every operation's written set is a singleton, and the buffer differs from each. -/
local macro "skip_ops " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## After the first stretch: the two index rows, the two flattened attention vectors, the column counter -/

theorem W1_v1 (c : Dev nD) :
    W1 m ρ c (Proc.devRef .tc main_v1) = KV.val_main_v1 (m ((c : Thread nD τ).loc main_arg1)) := by
  show StableHlo.after hostOps0 _ (Proc.devRef .tc main_v1) = _
  after_results
  rfl

theorem W1_v3 (c : Dev nD) :
    W1 m ρ c (Proc.devRef .tc main_v3) = KV.val_main_v3 (m ((c : Thread nD τ).loc main_arg1)) := by
  show StableHlo.after hostOps0 _ (Proc.devRef .tc main_v3) = _
  after_results
  rfl

theorem W1_v4 (c : Dev nD) :
    W1 m ρ c (Proc.devRef .tc main_v4) = KV.val_main_v4 (m ((c : Thread nD τ).loc main_arg3)) := by
  show StableHlo.after hostOps0 _ (Proc.devRef .tc main_v4) = _
  after_results
  rfl

theorem W1_v5 (c : Dev nD) :
    W1 m ρ c (Proc.devRef .tc main_v5) = KV.val_main_v5 (m ((c : Thread nD τ).loc main_arg4)) := by
  show StableHlo.after hostOps0 _ (Proc.devRef .tc main_v5) = _
  after_results
  rfl

theorem W1_v6 (c : Dev nD) : W1 m ρ c (Proc.devRef .tc main_v6) = KV.val_main_v6 (F := F) := by
  show StableHlo.after hostOps0 _ (Proc.devRef .tc main_v6) = _
  after_results
  rfl

theorem W1_c (c : Dev nD) : W1 m ρ c (Proc.devRef .tc main_c) = KV.val_main_c (F := F) := by
  show StableHlo.after hostOps0 _ (Proc.devRef .tc main_c) = _
  after_results
  rfl

/-! ## What the first kernel region finds in its three input arrays -/

theorem V3_arg0 (c : Dev nD) : V3 m ρ c main_arg0 = m ((c : Thread nD τ).loc main_arg0) :=
  calc W3 m ρ c (Proc.devRef .tc main_arg0)
    _ = W2 m ρ c (Proc.devRef .tc main_arg0) := by skip_ops hostOps0_2
    _ = W1 m ρ c (Proc.devRef .tc main_arg0) := by skip_ops hostOps0_1
    _ = W0 m ρ c (Proc.devRef .tc main_arg0) := by skip_ops hostOps0
    _ = m ((c : Thread nD τ).loc main_arg0) := rfl

theorem V3_arg2 (c : Dev nD) : V3 m ρ c main_arg2 = m ((c : Thread nD τ).loc main_arg2) :=
  calc W3 m ρ c (Proc.devRef .tc main_arg2)
    _ = W2 m ρ c (Proc.devRef .tc main_arg2) := by skip_ops hostOps0_2
    _ = W1 m ρ c (Proc.devRef .tc main_arg2) := by skip_ops hostOps0_1
    _ = W0 m ρ c (Proc.devRef .tc main_arg2) := by skip_ops hostOps0
    _ = m ((c : Thread nD τ).loc main_arg2) := rfl

/-! ## After the floor-divide stretch: the head number of each column; the flattened vectors carried along -/

/-- The floor-divide stretch, from any contents holding the column counter and the constant 32. -/
theorem ops0_1_v7 (V : Valuation τ sig (Elt F))
    (h6 : V (Proc.devRef .tc main_v6) = KV.val_main_v6 (F := F)) (hc : V (Proc.devRef .tc main_c) = KV.val_main_c (F := F)) :
    StableHlo.after hostOps0_1 V (Proc.devRef .tc main_v7) = KV.val_main_v7 (F := F) := by
  after_results_simp
  rw [h6, hc]
  rfl

theorem W2_v7 (c : Dev nD) : W2 m ρ c (Proc.devRef .tc main_v7) = KV.val_main_v7 (F := F) :=
  ops0_1_v7 _ (W1_v6 m ρ c) (W1_c m ρ c)

theorem W2_v4 (c : Dev nD) :
    W2 m ρ c (Proc.devRef .tc main_v4) = KV.val_main_v4 (m ((c : Thread nD τ).loc main_arg3)) :=
  calc W2 m ρ c (Proc.devRef .tc main_v4)
    _ = W1 m ρ c (Proc.devRef .tc main_v4) := by skip_ops hostOps0_1
    _ = _ := W1_v4 m ρ c

theorem W2_v5 (c : Dev nD) :
    W2 m ρ c (Proc.devRef .tc main_v5) = KV.val_main_v5 (m ((c : Thread nD τ).loc main_arg4)) :=
  calc W2 m ρ c (Proc.devRef .tc main_v5)
    _ = W1 m ρ c (Proc.devRef .tc main_v5) := by skip_ops hostOps0_1
    _ = _ := W1_v5 m ρ c

/-- The stretch that builds the 128×8 attention matrix, from any contents holding the head numbers and the two
    flattened vectors. -/
theorem ops0_2_v22 (V : Valuation τ sig (Elt F)) (a3 a4 : (⟨S1x4x32, .f32⟩ : BufTy).Contents (Elt F))
    (h7 : V (Proc.devRef .tc main_v7) = KV.val_main_v7 (F := F))
    (h4 : V (Proc.devRef .tc main_v4) = KV.val_main_v4 a3) (h5 : V (Proc.devRef .tc main_v5) = KV.val_main_v5 a4) :
    StableHlo.after hostOps0_2 V (Proc.devRef .tc main_v22) = KV.val_main_v22 a3 a4 := by
  after_results
  rw [h7, h4, h5]
  rfl

theorem V3_v22 (c : Dev nD) :
    V3 m ρ c main_v22 = KV.val_main_v22 (m ((c : Thread nD τ).loc main_arg3)) (m ((c : Thread nD τ).loc main_arg4)) :=
  ops0_2_v22 _ _ _ (W2_v7 m ρ c) (W2_v4 m ρ c) (W2_v5 m ρ c)

/-! ## At the first region's exit: the two index rows as first computed, the region's two output arrays -/

theorem W4_v1 (c : Dev nD) :
    W4 m ρ c (Proc.devRef .tc main_v1) = KV.val_main_v1 (m ((c : Thread nD τ).loc main_arg1)) :=
  calc W4 m ρ c (Proc.devRef .tc main_v1)
    _ = W3 m ρ c (Proc.devRef .tc main_v1) := W4_of_ne m ρ c main_v1 (by decide)
    _ = W2 m ρ c (Proc.devRef .tc main_v1) := by skip_ops hostOps0_2
    _ = W1 m ρ c (Proc.devRef .tc main_v1) := by skip_ops hostOps0_1
    _ = _ := W1_v1 m ρ c

theorem W4_v3 (c : Dev nD) :
    W4 m ρ c (Proc.devRef .tc main_v3) = KV.val_main_v3 (m ((c : Thread nD τ).loc main_arg1)) :=
  calc W4 m ρ c (Proc.devRef .tc main_v3)
    _ = W3 m ρ c (Proc.devRef .tc main_v3) := W4_of_ne m ρ c main_v3 (by decide)
    _ = W2 m ρ c (Proc.devRef .tc main_v3) := by skip_ops hostOps0_2
    _ = W1 m ρ c (Proc.devRef .tc main_v3) := by skip_ops hostOps0_1
    _ = _ := W1_v3 m ρ c

/-- The projected rows (the region's fourth array) and the scores (its fifth), as the pipeline leaves them. -/
theorem W4_v23_0 (c : Dev nD) : W4 m ρ c (Proc.devRef .tc main_v23_0) = (dat0 (V3 m ρ) c).arrAt 3 cfg0.N :=
  W4_arr m ρ c 3

theorem W4_v23_1 (c : Dev nD) : W4 m ρ c (Proc.devRef .tc main_v23_1) = (dat0 (V3 m ρ) c).arrAt 4 cfg0.N :=
  W4_arr m ρ c 4

/-! ## The edge scores: the two score halves gathered at the edges' ends and added -/

theorem ops1_v40 (V : Valuation τ sig (Elt F)) (sc : (⟨S100000x8, .f32⟩ : BufTy).Contents (Elt F))
    (src dst : (⟨S1600000, .i32⟩ : BufTy).Contents (Elt F))
    (hsc : V (Proc.devRef .tc main_v23_1) = sc) (h1 : V (Proc.devRef .tc main_v1) = src)
    (h3 : V (Proc.devRef .tc main_v3) = dst) :
    StableHlo.after hostOps1 V (Proc.devRef .tc main_v40)
      = KV.val_main_v40 (KV.val_main_v24 sc) (KV.val_main_v25 sc) src dst := by
  after_results_simp
  rw [hsc, h1, h3]
  rfl

theorem ops1_cst (V : Valuation τ sig (Elt F)) :
    StableHlo.after hostOps1 V (Proc.devRef .tc main_cst) = KV.val_main_cst (F := F) := by
  after_results
  rfl

theorem W5_v40 (c : Dev nD) :
    W5 m ρ c (Proc.devRef .tc main_v40)
      = KV.val_main_v40 (KV.val_main_v24 ((dat0 (V3 m ρ) c).arrAt 4 cfg0.N)) (KV.val_main_v25 ((dat0 (V3 m ρ) c).arrAt 4 cfg0.N))
          (KV.val_main_v1 (m ((c : Thread nD τ).loc main_arg1))) (KV.val_main_v3 (m ((c : Thread nD τ).loc main_arg1))) :=
  ops1_v40 _ _ _ _ (W4_v23_1 m ρ c) (W4_v1 m ρ c) (W4_v3 m ρ c)

theorem W5_cst (c : Dev nD) : W5 m ρ c (Proc.devRef .tc main_cst) = KV.val_main_cst (F := F) :=
  ops1_cst _

/-! ## The leaky-relu stretch -/

theorem ops1_1_v41 (V : Valuation τ sig (Elt F)) (ss sd : (⟨S100000x4, .f32⟩ : BufTy).Contents (Elt F))
    (src dst : (⟨S1600000, .i32⟩ : BufTy).Contents (Elt F))
    (h40 : V (Proc.devRef .tc main_v40) = KV.val_main_v40 ss sd src dst)
    (hcst : V (Proc.devRef .tc main_cst) = KV.val_main_cst (F := F)) :
    StableHlo.after hostOps1_1 V (Proc.devRef .tc main_v41) = KV.val_main_v41 ss sd src dst := by
  after_results_simp
  rw [h40, hcst]
  rfl

theorem W6_v41 (c : Dev nD) :
    W6 m ρ c (Proc.devRef .tc main_v41)
      = KV.val_main_v41 (KV.val_main_v24 ((dat0 (V3 m ρ) c).arrAt 4 cfg0.N)) (KV.val_main_v25 ((dat0 (V3 m ρ) c).arrAt 4 cfg0.N))
          (KV.val_main_v1 (m ((c : Thread nD τ).loc main_arg1))) (KV.val_main_v3 (m ((c : Thread nD τ).loc main_arg1))) :=
  ops1_1_v41 _ _ _ _ _ (W5_v40 m ρ c) (W5_cst m ρ c)

theorem W6_v1 (c : Dev nD) :
    W6 m ρ c (Proc.devRef .tc main_v1) = KV.val_main_v1 (m ((c : Thread nD τ).loc main_arg1)) :=
  calc W6 m ρ c (Proc.devRef .tc main_v1)
    _ = W5 m ρ c (Proc.devRef .tc main_v1) := by skip_ops hostOps1_1
    _ = W4 m ρ c (Proc.devRef .tc main_v1) := by skip_ops hostOps1
    _ = _ := W4_v1 m ρ c

theorem W6_v3 (c : Dev nD) :
    W6 m ρ c (Proc.devRef .tc main_v3) = KV.val_main_v3 (m ((c : Thread nD τ).loc main_arg1)) :=
  calc W6 m ρ c (Proc.devRef .tc main_v3)
    _ = W5 m ρ c (Proc.devRef .tc main_v3) := by skip_ops hostOps1_1
    _ = W4 m ρ c (Proc.devRef .tc main_v3) := by skip_ops hostOps1
    _ = _ := W4_v3 m ρ c

theorem W6_v23_0 (c : Dev nD) : W6 m ρ c (Proc.devRef .tc main_v23_0) = (dat0 (V3 m ρ) c).arrAt 3 cfg0.N :=
  calc W6 m ρ c (Proc.devRef .tc main_v23_0)
    _ = W5 m ρ c (Proc.devRef .tc main_v23_0) := by skip_ops hostOps1_1
    _ = W4 m ρ c (Proc.devRef .tc main_v23_0) := by skip_ops hostOps1
    _ = _ := W4_v23_0 m ρ c

/-! ## The long stretch: the attention weights (maximum, exponential, sum per destination, quotient), the
    projected rows gathered at the sources, and the counters the head-expansion matrix is built from -/

theorem ops1_2_v58 (V : Valuation τ sig (Elt F)) (ss sd : (⟨S100000x4, .f32⟩ : BufTy).Contents (Elt F))
    (src dst : (⟨S1600000, .i32⟩ : BufTy).Contents (Elt F))
    (h41 : V (Proc.devRef .tc main_v41) = KV.val_main_v41 ss sd src dst)
    (h3 : V (Proc.devRef .tc main_v3) = dst) :
    StableHlo.after hostOps1_2 V (Proc.devRef .tc main_v58) = KV.val_main_v58 ss sd src dst := by
  after_results_simp
  rw [h41, h3]
  rfl

theorem ops1_2_v65 (V : Valuation τ sig (Elt F)) (src : (⟨S1600000, .i32⟩ : BufTy).Contents (Elt F))
    (p : (⟨S100000x128, .bf16⟩ : BufTy).Contents (Elt F))
    (h1 : V (Proc.devRef .tc main_v1) = src) (hp : V (Proc.devRef .tc main_v23_0) = p) :
    StableHlo.after hostOps1_2 V (Proc.devRef .tc main_v65) = KV.val_main_v65 src p := by
  after_results_simp
  rw [h1, hp]
  rfl

theorem ops1_2_v67 (V : Valuation τ sig (Elt F)) :
    StableHlo.after hostOps1_2 V (Proc.devRef .tc main_v67) = KV.val_main_v67 (F := F) := by
  after_results
  rfl

theorem ops1_2_v69 (V : Valuation τ sig (Elt F)) :
    StableHlo.after hostOps1_2 V (Proc.devRef .tc main_v69) = KV.val_main_v69 (F := F) := by
  after_results
  rfl

theorem ops1_2_c_11 (V : Valuation τ sig (Elt F)) :
    StableHlo.after hostOps1_2 V (Proc.devRef .tc main_c_11) = KV.val_main_c_11 (F := F) := by
  after_results
  rfl

theorem W7_v58 (c : Dev nD) :
    W7 m ρ c (Proc.devRef .tc main_v58)
      = KV.val_main_v58 (KV.val_main_v24 ((dat0 (V3 m ρ) c).arrAt 4 cfg0.N)) (KV.val_main_v25 ((dat0 (V3 m ρ) c).arrAt 4 cfg0.N))
          (KV.val_main_v1 (m ((c : Thread nD τ).loc main_arg1))) (KV.val_main_v3 (m ((c : Thread nD τ).loc main_arg1))) :=
  ops1_2_v58 _ _ _ _ _ (W6_v41 m ρ c) (W6_v3 m ρ c)

theorem W7_v65 (c : Dev nD) :
    W7 m ρ c (Proc.devRef .tc main_v65)
      = KV.val_main_v65 (KV.val_main_v1 (m ((c : Thread nD τ).loc main_arg1))) ((dat0 (V3 m ρ) c).arrAt 3 cfg0.N) :=
  ops1_2_v65 _ _ _ (W6_v1 m ρ c) (W6_v23_0 m ρ c)

theorem W7_v3 (c : Dev nD) :
    W7 m ρ c (Proc.devRef .tc main_v3) = KV.val_main_v3 (m ((c : Thread nD τ).loc main_arg1)) :=
  calc W7 m ρ c (Proc.devRef .tc main_v3)
    _ = W6 m ρ c (Proc.devRef .tc main_v3) := by skip_ops hostOps1_2
    _ = _ := W6_v3 m ρ c

/-! ## The second floor-divide stretch: the head number of each of the 128 columns -/

theorem ops1_3_v70 (V : Valuation τ sig (Elt F))
    (h69 : V (Proc.devRef .tc main_v69) = KV.val_main_v69 (F := F))
    (hc : V (Proc.devRef .tc main_c_11) = KV.val_main_c_11 (F := F)) :
    StableHlo.after hostOps1_3 V (Proc.devRef .tc main_v70) = KV.val_main_v70 (F := F) := by
  after_results_simp
  rw [h69, hc]
  rfl

theorem W8_v70 (c : Dev nD) : W8 m ρ c (Proc.devRef .tc main_v70) = KV.val_main_v70 (F := F) :=
  ops1_3_v70 _ (ops1_2_v69 _) (ops1_2_c_11 _)

theorem W8_v67 (c : Dev nD) : W8 m ρ c (Proc.devRef .tc main_v67) = KV.val_main_v67 (F := F) :=
  calc W8 m ρ c (Proc.devRef .tc main_v67)
    _ = W7 m ρ c (Proc.devRef .tc main_v67) := by skip_ops hostOps1_3
    _ = _ := ops1_2_v67 _

/-! ## The head-expansion matrix, and what the second kernel region finds in its three input arrays -/

theorem ops1_4_v74 (V : Valuation τ sig (Elt F))
    (h70 : V (Proc.devRef .tc main_v70) = KV.val_main_v70 (F := F))
    (h67 : V (Proc.devRef .tc main_v67) = KV.val_main_v67 (F := F)) :
    StableHlo.after hostOps1_4 V (Proc.devRef .tc main_v74) = KV.val_main_v74 (F := F) := by
  after_results
  rw [h70, h67]
  rfl

theorem V9_v74 (c : Dev nD) : V9 m ρ c main_v74 = KV.val_main_v74 (F := F) :=
  ops1_4_v74 _ (W8_v70 m ρ c) (W8_v67 m ρ c)

theorem V9_v65 (c : Dev nD) :
    V9 m ρ c main_v65 = KV.val_main_v65 (KV.val_main_v1 (m ((c : Thread nD τ).loc main_arg1))) ((dat0 (V3 m ρ) c).arrAt 3 cfg0.N) :=
  calc W9 m ρ c (Proc.devRef .tc main_v65)
    _ = W8 m ρ c (Proc.devRef .tc main_v65) := by skip_ops hostOps1_4
    _ = W7 m ρ c (Proc.devRef .tc main_v65) := by skip_ops hostOps1_3
    _ = _ := W7_v65 m ρ c

theorem V9_v58 (c : Dev nD) :
    V9 m ρ c main_v58 = KV.val_main_v58 (KV.val_main_v24 ((dat0 (V3 m ρ) c).arrAt 4 cfg0.N)) (KV.val_main_v25 ((dat0 (V3 m ρ) c).arrAt 4 cfg0.N))
      (KV.val_main_v1 (m ((c : Thread nD τ).loc main_arg1))) (KV.val_main_v3 (m ((c : Thread nD τ).loc main_arg1))) :=
  calc W9 m ρ c (Proc.devRef .tc main_v58)
    _ = W8 m ρ c (Proc.devRef .tc main_v58) := by skip_ops hostOps1_4
    _ = W7 m ρ c (Proc.devRef .tc main_v58) := by skip_ops hostOps1_3
    _ = _ := W7_v58 m ρ c

/-! ## The result array after the last host operations -/

theorem W10_v3 (c : Dev nD) :
    W10 m ρ c (Proc.devRef .tc main_v3) = KV.val_main_v3 (m ((c : Thread nD τ).loc main_arg1)) :=
  calc W10 m ρ c (Proc.devRef .tc main_v3)
    _ = W9 m ρ c (Proc.devRef .tc main_v3) := W10_of_ne m ρ c main_v3 (by decide)
    _ = W8 m ρ c (Proc.devRef .tc main_v3) := by skip_ops hostOps1_4
    _ = W7 m ρ c (Proc.devRef .tc main_v3) := by skip_ops hostOps1_3
    _ = _ := W7_v3 m ρ c

/-- The weighted rows (the second region's fourth array), as the pipeline leaves them. -/
theorem W10_v75 (c : Dev nD) : W10 m ρ c (Proc.devRef .tc main_v75) = (dat1 (V9 m ρ) c).arrAt 3 cfg1.N :=
  W10_arr m ρ c 3

/-- The last stretch: the weighted rows summed per destination row onto zeros. -/
theorem ops2_v78 (V : Valuation τ sig (Elt F)) (wk : (⟨S1600000x128, .f32⟩ : BufTy).Contents (Elt F))
    (dst : (⟨S1600000, .i32⟩ : BufTy).Contents (Elt F))
    (h75 : V (Proc.devRef .tc main_v75) = wk) (h3 : V (Proc.devRef .tc main_v3) = dst) :
    StableHlo.after hostOps2 V (Proc.devRef .tc main_v78) = KV.val_main_v78 wk dst := by
  after_results
  rw [h75, h3]
  rfl

theorem W11_v78 (c : Dev nD) :
    W11 m ρ c (Proc.devRef .tc main_v78) = KV.val_main_v78 ((dat1 (V9 m ρ) c).arrAt 3 cfg1.N) (KV.val_main_v3 (m ((c : Thread nD τ).loc main_arg1))) :=
  ops2_v78 _ _ _ (W10_v75 m ρ c) (W10_v3 m ρ c)

end Cert.KernelIdeal.KRead

end
-- ==== Proof.Spec.lean ====
/-
  The two pure functions both programs are compared through.

  A row of the 128-wide projection holds four heads of 32 features each: column 32·h + f is feature f of head h.
  The projected rows are the plain matrix product of the node features with the weights, entry by entry a sum of
  128 products over the extended reals.
-/
import Idealize.ShloMosaic.PureOps.Ideal.Laws
import Idealize.ShloMosaic.Lib.ValueIdx

noncomputable section

open scoped BigOperators

namespace Cert.Gat

open Idealize.ShloMosaic Idealize.ShloMosaic.ValueIdx

/-- Column 32·h + f of a 128-wide row: feature f of head h. -/
def hf (h : Fin 4) (f : Fin 32) : Fin 128 := ⟨32 * h.val + f.val, by omega⟩

/-- The head a column belongs to: c / 32. -/
def headOf (c : Fin 128) : Fin 4 := ⟨c.val / 32, by omega⟩

/-- The feature a column is within its head: c % 32. -/
def featOf (c : Fin 128) : Fin 32 := ⟨c.val % 32, Nat.mod_lt _ (by decide)⟩

theorem hf_headOf_featOf (c : Fin 128) : hf (headOf c) (featOf c) = c :=
  Fin.ext (by simp only [hf, headOf, featOf]; omega)

theorem headOf_hf (h : Fin 4) (f : Fin 32) : headOf (hf h f) = h :=
  Fin.ext (by simp only [hf, headOf]; omega)

theorem featOf_hf (h : Fin 4) (f : Fin 32) : featOf (hf h f) = f :=
  Fin.ext (by simp only [hf, featOf]; omega)

/-- The projected rows: entry (n, k) is the sum over q of x (n, q) · w (q, k). -/
def proj (x : (⟨2, ![100000, 128]⟩ : Shape).Idx → EReal) (w : (⟨2, ![128, 128]⟩ : Shape).Idx → EReal) :
    (⟨2, ![100000, 128]⟩ : Shape).Idx → EReal :=
  fun i => ∑ q : Fin 128, x (ix2 (i 0 : Fin 100000) q) * w (ix2 q (i 1 : Fin 128))

end Cert.Gat

end
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.R0Val.lean ====
/-
  What the first kernel leaves in its two output arrays.

  Grid point t holds rows 10000·t … 10000·t + 9999 of the node features, the whole 128 × 128 weights and the whole
  128 × 8 matrix A. Its body stores the block's product with the weights (entry (r, k) = ∑ q, x (10000t + r, q) · w (q, k);
  the changes of float format are the identity over the extended reals) and that product's product with A. The ten
  blocks tile the 100000 rows, so array 3 is the projection x · w entry by entry and array 4 is its product with A.
-/
import proofs.«132320_j74148315398470_1_alg».proof.Proof.Gen.KernelIdeal.Frame
import proofs.«132320_j74148315398470_1_alg».proof.Proof.Spec
import proofs.«132320_j74148315398470_1_alg».proof.Proof.LibDotPlain
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

/-
  What the first kernel region leaves in its two output arrays, as whole-array functions of the arrays it reads.

  The region walks ten blocks of 10000 rows. At block t it reads rows 10000·t … 10000·t + 9999 of the node features,
  the whole 128 × 128 weight matrix and the whole 128 × 8 attention matrix, and stores two products: the block's rows
  times the weights (128 columns), and that product times the attention matrix (8 columns). Over the extended reals
  every rounding step is the identity and a product accumulated into zeros is a plain sum of products, so row r of
  block t of the first output is row 10000·t + r of x·W, and of the second output row 10000·t + r of (x·W)·A.
  Every row n of either output lies in exactly the block n / 10000, so the blocks fill both arrays.
-/
namespace Cert.KernelIdeal.R0

open Cert.KernelIdeal Cert.KernelIdeal.Gen

/-- The first product's dimension numbers are those of a plain 10000 × 128 by 128 × 128 product. -/
theorem dims_proj : dot_S10000x128_S128x128_S10000x128_1_0_0_1_n_n = DotDims.plain 10000 128 128 := rfl

/-- The second product's dimension numbers are those of a plain 10000 × 128 by 128 × 8 product. -/
theorem dims_score : dot_S10000x128_S128x8_S10000x8_1_0_0_1_n_n = DotDims.plain 10000 128 8 := rfl

/-- The first stored block at row r, column k: the sum over q of the feature block's (r, q) entry times the weights' (q, k) entry.
    The narrowing steps before and after the product change nothing over the extended reals, and the product starts from zeros. -/
theorem pay1_at (x0 : Vec Ideal S10000x128 .f32) (w0 : Vec Ideal S128x128 .f32) (r : Fin 10000) (k : Fin 128) :
    k0_pay1 x0 w0 (ix2 r k) = ∑ q : Fin 128, x0 (ix2 r q) * w0 (ix2 q k) := by
  unfold k0_pay1
  rw [dims_proj]
  exact Cert.LibDotPlain.matmul_zero_plain 10000 128 128 none _ _ r k

/-- The second stored block at row r, column j: the sum over k of the first stored block's (r, k) entry times the attention
    matrix's (k, j) entry. The reshape of the attention matrix to its own shape is the identity. -/
theorem pay2_at (x0 : Vec Ideal S10000x128 .f32) (w0 : Vec Ideal S128x128 .f32) (a0 : Vec Ideal S128x8 .bf16)
    (r : Fin 10000) (j : Fin 8) :
    k0_pay2 x0 w0 a0 (ix2 r j) = ∑ k : Fin 128, k0_pay1 x0 w0 (ix2 r k) * a0 (ix2 k j) := by
  unfold k0_pay2
  rw [dims_score, shapeCast_self]
  exact Cert.LibDotPlain.matmul_zero_plain 10000 128 8 none _ _ r j

variable (V : (c : Dev nD) → (b : Ref sig .tc) → Buf (Elt Ideal) ((c : Thread nD τ).loc b))

/-- The offset (0, 0), written as the constant function. -/
theorem zero_off : (![0, 0] : Fin 2 → Nat) = fun _ => 0 := funext fun a => by fin_cases a <;> rfl

/-- The block each window shows at grid point t, decided over the ten points: the feature rows and both outputs move with t
    along the rows (block index (t, 0)); the weights and the attention matrix stay at block (0, 0). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The feature block at point t holds rows 10000·t … 10000·t + 9999 of the feature array: its entry (y₀, y₁) is the array's entry
    (10000·t + y₀, y₁). -/
theorem rows_block (c : Dev nD) (t : Fin cfg0.N) (y : S10000x128.Idx) (i : S100000x128.Idx)
    (h0 : (i 0).val = t.val * 10000 + (y 0).val) (h1 : (i 1).val = (y 1).val) :
    (iblk0 V c 0 t : Vec Ideal S10000x128 .f32) y = (V c main_arg0 : S100000x128.Idx → EReal) i := by
  obtain ⟨e0, e1, -⟩ := block_index t
  unfold iblk0
  rw [View.read_apply]
  show V c main_arg0 _ = V c main_arg0 _
  congr 1
  funext a
  apply Fin.ext
  match a with
  | ⟨0, _⟩ => show win0_0.index t (0 : Fin 2) * 10000 + 1 * (y 0).val = (i 0).val; rw [e0, h0]; omega
  | ⟨1, _⟩ => show win0_0.index t (1 : Fin 2) * 128 + 1 * (y 1).val = (i 1).val; rw [e1, h1]; omega

/-- The weights' block at every point is the whole weight matrix. -/
theorem weights_block (c : Dev nD) (t : Fin cfg0.N) (y : S128x128.Idx) :
    (iblk0 V c 1 t : Vec Ideal S128x128 .f32) y = (V c main_arg2 : S128x128.Idx → EReal) y := by
  obtain ⟨-, -, e0, e1, -⟩ := block_index t
  unfold iblk0
  rw [View.read_apply]
  show V c main_arg2 _ = V c main_arg2 _
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The attention matrix's block at every point is the whole matrix. -/
theorem att_block (c : Dev nD) (t : Fin cfg0.N) (y : S128x8.Idx) :
    (iblk0 V c 2 t : Vec Ideal S128x8 .bf16) y = (V c main_v22 : S128x8.Idx → EReal) y := by
  obtain ⟨-, -, -, -, e0, e1, -⟩ := block_index t
  unfold iblk0
  rw [View.read_apply]
  show V c main_v22 _ = V c main_v22 _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 8 + 1 * (y 1).val = (y 1).val; rw [e1]; omega

/-- If a 10000-row block x0 holds rows 10000·b … of X and w0 agrees with W, then the product block's entry y is entry i of the
    projection of X by W, for every array index i with i₀ = 10000·b + y₀ and i₁ = y₁: the two sums over q agree term by term. -/
theorem proj_of_block (x0 : Vec Ideal S10000x128 .f32) (w0 : Vec Ideal S128x128 .f32)
    (X : S100000x128.Idx → EReal) (W : S128x128.Idx → EReal) (b : Nat)
    (hx : ∀ (y : S10000x128.Idx) (i : S100000x128.Idx), (i 0).val = b * 10000 + (y 0).val → (i 1).val = (y 1).val → x0 y = X i)
    (hw : ∀ y : S128x128.Idx, w0 y = W y)
    (y : S10000x128.Idx) (i : S100000x128.Idx) (h0 : (i 0).val = b * 10000 + (y 0).val) (h1 : (i 1).val = (y 1).val) :
    k0_pay1 x0 w0 y = Cert.Gat.proj X W i := by
  obtain ⟨r, k, rfl⟩ : ∃ (r : Fin 10000) (k : Fin 128), y = ix2 r k := ⟨y 0, y 1, eq_ix2 y⟩
  have hk : (i 1 : Fin 128) = k := Fin.ext h1
  rw [pay1_at]
  unfold Cert.Gat.proj
  refine Finset.sum_congr rfl fun q _ => ?_
  rw [hx (ix2 r q) (ix2 (i 0 : Fin 100000) q) h0 rfl, hw, hk]

/-- What point t writes back into the first output is block t of the projection of the features by the weights, both read off
    the arrays as the region finds them. -/
theorem stored_proj (c : Dev nD) (t : Fin cfg0.N) :
    (dat0 (F := Ideal) V c).flushed 3 t
      = ((cfg0.win 3).blk t).view.read (Elt Ideal) (Cert.Gat.proj (V c main_arg0) (V c main_arg2)) := by
  show (cfg0.win 3).cut (grid0.coords t) ((dat0 V c).after 3 t) = _
  rw [after0_3]
  unfold out0_3
  rw [View.canon_unit_zero zero_off]
  simp only [View.ld_unit_zero (S := S10000x128) zero_off, View.ld_unit_zero (S := S128x128) zero_off]
  obtain ⟨-, -, -, -, -, -, e0, e1, -⟩ := block_index t
  funext y
  show k0_pay1 (iblk0 V c 0 t) (iblk0 V c 1 t) y
    = Cert.Gat.proj (V c main_arg0) (V c main_arg2) (((cfg0.win 3).blk t).view.emb y)
  refine proj_of_block (iblk0 V c 0 t) (iblk0 V c 1 t) (V c main_arg0) (V c main_arg2) t.val
    (fun y' i' g0 g1 => rows_block V c t y' i' g0 g1) (fun y' => weights_block V c t y') y _ ?_ ?_
  · show win0_3.index t (0 : Fin 2) * 10000 + 1 * (y 0).val = _
    rw [e0]; omega
  · show win0_3.index t (1 : Fin 2) * 128 + 1 * (y 1).val = _
    rw [e1]; omega

/-- The scores: entry (n, j) is the sum over k of the projection's (n, k) entry times A's (k, j) entry. -/
def scoreOf (X : S100000x128.Idx → EReal) (W : S128x128.Idx → EReal) (A : S128x8.Idx → EReal) : S100000x8.Idx → EReal :=
  fun i => ∑ k : Fin 128, Cert.Gat.proj X W (ix2 (i 0 : Fin 100000) k) * A (ix2 k (i 1 : Fin 8))

/-- Under the same block hypotheses, and a0 agreeing with A, the second product block's entry y is the score at i for every array
    index i with i₀ = 10000·b + y₀ and i₁ = y₁: term k of its sum is the projection's (i₀, k) entry times A's (k, i₁) entry. -/
theorem score_of_block (x0 : Vec Ideal S10000x128 .f32) (w0 : Vec Ideal S128x128 .f32) (a0 : Vec Ideal S128x8 .bf16)
    (X : S100000x128.Idx → EReal) (W : S128x128.Idx → EReal) (A : S128x8.Idx → EReal) (b : Nat)
    (hx : ∀ (y : S10000x128.Idx) (i : S100000x128.Idx), (i 0).val = b * 10000 + (y 0).val → (i 1).val = (y 1).val → x0 y = X i)
    (hw : ∀ y : S128x128.Idx, w0 y = W y) (ha : ∀ y : S128x8.Idx, a0 y = A y)
    (y : S10000x8.Idx) (i : S100000x8.Idx) (h0 : (i 0).val = b * 10000 + (y 0).val) (h1 : (i 1).val = (y 1).val) :
    k0_pay2 x0 w0 a0 y = scoreOf X W A i := by
  show k0_pay2 x0 w0 a0 y = ∑ k : Fin 128, Cert.Gat.proj X W (ix2 (i 0 : Fin 100000) k) * A (ix2 k (i 1 : Fin 8))
  obtain ⟨r, j, rfl⟩ : ∃ (r : Fin 10000) (j : Fin 8), y = ix2 r j := ⟨y 0, y 1, eq_ix2 y⟩
  have hj : (i 1 : Fin 8) = j := Fin.ext h1
  rw [pay2_at]
  refine Finset.sum_congr rfl fun k _ => ?_
  rw [proj_of_block x0 w0 X W b hx hw (ix2 r k) (ix2 (i 0 : Fin 100000) k) h0 rfl, ha, hj]

/-- What point t writes back into the second output is block t of the scores of the features, weights and attention matrix as the
    region finds them. -/
theorem stored_score (c : Dev nD) (t : Fin cfg0.N) :
    (dat0 (F := Ideal) V c).flushed 4 t
      = ((cfg0.win 4).blk t).view.read (Elt Ideal)
          (scoreOf (V c main_arg0) (V c main_arg2) (V c main_v22)) := by
  show (cfg0.win 4).cut (grid0.coords t) ((dat0 V c).after 4 t) = _
  rw [after0_4]
  unfold out0_4
  rw [View.canon_unit_zero zero_off]
  simp only [View.ld_unit_zero (S := S10000x128) zero_off, View.ld_unit_zero (S := S128x128) zero_off,
    View.ld_unit_zero (S := S128x8) zero_off]
  obtain ⟨-, -, -, -, -, -, -, -, e0, e1⟩ := block_index t
  funext y
  show k0_pay2 (iblk0 V c 0 t) (iblk0 V c 1 t) (iblk0 V c 2 t) y
    = (scoreOf (V c main_arg0) (V c main_arg2) (V c main_v22))
      (((cfg0.win 4).blk t).view.emb y)
  refine score_of_block (iblk0 V c 0 t) (iblk0 V c 1 t) (iblk0 V c 2 t) (V c main_arg0) (V c main_arg2) (V c main_v22) t.val
    (fun y' i' g0 g1 => rows_block V c t y' i' g0 g1) (fun y' => weights_block V c t y') (fun y' => att_block V c t y') y _ ?_ ?_
  · show win0_4.index t (0 : Fin 2) * 10000 + 1 * (y 0).val = _
    rw [e0]; omega
  · show win0_4.index t (1 : Fin 2) * 8 + 1 * (y 1).val = _
    rw [e1]; omega

/-- An index of the first output lies in point t's block iff each coordinate lies in the block's range on its axis. -/
theorem in_proj_block (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v23_0).slice (win0_3.rect t)).set ↔ _
  rw [View.set_slice_whole, Rect.mem_set_unit]
  exact Iff.rfl

/-- An index of the second output lies in point t's block iff each coordinate lies in the block's range on its axis. -/
theorem in_score_block (t : Fin cfg0.N) (i : S100000x8.Idx) :
    i ∈ ((cfg0.win 4).blk t).view.set ↔ ∀ a : Fin 2, win0_4.index t a * S10000x8.size a ≤ (i a).val
      ∧ (i a).val < win0_4.index t a * S10000x8.size a + S10000x8.size a := by
  show i ∈ ((View.whole main_v23_1).slice (win0_4.rect t)).set ↔ _
  rw [View.set_slice_whole, Rect.mem_set_unit]
  exact Iff.rfl

/-- Row n of the first output lies in the block of point n / 10000, and every point writes its block back. -/
theorem proj_rows_covered (i : S100000x128.Idx) :
    ∃ t : Fin cfg0.N, (cfg0.win 3).flush t = true ∧ i ∈ ((cfg0.win 3).blk t).view.set := by
  have hr : (i 0).val < 100000 := (i 0).isLt
  have hc : (i 1).val < 128 := (i 1).isLt
  have hN : cfg0.N = 10 := N_0
  let t : Fin cfg0.N := ⟨(i 0).val / 10000, by rw [hN]; omega⟩
  have ht : t.val = (i 0).val / 10000 := rfl
  obtain ⟨-, -, -, -, -, -, e0, e1, -⟩ := block_index t
  refine ⟨t, flush0_3 t, ?_⟩
  rw [in_proj_block]
  intro a
  match a with
  | ⟨0, _⟩ =>
    show win0_3.index t (0 : Fin 2) * 10000 ≤ (i 0).val ∧ (i 0).val < win0_3.index t (0 : Fin 2) * 10000 + 10000
    rw [e0, ht]; omega
  | ⟨1, _⟩ =>
    show win0_3.index t (1 : Fin 2) * 128 ≤ (i 1).val ∧ (i 1).val < win0_3.index t (1 : Fin 2) * 128 + 128
    rw [e1]; omega

/-- Row n of the second output lies in the block of point n / 10000, and every point writes its block back. -/
theorem score_rows_covered (i : S100000x8.Idx) :
    ∃ t : Fin cfg0.N, (cfg0.win 4).flush t = true ∧ i ∈ ((cfg0.win 4).blk t).view.set := by
  have hr : (i 0).val < 100000 := (i 0).isLt
  have hc : (i 1).val < 8 := (i 1).isLt
  have hN : cfg0.N = 10 := N_0
  let t : Fin cfg0.N := ⟨(i 0).val / 10000, by rw [hN]; omega⟩
  have ht : t.val = (i 0).val / 10000 := rfl
  obtain ⟨-, -, -, -, -, -, -, -, e0, e1⟩ := block_index t
  refine ⟨t, flush0_4 t, ?_⟩
  rw [in_score_block]
  intro a
  match a with
  | ⟨0, _⟩ =>
    show win0_4.index t (0 : Fin 2) * 10000 ≤ (i 0).val ∧ (i 0).val < win0_4.index t (0 : Fin 2) * 10000 + 10000
    rw [e0, ht]; omega
  | ⟨1, _⟩ =>
    show win0_4.index t (1 : Fin 2) * 8 ≤ (i 1).val ∧ (i 1).val < win0_4.index t (1 : Fin 2) * 8 + 8
    rw [e1]; omega

/-- After the region the first output array is, entry by entry, the projection of the features by the weights. -/
theorem proj_arr (c : Dev nD) (x : FVec Ideal S100000x128 .f32) (w : FVec Ideal S128x128 .f32)
    (hx : V c main_arg0 = x) (hw : V c main_arg2 = w) :
    ((dat0 (F := Ideal) V c).arrAt 3 cfg0.N : S100000x128.Idx → EReal) = Cert.Gat.proj x w := by
  have h := (dat0 (F := Ideal) V c).arrAt_eq_of_cover 3 (Cert.Gat.proj (V c main_arg0) (V c main_arg2))
    (fun t _ => stored_proj V c t) proj_rows_covered
  rw [hx, hw] at h
  exact h

/-- After the region the second output array at (n, j) is the sum over k of the projection's (n, k) entry times A's (k, j) entry. -/
theorem score_arr (c : Dev nD) (x : FVec Ideal S100000x128 .f32) (w : FVec Ideal S128x128 .f32)
    (A : FVec Ideal S128x8 .bf16)
    (hx : V c main_arg0 = x) (hw : V c main_arg2 = w) (hA : V c main_v22 = A) :
    ((dat0 (F := Ideal) V c).arrAt 4 cfg0.N : S100000x8.Idx → EReal)
      = fun i => ∑ k : Fin 128, Cert.Gat.proj x w (ix2 (i 0 : Fin 100000) k) * A (ix2 k (i 1 : Fin 8)) := by
  have h := (dat0 (F := Ideal) V c).arrAt_eq_of_cover 4
    (scoreOf (V c main_arg0) (V c main_arg2) (V c main_v22))
    (fun t _ => stored_score V c t) score_rows_covered
  rw [hx, hw, hA] at h
  exact h

end Cert.KernelIdeal.R0

end
-- ==== Proof.R1Val.lean ====
/-
  What the second kernel leaves in its output array.

  Grid point t holds rows 8000·t … 8000·t + 7999 of the gathered projection rows G and of the attention weights a, and
  the whole 4 × 128 matrix X. Its body stores G ∘ (a · X): entry (r, c) = G (8000t + r, c) · ∑ h, a (8000t + r, h) · X (h, c).
  The two hundred blocks tile the 1600000 rows, so the array is that function of (e, c) everywhere.
-/
import proofs.«132320_j74148315398470_1_alg».proof.Proof.Gen.KernelIdeal.Frame
import proofs.«132320_j74148315398470_1_alg».proof.Proof.LibDotPlain
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.R1

open Cert.KernelIdeal Cert.KernelIdeal.Gen

/-- The zero offsets of a whole-block access, as a constant function. -/
theorem hz : (![0, 0] : Fin 2 → Nat) = fun _ => 0 := funext fun a => by fin_cases a <;> rfl

/-- The dimension numbers of the block's product are those of the plain 8000×4 by 4×128 product. -/
theorem dot_plain : dot_S8000x4_S4x128_S8000x128_1_0_0_1_n_n = DotDims.plain 8000 4 128 := rfl

/-- The body's payload at entry (p, q) of the block: the first block's entry times the sum over the four heads of the
    second block's row p against the third block's column q. The format changes and the casts to the same shape are
    the identity on extended reals, the product accumulated into zeros is the plain matrix product. -/
theorem pay_apply (x0 : Vec Ideal S8000x128 .bf16) (x1 : Vec Ideal S8000x4 .f32) (x2 : Vec Ideal S4x128 .bf16)
    (p : Fin 8000) (q : Fin 128) :
    k1_pay1 (F := Ideal) x0 x1 x2 (ix2 p q) = x0 (ix2 p q) * ∑ h : Fin 4, x1 (ix2 p h) * x2 (ix2 h q) := by
  unfold k1_pay1
  simp only [shapeCast_self]
  refine (mulf_apply _ _ (ix2 p q)).trans ?_
  refine congrArg₂ (· * ·) (extf_apply x0 _ _) ?_
  rw [dot_plain]
  exact Cert.LibDotPlain.matmul_zero_plain 8000 4 128 none (truncf FTy.bf16 x1 bitsLt_bf16_f32) x2 p q

/-- The array the region leaves: entry (e, c) is G (e, c) times the sum over the four heads h of a (e, h) · X (h, c). -/
def weighted (G : FVec Ideal S1600000x128 .bf16) (a : FVec Ideal S1600000x4 .f32) (X : FVec Ideal S4x128 .bf16) :
    S1600000x128.Idx → EReal :=
  fun i => G i * ∑ h : Fin 4, a (ix2 (i 0 : Fin 1600000) h) * X (ix2 h (i 1 : Fin 128))

/-- The payload of three blocks at block entry y is the array's entry i, when the first block at y is G at i, the
    second block's row y₀ is a's row i₀ and the third block's column y₁ is X's column i₁. -/
theorem point_eq (G : FVec Ideal S1600000x128 .bf16) (a : FVec Ideal S1600000x4 .f32) (X : FVec Ideal S4x128 .bf16)
    (x0 : Vec Ideal S8000x128 .bf16) (x1 : Vec Ideal S8000x4 .f32) (x2 : Vec Ideal S4x128 .bf16)
    (y : S8000x128.Idx) (i : S1600000x128.Idx)
    (h0 : x0 y = G i) (h1 : ∀ h : Fin 4, x1 (ix2 (y 0 : Fin 8000) h) = a (ix2 (i 0 : Fin 1600000) h))
    (h2 : ∀ h : Fin 4, x2 (ix2 h (y 1 : Fin 128)) = X (ix2 h (i 1 : Fin 128))) :
    k1_pay1 (F := Ideal) x0 x1 x2 y = weighted G a X i := by
  obtain ⟨p, q, rfl⟩ : ∃ (p : Fin 8000) (q : Fin 128), y = ix2 p q := ⟨y 0, y 1, eq_ix2 y⟩
  rw [pay_apply, h0]
  unfold weighted
  congr 1
  exact Finset.sum_congr rfl fun h _ => congrArg₂ (· * ·) (h1 h) (h2 h)

/-- The four windows' block indices over the 200 grid points: the two row-blocked inputs and the output sit at row block t,
    column block 0; the 4×128 input is always its one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- Block t of the 1600000×128 input holds rows 8000 t … 8000 t + 7999 of its array. -/
theorem blk0_apply (c : Dev nD) (t : Fin cfg1.N) (y : S8000x128.Idx) (i : S1600000x128.Idx)
    (h0 : (i 0).val = t.val * 8000 + (y 0).val) (h1 : (i 1).val = (y 1).val) :
    (iblk1 V c 0 t : Vec Ideal S8000x128 .bf16) y = (V c main_v65 : S1600000x128.Idx → EReal) i := by
  obtain ⟨e0, e1, -⟩ := idx_facts t
  unfold iblk1
  rw [View.read_apply]
  show V c main_v65 _ = V c main_v65 _
  congr 1
  funext a
  apply Fin.ext
  match a with
  | ⟨0, _⟩ => show win1_0.index t (0 : Fin 2) * 8000 + 1 * (y 0).val = (i 0).val; rw [e0, h0]; omega
  | ⟨1, _⟩ => show win1_0.index t (1 : Fin 2) * 128 + 1 * (y 1).val = (i 1).val; rw [e1, h1]; omega

/-- Block t of the 1600000×4 input holds rows 8000 t … 8000 t + 7999 of its array. -/
theorem blk1_apply (c : Dev nD) (t : Fin cfg1.N) (y : S8000x4.Idx) (i : S1600000x4.Idx)
    (h0 : (i 0).val = t.val * 8000 + (y 0).val) (h1 : (i 1).val = (y 1).val) :
    (iblk1 V c 1 t : Vec Ideal S8000x4 .f32) y = (V c main_v58 : S1600000x4.Idx → EReal) i := by
  obtain ⟨-, -, e0, e1, -⟩ := idx_facts t
  unfold iblk1
  rw [View.read_apply]
  show V c main_v58 _ = V c main_v58 _
  congr 1
  funext a
  apply Fin.ext
  match a with
  | ⟨0, _⟩ => show win1_1.index t (0 : Fin 2) * 8000 + 1 * (y 0).val = (i 0).val; rw [e0, h0]; omega
  | ⟨1, _⟩ => show win1_1.index t (1 : Fin 2) * 4 + 1 * (y 1).val = (i 1).val; rw [e1, h1]; omega

/-- The one block of the 4×128 input is its whole array, at every point. -/
theorem blk2_apply (c : Dev nD) (t : Fin cfg1.N) (y : S4x128.Idx) :
    (iblk1 V c 2 t : Vec Ideal S4x128 .bf16) y = (V c main_v74 : S4x128.Idx → EReal) y := by
  obtain ⟨-, -, -, -, e0, e1, -⟩ := idx_facts t
  unfold iblk1
  rw [View.read_apply]
  show V c main_v74 _ = V c main_v74 _
  congr 1
  funext a
  apply Fin.ext
  match a with
  | ⟨0, _⟩ => show win1_2.index t (0 : Fin 2) * 4 + 1 * (y 0).val = (y 0).val; rw [e0]; omega
  | ⟨1, _⟩ => show win1_2.index t (1 : Fin 2) * 128 + 1 * (y 1).val = (y 1).val; rw [e1]; omega

/-- What grid point t writes back to the output array is block t of the whole-array function of the region's input
    arrays: the body's one store covers its buffer with the payload of the three input blocks, and each block is read
    where the output's rows 8000 t … 8000 t + 7999 say. -/
theorem flushed_eq (c : Dev nD) (t : Fin cfg1.N) :
    (dat1 (F := Ideal) V c).flushed 3 t
      = ((cfg1.win 3).blk t).view.read (Elt Ideal) (weighted (V c main_v65) (V c main_v58) (V c main_v74)) := by
  show (cfg1.win 3).cut (grid1.coords t) ((dat1 V c).after 3 t) = _
  rw [after1_3]
  unfold out1_3
  rw [View.canon_unit_zero hz]
  simp only [View.ld_unit_zero (S := S8000x128) hz, View.ld_unit_zero (S := S8000x4) hz, View.ld_unit_zero (S := S4x128) hz]
  obtain ⟨-, -, -, -, -, -, e0, e1⟩ := idx_facts t
  funext j
  have r0 : ((((cfg1.win 3).blk t).view.emb j) 0).val = t.val * 8000 + (j 0).val := by
    show win1_3.index t (0 : Fin 2) * 8000 + 1 * (j 0).val = _
    rw [e0]; omega
  have r1 : ((((cfg1.win 3).blk t).view.emb j) 1).val = (j 1).val := by
    show win1_3.index t (1 : Fin 2) * 128 + 1 * (j 1).val = _
    rw [e1]; omega
  refine point_eq (V c main_v65) (V c main_v58) (V c main_v74) (iblk1 V c 0 t) (iblk1 V c 1 t) (iblk1 V c 2 t)
    ((cfg1.win 3).xinj (grid1.coords t) j) (((cfg1.win 3).blk t).view.emb j) ?_ (fun h => ?_) (fun h => ?_)
  · exact blk0_apply V c t _ _ r0 r1
  · exact blk1_apply V c t _ _ r0 rfl
  · exact (blk2_apply V c t _).trans (congrArg (V c main_v74) (funext fun a => Fin.ext (by
      match a with
      | ⟨0, _⟩ => rfl
      | ⟨1, _⟩ => exact r1.symm)))

/-- An index of the output array lies in point t's block exactly when each coordinate lies in the block's range. -/
theorem mem_blk (t : Fin cfg1.N) (i : S1600000x128.Idx) :
    i ∈ ((cfg1.win 3).blk t).view.set ↔ ∀ a : Fin 2, win1_3.index t a * S8000x128.size a ≤ (i a).val
      ∧ (i a).val < win1_3.index t a * S8000x128.size a + S8000x128.size a := by
  show i ∈ ((View.whole main_v75).slice (win1_3.rect t)).set ↔ _
  rw [View.set_slice_whole, Rect.mem_set_unit]
  exact Iff.rfl

/-- Every entry of the output array is written back by some point: row r lies in the block of point r / 8000, and each
    block spans all 128 columns. -/
theorem cover (i : S1600000x128.Idx) :
    ∃ t : Fin cfg1.N, (cfg1.win 3).flush t = true ∧ i ∈ ((cfg1.win 3).blk t).view.set := by
  have hi0 : (i 0).val < 1600000 := (i 0).isLt
  have hi1 : (i 1).val < 128 := (i 1).isLt
  have hN : cfg1.N = 200 := N_1
  have ht : (i 0).val / 8000 < cfg1.N := by rw [hN]; omega
  obtain ⟨-, -, -, -, -, -, e0, e1⟩ := idx_facts ⟨(i 0).val / 8000, ht⟩
  refine ⟨⟨(i 0).val / 8000, ht⟩, flush1_3 _, ?_⟩
  rw [mem_blk]
  intro a
  match a with
  | ⟨0, _⟩ =>
    show win1_3.index ⟨(i 0).val / 8000, ht⟩ (0 : Fin 2) * 8000 ≤ (i 0).val
      ∧ (i 0).val < win1_3.index ⟨(i 0).val / 8000, ht⟩ (0 : Fin 2) * 8000 + 8000
    rw [e0]
    show (i 0).val / 8000 * 8000 ≤ (i 0).val ∧ (i 0).val < (i 0).val / 8000 * 8000 + 8000
    omega
  | ⟨1, _⟩ =>
    show win1_3.index ⟨(i 0).val / 8000, ht⟩ (1 : Fin 2) * 128 ≤ (i 1).val
      ∧ (i 1).val < win1_3.index ⟨(i 0).val / 8000, ht⟩ (1 : Fin 2) * 128 + 128
    rw [e1]
    omega

theorem weighted_arr (c : Dev nD) (G : FVec Ideal S1600000x128 .bf16) (a : FVec Ideal S1600000x4 .f32)
    (X : FVec Ideal S4x128 .bf16)
    (hG : V c main_v65 = G) (ha : V c main_v58 = a) (hX : V c main_v74 = X) :
    ((dat1 (F := Ideal) V c).arrAt 3 cfg1.N : S1600000x128.Idx → EReal)
      = fun i => G i * ∑ h : Fin 4, a (ix2 (i 0 : Fin 1600000) h) * X (ix2 h (i 1 : Fin 128)) := by
  subst hG ha hX
  exact (dat1 (F := Ideal) V c).arrAt_eq_of_cover 3 (weighted (V c main_v65) (V c main_v58) (V c main_v74))
    (fun t _ => flushed_eq V c t) cover

end Cert.KernelIdeal.R1

end
-- ==== Proof.RVals.lean ====
/- GENERATED by: python3 scratch/gen_vals.py R   (in the unit directory; the script is filed with the unit)
   from proof/ReferenceIdeal.lean (the statements of @main; the one call written out over its buffers) — a TABLE, no argument: the result of each host operation of the program's @main as that operation's
   printed function applied to the definitions of its operands, stage by stage over the stage's named inputs. -/
import proofs.«132320_j74148315398470_1_alg».proof.Proof.Gen.ReferenceIdeal
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem

variable {F : FTy → Type} [FloatOps F]

/-- @main's operations, in order (the callee of its one call written out over the call's buffers). -/
abbrev ops : List (HloOp τ sig (Elt F)) :=
  [ StableHlo.binary main_arg0 main_arg2 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.reshape main_v0 main_v1 rfl shapeCasts_S100000x128_S100000x4x32,
    StableHlo.unary main_arg3 main_v2 (broadcastInDim S100000x4x32 ![0, 1, 2] bcast_S1x4x32_S100000x4x32_0_1_2 : (⟨S1x4x32, .f32⟩ : BufTy).Contents (Elt F) → (⟨S100000x4x32, .f32⟩ : BufTy).Contents (Elt F)),
    StableHlo.binary main_v1 main_v2 main_v3 (mulf : (⟨S100000x4x32, .f32⟩ : BufTy).Contents (Elt F) → (⟨S100000x4x32, .f32⟩ : BufTy).Contents (Elt F) → (⟨S100000x4x32, .f32⟩ : BufTy).Contents (Elt F)),
    StableHlo.nullary main_cst (constant S_ .f32 0x00000000#32),
    StableHlo.binary main_v3 main_cst main_v4 ((fun x v => Host.reduceAdd x v reducesTo_S100000x4x32_S100000x4_d2 h_S_) : (⟨S100000x4x32, .f32⟩ : BufTy).Contents (Elt F) → (⟨S_, .f32⟩ : BufTy).Contents (Elt F) → (⟨S100000x4, .f32⟩ : BufTy).Contents (Elt F)),
    StableHlo.unary main_arg4 main_v5 (broadcastInDim S100000x4x32 ![0, 1, 2] bcast_S1x4x32_S100000x4x32_0_1_2 : (⟨S1x4x32, .f32⟩ : BufTy).Contents (Elt F) → (⟨S100000x4x32, .f32⟩ : BufTy).Contents (Elt F)),
    StableHlo.binary main_v1 main_v5 main_v6 (mulf : (⟨S100000x4x32, .f32⟩ : BufTy).Contents (Elt F) → (⟨S100000x4x32, .f32⟩ : BufTy).Contents (Elt F) → (⟨S100000x4x32, .f32⟩ : BufTy).Contents (Elt F)),
    StableHlo.nullary main_cst_0 (constant S_ .f32 0x00000000#32),
    StableHlo.binary main_v6 main_cst_0 main_v7 ((fun x v => Host.reduceAdd x v reducesTo_S100000x4x32_S100000x4_d2 h_S_) : (⟨S100000x4x32, .f32⟩ : BufTy).Contents (Elt F) → (⟨S_, .f32⟩ : BufTy).Contents (Elt F) → (⟨S100000x4, .f32⟩ : BufTy).Contents (Elt F)),
    StableHlo.unary main_arg1 main_v8 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v8 main_v9 rfl shapeCasts_S1x1600000_S1600000,
    StableHlo.unary main_arg1 main_v10 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v10 main_v11 rfl shapeCasts_S1x1600000_S1600000,
    StableHlo.nullary main_c (constantI S_ 32 0#32),
    StableHlo.unary main_c main_v12 (broadcastInDim S1600000 ![] bcast_S_S1600000 : (⟨S_, .i32⟩ : BufTy).Contents (Elt F) → (⟨S1600000, .i32⟩ : BufTy).Contents (Elt F)),
    StableHlo.binary main_v9 main_v12 main_v13 (cmpi .slt : (⟨S1600000, .i32⟩ : BufTy).Contents (Elt F) → (⟨S1600000, .i32⟩ : BufTy).Contents (Elt F) → (⟨S1600000, .i1⟩ : BufTy).Contents (Elt F)),
    StableHlo.nullary main_c_1 (constantI S_ 32 100000#32),
    StableHlo.unary main_c_1 main_v14 (broadcastInDim S1600000 ![] bcast_S_S1600000 : (⟨S_, .i32⟩ : BufTy).Contents (Elt F) → (⟨S1600000, .i32⟩ : BufTy).Contents (Elt F)),
    StableHlo.binary main_v9 main_v14 main_v15 (addi : (⟨S1600000, .i32⟩ : BufTy).Contents (Elt F) → (⟨S1600000, .i32⟩ : BufTy).Contents (Elt F) → (⟨S1600000, .i32⟩ : BufTy).Contents (Elt F)),
    StableHlo.ternary main_v13 main_v15 main_v9 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v16 main_v17 (broadcastInDim S1600000x1 ![0] bcast_S1600000_S1600000x1_0 : (⟨S1600000, .i32⟩ : BufTy).Contents (Elt F) → (⟨S1600000x1, .i32⟩ : BufTy).Contents (Elt F)),
    StableHlo.binary main_v4 main_v17 main_v18 ((fun x i => Host.gather gather_S100000x4_S1600000x1_S1600000x4_1_0_n_n_0_1_14 x i) : (⟨S100000x4, .f32⟩ : BufTy).Contents (Elt F) → (⟨S1600000x1, .i32⟩ : BufTy).Contents (Elt F) → (⟨S1600000x4, .f32⟩ : BufTy).Contents (Elt F)),
    StableHlo.nullary main_c_2 (constantI S_ 32 0#32),
    StableHlo.unary main_c_2 main_v19 (broadcastInDim S1600000 ![] bcast_S_S1600000 : (⟨S_, .i32⟩ : BufTy).Contents (Elt F) → (⟨S1600000, .i32⟩ : BufTy).Contents (Elt F)),
    StableHlo.binary main_v11 main_v19 main_v20 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v21 (broadcastInDim S1600000 ![] bcast_S_S1600000 : (⟨S_, .i32⟩ : BufTy).Contents (Elt F) → (⟨S1600000, .i32⟩ : BufTy).Contents (Elt F)),
    StableHlo.binary main_v11 main_v21 main_v22 (addi : (⟨S1600000, .i32⟩ : BufTy).Contents (Elt F) → (⟨S1600000, .i32⟩ : BufTy).Contents (Elt F) → (⟨S1600000, .i32⟩ : BufTy).Contents (Elt F)),
    StableHlo.ternary main_v20 main_v22 main_v11 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v23 main_v24 (broadcastInDim S1600000x1 ![0] bcast_S1600000_S1600000x1_0 : (⟨S1600000, .i32⟩ : BufTy).Contents (Elt F) → (⟨S1600000x1, .i32⟩ : BufTy).Contents (Elt F)),
    StableHlo.binary main_v7 main_v24 main_v25 ((fun x i => Host.gather gather_S100000x4_S1600000x1_S1600000x4_1_0_n_n_0_1_14 x i) : (⟨S100000x4, .f32⟩ : BufTy).Contents (Elt F) → (⟨S1600000x1, .i32⟩ : BufTy).Contents (Elt F) → (⟨S1600000x4, .f32⟩ : BufTy).Contents (Elt F)),
    StableHlo.binary main_v18 main_v25 main_v26 (addf : (⟨S1600000x4, .f32⟩ : BufTy).Contents (Elt F) → (⟨S1600000x4, .f32⟩ : BufTy).Contents (Elt F) → (⟨S1600000x4, .f32⟩ : BufTy).Contents (Elt F)),
    StableHlo.nullary main_cst_4 (constant S_ .f32 0x3E4CCCCD#32),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S1600000x4, .f32⟩) (broadcastInDim S1600000x4 ![] bcast_S_S1600000x4),
    StableHlo.TRef.binary (.of main_v26 : StableHlo.TRef sig ⟨S1600000x4, .f32⟩) (.of main_call0_v0 : StableHlo.TRef sig ⟨S1600000x4, .f32⟩) (.of main_call0_v1 : StableHlo.TRef sig ⟨S1600000x4, .i1⟩) (cmpf .oge),
    StableHlo.TRef.unary (.of main_cst_4 : StableHlo.TRef sig ⟨S_, .f32⟩) (.of main_call0_v2 : StableHlo.TRef sig ⟨S_, .f32⟩) id,
    StableHlo.TRef.unary (.of main_call0_v2 : StableHlo.TRef sig ⟨S_, .f32⟩) (.of main_call0_v3 : StableHlo.TRef sig ⟨S1600000x4, .f32⟩) (broadcastInDim S1600000x4 ![] bcast_S_S1600000x4),
    StableHlo.TRef.binary (.of main_call0_v3 : StableHlo.TRef sig ⟨S1600000x4, .f32⟩) (.of main_v26 : StableHlo.TRef sig ⟨S1600000x4, .f32⟩) (.of main_call0_v4 : StableHlo.TRef sig ⟨S1600000x4, .f32⟩) mulf,
    StableHlo.TRef.ternary (.of main_call0_v1 : StableHlo.TRef sig ⟨S1600000x4, .i1⟩) (.of main_v26 : StableHlo.TRef sig ⟨S1600000x4, .f32⟩) (.of main_call0_v4 : StableHlo.TRef sig ⟨S1600000x4, .f32⟩) (.of main_v27 : StableHlo.TRef sig ⟨S1600000x4, .f32⟩) select,
    StableHlo.nullary main_cst_5 (constant S_ .f32 0xFF800000#32),
    StableHlo.binary main_v27 main_cst_5 main_v28 ((fun x v => Host.reduce FloatOps.maximumf x v reducesTo_S1600000x4_S_d0_1 h_S_) : (⟨S1600000x4, .f32⟩ : BufTy).Contents (Elt F) → (⟨S_, .f32⟩ : BufTy).Contents (Elt F) → (⟨S_, .f32⟩ : BufTy).Contents (Elt F)),
    StableHlo.unary main_v28 main_v29 (broadcastInDim S1600000x4 ![] bcast_S_S1600000x4 : (⟨S_, .f32⟩ : BufTy).Contents (Elt F) → (⟨S1600000x4, .f32⟩ : BufTy).Contents (Elt F)),
    StableHlo.binary main_v27 main_v29 main_v30 (subf : (⟨S1600000x4, .f32⟩ : BufTy).Contents (Elt F) → (⟨S1600000x4, .f32⟩ : BufTy).Contents (Elt F) → (⟨S1600000x4, .f32⟩ : BufTy).Contents (Elt F)),
    StableHlo.unary main_v30 main_v31 (Host.exp : (⟨S1600000x4, .f32⟩ : BufTy).Contents (Elt F) → (⟨S1600000x4, .f32⟩ : BufTy).Contents (Elt F)),
    StableHlo.nullary main_cst_6 (constant S_ .f32 0x00000000#32),
    StableHlo.unary main_cst_6 main_v32 (broadcastInDim S100000x4 ![] bcast_S_S100000x4 : (⟨S_, .f32⟩ : BufTy).Contents (Elt F) → (⟨S100000x4, .f32⟩ : BufTy).Contents (Elt F)),
    StableHlo.unary main_v11 main_v33 (broadcastInDim S1600000x1 ![0] bcast_S1600000_S1600000x1_0 : (⟨S1600000, .i32⟩ : BufTy).Contents (Elt F) → (⟨S1600000x1, .i32⟩ : BufTy).Contents (Elt F)),
    StableHlo.ternary main_v32 main_v33 main_v31 main_v34 ((fun x i u => Host.scatterAdd scatter_S100000x4_S1600000x1_S1600000x4_1_0_0_1 x i u) : (⟨S100000x4, .f32⟩ : BufTy).Contents (Elt F) → (⟨S1600000x1, .i32⟩ : BufTy).Contents (Elt F) → (⟨S1600000x4, .f32⟩ : BufTy).Contents (Elt F) → (⟨S100000x4, .f32⟩ : BufTy).Contents (Elt F)),
    StableHlo.nullary main_c_7 (constantI S_ 32 0#32),
    StableHlo.unary main_c_7 main_v35 (broadcastInDim S1600000 ![] bcast_S_S1600000 : (⟨S_, .i32⟩ : BufTy).Contents (Elt F) → (⟨S1600000, .i32⟩ : BufTy).Contents (Elt F)),
    StableHlo.binary main_v11 main_v35 main_v36 (cmpi .slt : (⟨S1600000, .i32⟩ : BufTy).Contents (Elt F) → (⟨S1600000, .i32⟩ : BufTy).Contents (Elt F) → (⟨S1600000, .i1⟩ : BufTy).Contents (Elt F)),
    StableHlo.nullary main_c_8 (constantI S_ 32 100000#32),
    StableHlo.unary main_c_8 main_v37 (broadcastInDim S1600000 ![] bcast_S_S1600000 : (⟨S_, .i32⟩ : BufTy).Contents (Elt F) → (⟨S1600000, .i32⟩ : BufTy).Contents (Elt F)),
    StableHlo.binary main_v11 main_v37 main_v38 (addi : (⟨S1600000, .i32⟩ : BufTy).Contents (Elt F) → (⟨S1600000, .i32⟩ : BufTy).Contents (Elt F) → (⟨S1600000, .i32⟩ : BufTy).Contents (Elt F)),
    StableHlo.ternary main_v36 main_v38 main_v11 main_v39 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v39 main_v40 (broadcastInDim S1600000x1 ![0] bcast_S1600000_S1600000x1_0 : (⟨S1600000, .i32⟩ : BufTy).Contents (Elt F) → (⟨S1600000x1, .i32⟩ : BufTy).Contents (Elt F)),
    StableHlo.binary main_v34 main_v40 main_v41 ((fun x i => Host.gather gather_S100000x4_S1600000x1_S1600000x4_1_0_n_n_0_1_14 x i) : (⟨S100000x4, .f32⟩ : BufTy).Contents (Elt F) → (⟨S1600000x1, .i32⟩ : BufTy).Contents (Elt F) → (⟨S1600000x4, .f32⟩ : BufTy).Contents (Elt F)),
    StableHlo.nullary main_cst_9 (constant S_ .f32 0x24E69595#32),
    StableHlo.unary main_cst_9 main_v42 (broadcastInDim S1600000x4 ![] bcast_S_S1600000x4 : (⟨S_, .f32⟩ : BufTy).Contents (Elt F) → (⟨S1600000x4, .f32⟩ : BufTy).Contents (Elt F)),
    StableHlo.binary main_v41 main_v42 main_v43 (addf : (⟨S1600000x4, .f32⟩ : BufTy).Contents (Elt F) → (⟨S1600000x4, .f32⟩ : BufTy).Contents (Elt F) → (⟨S1600000x4, .f32⟩ : BufTy).Contents (Elt F)),
    StableHlo.binary main_v31 main_v43 main_v44 (Host.divf : (⟨S1600000x4, .f32⟩ : BufTy).Contents (Elt F) → (⟨S1600000x4, .f32⟩ : BufTy).Contents (Elt F) → (⟨S1600000x4, .f32⟩ : BufTy).Contents (Elt F)),
    StableHlo.nullary main_c_10 (constantI S_ 32 0#32),
    StableHlo.unary main_c_10 main_v45 (broadcastInDim S1600000 ![] bcast_S_S1600000 : (⟨S_, .i32⟩ : BufTy).Contents (Elt F) → (⟨S1600000, .i32⟩ : BufTy).Contents (Elt F)),
    StableHlo.binary main_v9 main_v45 main_v46 (cmpi .slt : (⟨S1600000, .i32⟩ : BufTy).Contents (Elt F) → (⟨S1600000, .i32⟩ : BufTy).Contents (Elt F) → (⟨S1600000, .i1⟩ : BufTy).Contents (Elt F)),
    StableHlo.nullary main_c_11 (constantI S_ 32 100000#32),
    StableHlo.unary main_c_11 main_v47 (broadcastInDim S1600000 ![] bcast_S_S1600000 : (⟨S_, .i32⟩ : BufTy).Contents (Elt F) → (⟨S1600000, .i32⟩ : BufTy).Contents (Elt F)),
    StableHlo.binary main_v9 main_v47 main_v48 (addi : (⟨S1600000, .i32⟩ : BufTy).Contents (Elt F) → (⟨S1600000, .i32⟩ : BufTy).Contents (Elt F) → (⟨S1600000, .i32⟩ : BufTy).Contents (Elt F)),
    StableHlo.ternary main_v46 main_v48 main_v9 main_v49 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v49 main_v50 (broadcastInDim S1600000x1 ![0] bcast_S1600000_S1600000x1_0 : (⟨S1600000, .i32⟩ : BufTy).Contents (Elt F) → (⟨S1600000x1, .i32⟩ : BufTy).Contents (Elt F)),
    StableHlo.binary main_v1 main_v50 main_v51 ((fun x i => Host.gather gather_S100000x4x32_S1600000x1_S1600000x4x32_12_0_n_n_0_1_1432 x i) : (⟨S100000x4x32, .f32⟩ : BufTy).Contents (Elt F) → (⟨S1600000x1, .i32⟩ : BufTy).Contents (Elt F) → (⟨S1600000x4x32, .f32⟩ : BufTy).Contents (Elt F)),
    StableHlo.unary main_v44 main_v52 (broadcastInDim S1600000x4x1 ![0, 1] bcast_S1600000x4_S1600000x4x1_0_1 : (⟨S1600000x4, .f32⟩ : BufTy).Contents (Elt F) → (⟨S1600000x4x1, .f32⟩ : BufTy).Contents (Elt F)),
    StableHlo.unary main_v52 main_v53 (broadcastInDim S1600000x4x32 ![0, 1, 2] bcast_S1600000x4x1_S1600000x4x32_0_1_2 : (⟨S1600000x4x1, .f32⟩ : BufTy).Contents (Elt F) → (⟨S1600000x4x32, .f32⟩ : BufTy).Contents (Elt F)),
    StableHlo.binary main_v51 main_v53 main_v54 (mulf : (⟨S1600000x4x32, .f32⟩ : BufTy).Contents (Elt F) → (⟨S1600000x4x32, .f32⟩ : BufTy).Contents (Elt F) → (⟨S1600000x4x32, .f32⟩ : BufTy).Contents (Elt F)),
    StableHlo.nullary main_cst_12 (constant S_ .f32 0x00000000#32),
    StableHlo.unary main_cst_12 main_v55 (broadcastInDim S100000x4x32 ![] bcast_S_S100000x4x32 : (⟨S_, .f32⟩ : BufTy).Contents (Elt F) → (⟨S100000x4x32, .f32⟩ : BufTy).Contents (Elt F)),
    StableHlo.unary main_v11 main_v56 (broadcastInDim S1600000x1 ![0] bcast_S1600000_S1600000x1_0 : (⟨S1600000, .i32⟩ : BufTy).Contents (Elt F) → (⟨S1600000x1, .i32⟩ : BufTy).Contents (Elt F)),
    StableHlo.ternary main_v55 main_v56 main_v54 main_v57 ((fun x i u => Host.scatterAdd scatter_S100000x4x32_S1600000x1_S1600000x4x32_12_0_0_1 x i u) : (⟨S100000x4x32, .f32⟩ : BufTy).Contents (Elt F) → (⟨S1600000x1, .i32⟩ : BufTy).Contents (Elt F) → (⟨S1600000x4x32, .f32⟩ : BufTy).Contents (Elt F) → (⟨S100000x4x32, .f32⟩ : BufTy).Contents (Elt F)),
    StableHlo.reshape main_v57 main_v58 rfl shapeCasts_S100000x4x32_S100000x128 ]

/-! ## The projection, the two score arrays and the two index rows: over the arguments -/

def val_main_v0 (x : (⟨S100000x128, .f32⟩ : BufTy).Contents (Elt F)) (w : (⟨S128x128, .f32⟩ : BufTy).Contents (Elt F)) : (⟨S100000x128, .f32⟩ : BufTy).Contents (Elt F) :=
  ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) x w
def val_main_v1 (x : (⟨S100000x128, .f32⟩ : BufTy).Contents (Elt F)) (w : (⟨S128x128, .f32⟩ : BufTy).Contents (Elt F)) : (⟨S100000x4x32, .f32⟩ : BufTy).Contents (Elt F) :=
  ((fun v => shapeCast S100000x4x32 v shapeCasts_S100000x128_S100000x4x32) : (⟨S100000x128, .f32⟩ : BufTy).Contents (Elt F) → (⟨S100000x4x32, .f32⟩ : BufTy).Contents (Elt F)) (val_main_v0 (F := F) x w)
def val_main_v2 (a3 : (⟨S1x4x32, .f32⟩ : BufTy).Contents (Elt F)) : (⟨S100000x4x32, .f32⟩ : BufTy).Contents (Elt F) :=
  (broadcastInDim S100000x4x32 ![0, 1, 2] bcast_S1x4x32_S100000x4x32_0_1_2 : (⟨S1x4x32, .f32⟩ : BufTy).Contents (Elt F) → (⟨S100000x4x32, .f32⟩ : BufTy).Contents (Elt F)) a3
def val_main_v3 (x : (⟨S100000x128, .f32⟩ : BufTy).Contents (Elt F)) (w : (⟨S128x128, .f32⟩ : BufTy).Contents (Elt F)) (a3 : (⟨S1x4x32, .f32⟩ : BufTy).Contents (Elt F)) : (⟨S100000x4x32, .f32⟩ : BufTy).Contents (Elt F) :=
  (mulf : (⟨S100000x4x32, .f32⟩ : BufTy).Contents (Elt F) → (⟨S100000x4x32, .f32⟩ : BufTy).Contents (Elt F) → (⟨S100000x4x32, .f32⟩ : BufTy).Contents (Elt F)) (val_main_v1 (F := F) x w) (val_main_v2 (F := F) a3)
def val_main_cst : (⟨S_, .f32⟩ : BufTy).Contents (Elt F) :=
  ((constant S_ .f32 0x00000000#32) : (⟨S_, .f32⟩ : BufTy).Contents (Elt F))
def val_main_v4 (x : (⟨S100000x128, .f32⟩ : BufTy).Contents (Elt F)) (w : (⟨S128x128, .f32⟩ : BufTy).Contents (Elt F)) (a3 : (⟨S1x4x32, .f32⟩ : BufTy).Contents (Elt F)) : (⟨S100000x4, .f32⟩ : BufTy).Contents (Elt F) :=
  ((fun x v => Host.reduceAdd x v reducesTo_S100000x4x32_S100000x4_d2 h_S_) : (⟨S100000x4x32, .f32⟩ : BufTy).Contents (Elt F) → (⟨S_, .f32⟩ : BufTy).Contents (Elt F) → (⟨S100000x4, .f32⟩ : BufTy).Contents (Elt F)) (val_main_v3 (F := F) x w a3) (val_main_cst (F := F))
def val_main_v5 (a4 : (⟨S1x4x32, .f32⟩ : BufTy).Contents (Elt F)) : (⟨S100000x4x32, .f32⟩ : BufTy).Contents (Elt F) :=
  (broadcastInDim S100000x4x32 ![0, 1, 2] bcast_S1x4x32_S100000x4x32_0_1_2 : (⟨S1x4x32, .f32⟩ : BufTy).Contents (Elt F) → (⟨S100000x4x32, .f32⟩ : BufTy).Contents (Elt F)) a4
def val_main_v6 (x : (⟨S100000x128, .f32⟩ : BufTy).Contents (Elt F)) (w : (⟨S128x128, .f32⟩ : BufTy).Contents (Elt F)) (a4 : (⟨S1x4x32, .f32⟩ : BufTy).Contents (Elt F)) : (⟨S100000x4x32, .f32⟩ : BufTy).Contents (Elt F) :=
  (mulf : (⟨S100000x4x32, .f32⟩ : BufTy).Contents (Elt F) → (⟨S100000x4x32, .f32⟩ : BufTy).Contents (Elt F) → (⟨S100000x4x32, .f32⟩ : BufTy).Contents (Elt F)) (val_main_v1 (F := F) x w) (val_main_v5 (F := F) a4)
def val_main_cst_0 : (⟨S_, .f32⟩ : BufTy).Contents (Elt F) :=
  ((constant S_ .f32 0x00000000#32) : (⟨S_, .f32⟩ : BufTy).Contents (Elt F))
def val_main_v7 (x : (⟨S100000x128, .f32⟩ : BufTy).Contents (Elt F)) (w : (⟨S128x128, .f32⟩ : BufTy).Contents (Elt F)) (a4 : (⟨S1x4x32, .f32⟩ : BufTy).Contents (Elt F)) : (⟨S100000x4, .f32⟩ : BufTy).Contents (Elt F) :=
  ((fun x v => Host.reduceAdd x v reducesTo_S100000x4x32_S100000x4_d2 h_S_) : (⟨S100000x4x32, .f32⟩ : BufTy).Contents (Elt F) → (⟨S_, .f32⟩ : BufTy).Contents (Elt F) → (⟨S100000x4, .f32⟩ : BufTy).Contents (Elt F)) (val_main_v6 (F := F) x w a4) (val_main_cst_0 (F := F))
def val_main_v8 (adj : (⟨S2x1600000, .i32⟩ : BufTy).Contents (Elt F)) : (⟨S1x1600000, .i32⟩ : BufTy).Contents (Elt F) :=
  ((extractStridedSlice S1x1600000 ![0, 0] · slices_S2x1600000_S1x1600000_0_0) : (⟨S2x1600000, .i32⟩ : BufTy).Contents (Elt F) → (⟨S1x1600000, .i32⟩ : BufTy).Contents (Elt F)) adj
def val_main_v9 (adj : (⟨S2x1600000, .i32⟩ : BufTy).Contents (Elt F)) : (⟨S1600000, .i32⟩ : BufTy).Contents (Elt F) :=
  ((fun v => shapeCast S1600000 v shapeCasts_S1x1600000_S1600000) : (⟨S1x1600000, .i32⟩ : BufTy).Contents (Elt F) → (⟨S1600000, .i32⟩ : BufTy).Contents (Elt F)) (val_main_v8 (F := F) adj)
def val_main_v10 (adj : (⟨S2x1600000, .i32⟩ : BufTy).Contents (Elt F)) : (⟨S1x1600000, .i32⟩ : BufTy).Contents (Elt F) :=
  ((extractStridedSlice S1x1600000 ![1, 0] · slices_S2x1600000_S1x1600000_1_0) : (⟨S2x1600000, .i32⟩ : BufTy).Contents (Elt F) → (⟨S1x1600000, .i32⟩ : BufTy).Contents (Elt F)) adj
def val_main_v11 (adj : (⟨S2x1600000, .i32⟩ : BufTy).Contents (Elt F)) : (⟨S1600000, .i32⟩ : BufTy).Contents (Elt F) :=
  ((fun v => shapeCast S1600000 v shapeCasts_S1x1600000_S1600000) : (⟨S1x1600000, .i32⟩ : BufTy).Contents (Elt F) → (⟨S1600000, .i32⟩ : BufTy).Contents (Elt F)) (val_main_v10 (F := F) adj)

/-! ## The attention weights: over the two score arrays and the two index rows -/

def val_main_c : (⟨S_, .i32⟩ : BufTy).Contents (Elt F) :=
  ((constantI S_ 32 0#32) : (⟨S_, .i32⟩ : BufTy).Contents (Elt F))
def val_main_v12 : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (val_main_c (F := F))
def val_main_v13 (src : (⟨S1600000, .i32⟩ : BufTy).Contents (Elt F)) : (⟨S1600000, .i1⟩ : BufTy).Contents (Elt F) :=
  (cmpi .slt : (⟨S1600000, .i32⟩ : BufTy).Contents (Elt F) → (⟨S1600000, .i32⟩ : BufTy).Contents (Elt F) → (⟨S1600000, .i1⟩ : BufTy).Contents (Elt F)) src (val_main_v12 (F := F))
def val_main_c_1 : (⟨S_, .i32⟩ : BufTy).Contents (Elt F) :=
  ((constantI S_ 32 100000#32) : (⟨S_, .i32⟩ : BufTy).Contents (Elt F))
def val_main_v14 : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (val_main_c_1 (F := F))
def val_main_v15 (src : (⟨S1600000, .i32⟩ : BufTy).Contents (Elt F)) : (⟨S1600000, .i32⟩ : BufTy).Contents (Elt F) :=
  (addi : (⟨S1600000, .i32⟩ : BufTy).Contents (Elt F) → (⟨S1600000, .i32⟩ : BufTy).Contents (Elt F) → (⟨S1600000, .i32⟩ : BufTy).Contents (Elt F)) src (val_main_v14 (F := F))
def val_main_v16 (src : (⟨S1600000, .i32⟩ : BufTy).Contents (Elt F)) : (⟨S1600000, .i32⟩ : BufTy).Contents (Elt F) :=
  (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (val_main_v13 (F := F) src) (val_main_v15 (F := F) src) src
def val_main_v17 (src : (⟨S1600000, .i32⟩ : BufTy).Contents (Elt F)) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (val_main_v16 (F := F) src)
def val_main_v18 (ss : (⟨S100000x4, .f32⟩ : BufTy).Contents (Elt F)) (src : (⟨S1600000, .i32⟩ : BufTy).Contents (Elt F)) : (⟨S1600000x4, .f32⟩ : BufTy).Contents (Elt F) :=
  ((fun x i => Host.gather gather_S100000x4_S1600000x1_S1600000x4_1_0_n_n_0_1_14 x i) : (⟨S100000x4, .f32⟩ : BufTy).Contents (Elt F) → (⟨S1600000x1, .i32⟩ : BufTy).Contents (Elt F) → (⟨S1600000x4, .f32⟩ : BufTy).Contents (Elt F)) ss (val_main_v17 (F := F) src)
def val_main_c_2 : (⟨S_, .i32⟩ : BufTy).Contents (Elt F) :=
  ((constantI S_ 32 0#32) : (⟨S_, .i32⟩ : BufTy).Contents (Elt F))
def val_main_v19 : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (val_main_c_2 (F := F))
def val_main_v20 (dst : (⟨S1600000, .i32⟩ : BufTy).Contents (Elt F)) : (⟨S1600000, .i1⟩ : BufTy).Contents (Elt F) :=
  (cmpi .slt : (⟨S1600000, .i32⟩ : BufTy).Contents (Elt F) → (⟨S1600000, .i32⟩ : BufTy).Contents (Elt F) → (⟨S1600000, .i1⟩ : BufTy).Contents (Elt F)) dst (val_main_v19 (F := F))
def val_main_c_3 : (⟨S_, .i32⟩ : BufTy).Contents (Elt F) :=
  ((constantI S_ 32 100000#32) : (⟨S_, .i32⟩ : BufTy).Contents (Elt F))
def val_main_v21 : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (val_main_c_3 (F := F))
def val_main_v22 (dst : (⟨S1600000, .i32⟩ : BufTy).Contents (Elt F)) : (⟨S1600000, .i32⟩ : BufTy).Contents (Elt F) :=
  (addi : (⟨S1600000, .i32⟩ : BufTy).Contents (Elt F) → (⟨S1600000, .i32⟩ : BufTy).Contents (Elt F) → (⟨S1600000, .i32⟩ : BufTy).Contents (Elt F)) dst (val_main_v21 (F := F))
def val_main_v23 (dst : (⟨S1600000, .i32⟩ : BufTy).Contents (Elt F)) : (⟨S1600000, .i32⟩ : BufTy).Contents (Elt F) :=
  (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (val_main_v20 (F := F) dst) (val_main_v22 (F := F) dst) dst
def val_main_v24 (dst : (⟨S1600000, .i32⟩ : BufTy).Contents (Elt F)) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (val_main_v23 (F := F) dst)
def val_main_v25 (sd : (⟨S100000x4, .f32⟩ : BufTy).Contents (Elt F)) (dst : (⟨S1600000, .i32⟩ : BufTy).Contents (Elt F)) : (⟨S1600000x4, .f32⟩ : BufTy).Contents (Elt F) :=
  ((fun x i => Host.gather gather_S100000x4_S1600000x1_S1600000x4_1_0_n_n_0_1_14 x i) : (⟨S100000x4, .f32⟩ : BufTy).Contents (Elt F) → (⟨S1600000x1, .i32⟩ : BufTy).Contents (Elt F) → (⟨S1600000x4, .f32⟩ : BufTy).Contents (Elt F)) sd (val_main_v24 (F := F) dst)
def val_main_v26 (ss : (⟨S100000x4, .f32⟩ : BufTy).Contents (Elt F)) (sd : (⟨S100000x4, .f32⟩ : BufTy).Contents (Elt F)) (src : (⟨S1600000, .i32⟩ : BufTy).Contents (Elt F)) (dst : (⟨S1600000, .i32⟩ : BufTy).Contents (Elt F)) : (⟨S1600000x4, .f32⟩ : BufTy).Contents (Elt F) :=
  (addf : (⟨S1600000x4, .f32⟩ : BufTy).Contents (Elt F) → (⟨S1600000x4, .f32⟩ : BufTy).Contents (Elt F) → (⟨S1600000x4, .f32⟩ : BufTy).Contents (Elt F)) (val_main_v18 (F := F) ss src) (val_main_v25 (F := F) sd dst)
def val_main_cst_4 : (⟨S_, .f32⟩ : BufTy).Contents (Elt F) :=
  ((constant S_ .f32 0x3E4CCCCD#32) : (⟨S_, .f32⟩ : BufTy).Contents (Elt F))
def val_main_call0_cst : (⟨S_, .f32⟩ : BufTy).Contents (Elt F) :=
  ((constant S_ .f32 0x00000000#32) : (⟨S_, .f32⟩ : BufTy).Contents (Elt F))
def val_main_call0_v0 : (⟨S1600000x4, .f32⟩ : BufTy).Contents (Elt F) :=
  ((broadcastInDim S1600000x4 ![] bcast_S_S1600000x4) : (⟨S_, .f32⟩ : BufTy).Contents (Elt F) → (⟨S1600000x4, .f32⟩ : BufTy).Contents (Elt F)) (val_main_call0_cst (F := F))
def val_main_call0_v1 (ss : (⟨S100000x4, .f32⟩ : BufTy).Contents (Elt F)) (sd : (⟨S100000x4, .f32⟩ : BufTy).Contents (Elt F)) (src : (⟨S1600000, .i32⟩ : BufTy).Contents (Elt F)) (dst : (⟨S1600000, .i32⟩ : BufTy).Contents (Elt F)) : (⟨S1600000x4, .i1⟩ : BufTy).Contents (Elt F) :=
  ((cmpf .oge) : (⟨S1600000x4, .f32⟩ : BufTy).Contents (Elt F) → (⟨S1600000x4, .f32⟩ : BufTy).Contents (Elt F) → (⟨S1600000x4, .i1⟩ : BufTy).Contents (Elt F)) (val_main_v26 (F := F) ss sd src dst) (val_main_call0_v0 (F := F))
def val_main_call0_v2 : (⟨S_, .f32⟩ : BufTy).Contents (Elt F) :=
  (id : (⟨S_, .f32⟩ : BufTy).Contents (Elt F) → (⟨S_, .f32⟩ : BufTy).Contents (Elt F)) (val_main_cst_4 (F := F))
def val_main_call0_v3 : (⟨S1600000x4, .f32⟩ : BufTy).Contents (Elt F) :=
  ((broadcastInDim S1600000x4 ![] bcast_S_S1600000x4) : (⟨S_, .f32⟩ : BufTy).Contents (Elt F) → (⟨S1600000x4, .f32⟩ : BufTy).Contents (Elt F)) (val_main_call0_v2 (F := F))
def val_main_call0_v4 (ss : (⟨S100000x4, .f32⟩ : BufTy).Contents (Elt F)) (sd : (⟨S100000x4, .f32⟩ : BufTy).Contents (Elt F)) (src : (⟨S1600000, .i32⟩ : BufTy).Contents (Elt F)) (dst : (⟨S1600000, .i32⟩ : BufTy).Contents (Elt F)) : (⟨S1600000x4, .f32⟩ : BufTy).Contents (Elt F) :=
  (mulf : (⟨S1600000x4, .f32⟩ : BufTy).Contents (Elt F) → (⟨S1600000x4, .f32⟩ : BufTy).Contents (Elt F) → (⟨S1600000x4, .f32⟩ : BufTy).Contents (Elt F)) (val_main_call0_v3 (F := F)) (val_main_v26 (F := F) ss sd src dst)
def val_main_v27 (ss : (⟨S100000x4, .f32⟩ : BufTy).Contents (Elt F)) (sd : (⟨S100000x4, .f32⟩ : BufTy).Contents (Elt F)) (src : (⟨S1600000, .i32⟩ : BufTy).Contents (Elt F)) (dst : (⟨S1600000, .i32⟩ : BufTy).Contents (Elt F)) : (⟨S1600000x4, .f32⟩ : BufTy).Contents (Elt F) :=
  (select : (⟨S1600000x4, .i1⟩ : BufTy).Contents (Elt F) → (⟨S1600000x4, .f32⟩ : BufTy).Contents (Elt F) → (⟨S1600000x4, .f32⟩ : BufTy).Contents (Elt F) → (⟨S1600000x4, .f32⟩ : BufTy).Contents (Elt F)) (val_main_call0_v1 (F := F) ss sd src dst) (val_main_v26 (F := F) ss sd src dst) (val_main_call0_v4 (F := F) ss sd src dst)
def val_main_cst_5 : (⟨S_, .f32⟩ : BufTy).Contents (Elt F) :=
  ((constant S_ .f32 0xFF800000#32) : (⟨S_, .f32⟩ : BufTy).Contents (Elt F))
def val_main_v28 (ss : (⟨S100000x4, .f32⟩ : BufTy).Contents (Elt F)) (sd : (⟨S100000x4, .f32⟩ : BufTy).Contents (Elt F)) (src : (⟨S1600000, .i32⟩ : BufTy).Contents (Elt F)) (dst : (⟨S1600000, .i32⟩ : BufTy).Contents (Elt F)) : (⟨S_, .f32⟩ : BufTy).Contents (Elt F) :=
  ((fun x v => Host.reduce FloatOps.maximumf x v reducesTo_S1600000x4_S_d0_1 h_S_) : (⟨S1600000x4, .f32⟩ : BufTy).Contents (Elt F) → (⟨S_, .f32⟩ : BufTy).Contents (Elt F) → (⟨S_, .f32⟩ : BufTy).Contents (Elt F)) (val_main_v27 (F := F) ss sd src dst) (val_main_cst_5 (F := F))
def val_main_v29 (ss : (⟨S100000x4, .f32⟩ : BufTy).Contents (Elt F)) (sd : (⟨S100000x4, .f32⟩ : BufTy).Contents (Elt F)) (src : (⟨S1600000, .i32⟩ : BufTy).Contents (Elt F)) (dst : (⟨S1600000, .i32⟩ : BufTy).Contents (Elt F)) : (⟨S1600000x4, .f32⟩ : BufTy).Contents (Elt F) :=
  (broadcastInDim S1600000x4 ![] bcast_S_S1600000x4 : (⟨S_, .f32⟩ : BufTy).Contents (Elt F) → (⟨S1600000x4, .f32⟩ : BufTy).Contents (Elt F)) (val_main_v28 (F := F) ss sd src dst)
def val_main_v30 (ss : (⟨S100000x4, .f32⟩ : BufTy).Contents (Elt F)) (sd : (⟨S100000x4, .f32⟩ : BufTy).Contents (Elt F)) (src : (⟨S1600000, .i32⟩ : BufTy).Contents (Elt F)) (dst : (⟨S1600000, .i32⟩ : BufTy).Contents (Elt F)) : (⟨S1600000x4, .f32⟩ : BufTy).Contents (Elt F) :=
  (subf : (⟨S1600000x4, .f32⟩ : BufTy).Contents (Elt F) → (⟨S1600000x4, .f32⟩ : BufTy).Contents (Elt F) → (⟨S1600000x4, .f32⟩ : BufTy).Contents (Elt F)) (val_main_v27 (F := F) ss sd src dst) (val_main_v29 (F := F) ss sd src dst)
def val_main_v31 (ss : (⟨S100000x4, .f32⟩ : BufTy).Contents (Elt F)) (sd : (⟨S100000x4, .f32⟩ : BufTy).Contents (Elt F)) (src : (⟨S1600000, .i32⟩ : BufTy).Contents (Elt F)) (dst : (⟨S1600000, .i32⟩ : BufTy).Contents (Elt F)) : (⟨S1600000x4, .f32⟩ : BufTy).Contents (Elt F) :=
  (Host.exp : (⟨S1600000x4, .f32⟩ : BufTy).Contents (Elt F) → (⟨S1600000x4, .f32⟩ : BufTy).Contents (Elt F)) (val_main_v30 (F := F) ss sd src dst)
def val_main_cst_6 : (⟨S_, .f32⟩ : BufTy).Contents (Elt F) :=
  ((constant S_ .f32 0x00000000#32) : (⟨S_, .f32⟩ : BufTy).Contents (Elt F))
def val_main_v32 : (⟨S100000x4, .f32⟩ : BufTy).Contents (Elt F) :=
  (broadcastInDim S100000x4 ![] bcast_S_S100000x4 : (⟨S_, .f32⟩ : BufTy).Contents (Elt F) → (⟨S100000x4, .f32⟩ : BufTy).Contents (Elt F)) (val_main_cst_6 (F := F))
def val_main_v33 (dst : (⟨S1600000, .i32⟩ : BufTy).Contents (Elt F)) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) dst
def val_main_v34 (ss : (⟨S100000x4, .f32⟩ : BufTy).Contents (Elt F)) (sd : (⟨S100000x4, .f32⟩ : BufTy).Contents (Elt F)) (src : (⟨S1600000, .i32⟩ : BufTy).Contents (Elt F)) (dst : (⟨S1600000, .i32⟩ : BufTy).Contents (Elt F)) : (⟨S100000x4, .f32⟩ : BufTy).Contents (Elt F) :=
  ((fun x i u => Host.scatterAdd scatter_S100000x4_S1600000x1_S1600000x4_1_0_0_1 x i u) : (⟨S100000x4, .f32⟩ : BufTy).Contents (Elt F) → (⟨S1600000x1, .i32⟩ : BufTy).Contents (Elt F) → (⟨S1600000x4, .f32⟩ : BufTy).Contents (Elt F) → (⟨S100000x4, .f32⟩ : BufTy).Contents (Elt F)) (val_main_v32 (F := F)) (val_main_v33 (F := F) dst) (val_main_v31 (F := F) ss sd src dst)
def val_main_c_7 : (⟨S_, .i32⟩ : BufTy).Contents (Elt F) :=
  ((constantI S_ 32 0#32) : (⟨S_, .i32⟩ : BufTy).Contents (Elt F))
def val_main_v35 : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (val_main_c_7 (F := F))
def val_main_v36 (dst : (⟨S1600000, .i32⟩ : BufTy).Contents (Elt F)) : (⟨S1600000, .i1⟩ : BufTy).Contents (Elt F) :=
  (cmpi .slt : (⟨S1600000, .i32⟩ : BufTy).Contents (Elt F) → (⟨S1600000, .i32⟩ : BufTy).Contents (Elt F) → (⟨S1600000, .i1⟩ : BufTy).Contents (Elt F)) dst (val_main_v35 (F := F))
def val_main_c_8 : (⟨S_, .i32⟩ : BufTy).Contents (Elt F) :=
  ((constantI S_ 32 100000#32) : (⟨S_, .i32⟩ : BufTy).Contents (Elt F))
def val_main_v37 : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (val_main_c_8 (F := F))
def val_main_v38 (dst : (⟨S1600000, .i32⟩ : BufTy).Contents (Elt F)) : (⟨S1600000, .i32⟩ : BufTy).Contents (Elt F) :=
  (addi : (⟨S1600000, .i32⟩ : BufTy).Contents (Elt F) → (⟨S1600000, .i32⟩ : BufTy).Contents (Elt F) → (⟨S1600000, .i32⟩ : BufTy).Contents (Elt F)) dst (val_main_v37 (F := F))
def val_main_v39 (dst : (⟨S1600000, .i32⟩ : BufTy).Contents (Elt F)) : (⟨S1600000, .i32⟩ : BufTy).Contents (Elt F) :=
  (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (val_main_v36 (F := F) dst) (val_main_v38 (F := F) dst) dst
def val_main_v40 (dst : (⟨S1600000, .i32⟩ : BufTy).Contents (Elt F)) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (val_main_v39 (F := F) dst)
def val_main_v41 (ss : (⟨S100000x4, .f32⟩ : BufTy).Contents (Elt F)) (sd : (⟨S100000x4, .f32⟩ : BufTy).Contents (Elt F)) (src : (⟨S1600000, .i32⟩ : BufTy).Contents (Elt F)) (dst : (⟨S1600000, .i32⟩ : BufTy).Contents (Elt F)) : (⟨S1600000x4, .f32⟩ : BufTy).Contents (Elt F) :=
  ((fun x i => Host.gather gather_S100000x4_S1600000x1_S1600000x4_1_0_n_n_0_1_14 x i) : (⟨S100000x4, .f32⟩ : BufTy).Contents (Elt F) → (⟨S1600000x1, .i32⟩ : BufTy).Contents (Elt F) → (⟨S1600000x4, .f32⟩ : BufTy).Contents (Elt F)) (val_main_v34 (F := F) ss sd src dst) (val_main_v40 (F := F) dst)
def val_main_cst_9 : (⟨S_, .f32⟩ : BufTy).Contents (Elt F) :=
  ((constant S_ .f32 0x24E69595#32) : (⟨S_, .f32⟩ : BufTy).Contents (Elt F))
def val_main_v42 : (⟨S1600000x4, .f32⟩ : BufTy).Contents (Elt F) :=
  (broadcastInDim S1600000x4 ![] bcast_S_S1600000x4 : (⟨S_, .f32⟩ : BufTy).Contents (Elt F) → (⟨S1600000x4, .f32⟩ : BufTy).Contents (Elt F)) (val_main_cst_9 (F := F))
def val_main_v43 (ss : (⟨S100000x4, .f32⟩ : BufTy).Contents (Elt F)) (sd : (⟨S100000x4, .f32⟩ : BufTy).Contents (Elt F)) (src : (⟨S1600000, .i32⟩ : BufTy).Contents (Elt F)) (dst : (⟨S1600000, .i32⟩ : BufTy).Contents (Elt F)) : (⟨S1600000x4, .f32⟩ : BufTy).Contents (Elt F) :=
  (addf : (⟨S1600000x4, .f32⟩ : BufTy).Contents (Elt F) → (⟨S1600000x4, .f32⟩ : BufTy).Contents (Elt F) → (⟨S1600000x4, .f32⟩ : BufTy).Contents (Elt F)) (val_main_v41 (F := F) ss sd src dst) (val_main_v42 (F := F))
def val_main_v44 (ss : (⟨S100000x4, .f32⟩ : BufTy).Contents (Elt F)) (sd : (⟨S100000x4, .f32⟩ : BufTy).Contents (Elt F)) (src : (⟨S1600000, .i32⟩ : BufTy).Contents (Elt F)) (dst : (⟨S1600000, .i32⟩ : BufTy).Contents (Elt F)) : (⟨S1600000x4, .f32⟩ : BufTy).Contents (Elt F) :=
  (Host.divf : (⟨S1600000x4, .f32⟩ : BufTy).Contents (Elt F) → (⟨S1600000x4, .f32⟩ : BufTy).Contents (Elt F) → (⟨S1600000x4, .f32⟩ : BufTy).Contents (Elt F)) (val_main_v31 (F := F) ss sd src dst) (val_main_v43 (F := F) ss sd src dst)

/-! ## The aggregation: over the attention weights, the two index rows and the projection by heads -/

def val_main_c_10 : (⟨S_, .i32⟩ : BufTy).Contents (Elt F) :=
  ((constantI S_ 32 0#32) : (⟨S_, .i32⟩ : BufTy).Contents (Elt F))
def val_main_v45 : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (val_main_c_10 (F := F))
def val_main_v46 (src : (⟨S1600000, .i32⟩ : BufTy).Contents (Elt F)) : (⟨S1600000, .i1⟩ : BufTy).Contents (Elt F) :=
  (cmpi .slt : (⟨S1600000, .i32⟩ : BufTy).Contents (Elt F) → (⟨S1600000, .i32⟩ : BufTy).Contents (Elt F) → (⟨S1600000, .i1⟩ : BufTy).Contents (Elt F)) src (val_main_v45 (F := F))
def val_main_c_11 : (⟨S_, .i32⟩ : BufTy).Contents (Elt F) :=
  ((constantI S_ 32 100000#32) : (⟨S_, .i32⟩ : BufTy).Contents (Elt F))
def val_main_v47 : (⟨S1600000, .i32⟩ : BufTy).Contents (Elt F) :=
  (broadcastInDim S1600000 ![] bcast_S_S1600000 : (⟨S_, .i32⟩ : BufTy).Contents (Elt F) → (⟨S1600000, .i32⟩ : BufTy).Contents (Elt F)) (val_main_c_11 (F := F))
def val_main_v48 (src : (⟨S1600000, .i32⟩ : BufTy).Contents (Elt F)) : (⟨S1600000, .i32⟩ : BufTy).Contents (Elt F) :=
  (addi : (⟨S1600000, .i32⟩ : BufTy).Contents (Elt F) → (⟨S1600000, .i32⟩ : BufTy).Contents (Elt F) → (⟨S1600000, .i32⟩ : BufTy).Contents (Elt F)) src (val_main_v47 (F := F))
def val_main_v49 (src : (⟨S1600000, .i32⟩ : BufTy).Contents (Elt F)) : (⟨S1600000, .i32⟩ : BufTy).Contents (Elt F) :=
  (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) (val_main_v46 (F := F) src) (val_main_v48 (F := F) src) src
def val_main_v50 (src : (⟨S1600000, .i32⟩ : BufTy).Contents (Elt F)) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) (val_main_v49 (F := F) src)
def val_main_v51 (src : (⟨S1600000, .i32⟩ : BufTy).Contents (Elt F)) (p3 : (⟨S100000x4x32, .f32⟩ : BufTy).Contents (Elt F)) : (⟨S1600000x4x32, .f32⟩ : BufTy).Contents (Elt F) :=
  ((fun x i => Host.gather gather_S100000x4x32_S1600000x1_S1600000x4x32_12_0_n_n_0_1_1432 x i) : (⟨S100000x4x32, .f32⟩ : BufTy).Contents (Elt F) → (⟨S1600000x1, .i32⟩ : BufTy).Contents (Elt F) → (⟨S1600000x4x32, .f32⟩ : BufTy).Contents (Elt F)) p3 (val_main_v50 (F := F) src)
def val_main_v52 (al : (⟨S1600000x4, .f32⟩ : BufTy).Contents (Elt F)) : (⟨S1600000x4x1, .f32⟩ : BufTy).Contents (Elt F) :=
  (broadcastInDim S1600000x4x1 ![0, 1] bcast_S1600000x4_S1600000x4x1_0_1 : (⟨S1600000x4, .f32⟩ : BufTy).Contents (Elt F) → (⟨S1600000x4x1, .f32⟩ : BufTy).Contents (Elt F)) al
def val_main_v53 (al : (⟨S1600000x4, .f32⟩ : BufTy).Contents (Elt F)) : (⟨S1600000x4x32, .f32⟩ : BufTy).Contents (Elt F) :=
  (broadcastInDim S1600000x4x32 ![0, 1, 2] bcast_S1600000x4x1_S1600000x4x32_0_1_2 : (⟨S1600000x4x1, .f32⟩ : BufTy).Contents (Elt F) → (⟨S1600000x4x32, .f32⟩ : BufTy).Contents (Elt F)) (val_main_v52 (F := F) al)
def val_main_v54 (al : (⟨S1600000x4, .f32⟩ : BufTy).Contents (Elt F)) (src : (⟨S1600000, .i32⟩ : BufTy).Contents (Elt F)) (p3 : (⟨S100000x4x32, .f32⟩ : BufTy).Contents (Elt F)) : (⟨S1600000x4x32, .f32⟩ : BufTy).Contents (Elt F) :=
  (mulf : (⟨S1600000x4x32, .f32⟩ : BufTy).Contents (Elt F) → (⟨S1600000x4x32, .f32⟩ : BufTy).Contents (Elt F) → (⟨S1600000x4x32, .f32⟩ : BufTy).Contents (Elt F)) (val_main_v51 (F := F) src p3) (val_main_v53 (F := F) al)
def val_main_cst_12 : (⟨S_, .f32⟩ : BufTy).Contents (Elt F) :=
  ((constant S_ .f32 0x00000000#32) : (⟨S_, .f32⟩ : BufTy).Contents (Elt F))
def val_main_v55 : (⟨S100000x4x32, .f32⟩ : BufTy).Contents (Elt F) :=
  (broadcastInDim S100000x4x32 ![] bcast_S_S100000x4x32 : (⟨S_, .f32⟩ : BufTy).Contents (Elt F) → (⟨S100000x4x32, .f32⟩ : BufTy).Contents (Elt F)) (val_main_cst_12 (F := F))
def val_main_v56 (dst : (⟨S1600000, .i32⟩ : BufTy).Contents (Elt F)) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F)) dst
def val_main_v57 (al : (⟨S1600000x4, .f32⟩ : BufTy).Contents (Elt F)) (src : (⟨S1600000, .i32⟩ : BufTy).Contents (Elt F)) (dst : (⟨S1600000, .i32⟩ : BufTy).Contents (Elt F)) (p3 : (⟨S100000x4x32, .f32⟩ : BufTy).Contents (Elt F)) : (⟨S100000x4x32, .f32⟩ : BufTy).Contents (Elt F) :=
  ((fun x i u => Host.scatterAdd scatter_S100000x4x32_S1600000x1_S1600000x4x32_12_0_0_1 x i u) : (⟨S100000x4x32, .f32⟩ : BufTy).Contents (Elt F) → (⟨S1600000x1, .i32⟩ : BufTy).Contents (Elt F) → (⟨S1600000x4x32, .f32⟩ : BufTy).Contents (Elt F) → (⟨S100000x4x32, .f32⟩ : BufTy).Contents (Elt F)) (val_main_v55 (F := F)) (val_main_v56 (F := F) dst) (val_main_v54 (F := F) al src p3)
def val_main_v58 (al : (⟨S1600000x4, .f32⟩ : BufTy).Contents (Elt F)) (src : (⟨S1600000, .i32⟩ : BufTy).Contents (Elt F)) (dst : (⟨S1600000, .i32⟩ : BufTy).Contents (Elt F)) (p3 : (⟨S100000x4x32, .f32⟩ : BufTy).Contents (Elt F)) : (⟨S100000x128, .f32⟩ : BufTy).Contents (Elt F) :=
  ((fun v => shapeCast S100000x128 v shapeCasts_S100000x4x32_S100000x128) : (⟨S100000x4x32, .f32⟩ : BufTy).Contents (Elt F) → (⟨S100000x128, .f32⟩ : BufTy).Contents (Elt F)) (val_main_v57 (F := F) al src dst p3)

end Cert.ReferenceIdeal.RV

end
-- ==== Proof.Consts.lean ====
/-
  The two 0/1 matrices the kernel program builds on the host, read at an entry.

  Both start from the column numbers 0…127 divided by 32 with jnp's floor division (a truncating quotient corrected
  by one where the signs differ and the remainder is not zero; for non-negative numbers it is the plain quotient
  k / 32). The 128 × 8 matrix compares that head number with 0…3, widens the bit to a float, multiplies by the
  attention vector flattened to 128 entries (entry 32h + f is feature f of head h) and puts the two vectors' halves
  side by side: entry (k, j) is the first vector's entry k when j < 4 and k / 32 = j, the second vector's when
  j ≥ 4 and k / 32 = j − 4, and 0 otherwise. The 4 × 128 matrix has 1 at (h, c) exactly when c / 32 = h.
-/
import proofs.«132320_j74148315398470_1_alg».proof.Proof.KVals
import proofs.«132320_j74148315398470_1_alg».proof.Proof.Spec
import Idealize.ShloMosaic.Lib.ValueIdx
import Idealize.ShloMosaic.Lib.ValueLayout
import Idealize.ShloMosaic.Lib.Pipeline.Value

noncomputable section

open scoped BigOperators
open Idealize.ShloMosaic Idealize.ShloMosaic.TcCoe Idealize.SL.Sem Idealize.ShloMosaic.ValueIdx

namespace Cert.KernelIdeal.Consts

open Cert.KernelIdeal Cert.KernelIdeal.Gen

/-- The sign of a 32-bit word: 0, -1 or 1. -/
def sgnW (x : BitVec 32) : BitVec 32 := if x = 0 then 0 else if x.msb then -1 else 1

/-- Division by 32 rounded toward minus infinity, as spelt from the truncating quotient: one less than the quotient when the signs
    differ and the remainder is not zero, else the quotient. -/
def fdivW (x : BitVec 32) : BitVec 32 :=
  Scalar.select
    (IntOp.andi (IntOp.cmpi .ne (sgnW x) (sgnW 32#32)) (IntOp.cmpi .ne (IntOp.remsi .host x 32#32) 0#32))
    (IntOp.subi (IntOp.divsi .host x 32#32) 1#32) (IntOp.divsi .host x 32#32)

/-- On a word below 128 the signs agree, so it is the quotient: k / 32. -/
theorem fdivW_ofNat : ∀ k : Fin 128, fdivW (BitVec.ofNat 32 k.val) = BitVec.ofNat 32 (k.val / 32) := by
  decide

/-- The head of each of the 128 columns, as a word: position k holds k / 32. -/
theorem floordiv (k : Fin 128) : KV.val_main_v7 (F := Ideal) (ix1 k) = BitVec.ofNat 32 (k.val / 32) :=
  fdivW_ofNat k

/-- The same over the one row of 128 columns. -/
theorem floordiv' (c : Fin 128) : KV.val_main_v70 (F := Ideal) (ix2 (0 : Fin 1) c) = BitVec.ofNat 32 (c.val / 32) :=
  fdivW_ofNat c

/-- Two small words compared for equality: the bit says whether the head of column k is h. -/
theorem cmpEqW : ∀ (k : Fin 128) (h : Fin 4),
    IntOp.cmpi .eq (BitVec.ofNat 32 (k.val / 32)) (BitVec.ofNat 32 h.val) = if k.val / 32 = h.val then 1#1 else 0#1 := by
  decide

/-- A bit read unsigned, as an extended real. -/
theorem bitReal (c : Prop) [Decidable c] :
    (((if c then 1#1 else 0#1 : BitVec 1).toNat : ℝ) : EReal) = if c then 1 else 0 := by
  by_cases hc : c
  · rw [if_pos hc, if_pos hc]; simp
  · rw [if_neg hc, if_neg hc]; simp

/-- The head mask at (k, h): the bit of k / 32 = h. -/
theorem mask_bit (k : Fin 128) (h : Fin 4) :
    KV.val_main_v13 (F := Ideal) (ix2 k h) = if k.val / 32 = h.val then 1#1 else 0#1 := by
  show IntOp.cmpi .eq (fdivW (BitVec.ofNat 32 k.val)) (BitVec.ofNat 32 h.val) = _
  rw [fdivW_ofNat k]
  exact cmpEqW k h

/-- The head mask as extended reals: 1 where k / 32 = h, else 0. -/
theorem mask_apply (k : Fin 128) (h : Fin 4) :
    KV.val_main_v14 (F := Ideal) (ix2 k h) = if k.val / 32 = h.val then (1 : EReal) else 0 := by
  show (((KV.val_main_v13 (F := Ideal) (ix2 k h)).toNat : ℝ) : EReal) = _
  rw [mask_bit k h]
  exact bitReal _

/-- The flattened attention vector at column k: the entry of head k / 32, feature k % 32. -/
theorem flat_apply (a : FVec Ideal S1x4x32 .f32) (k : Fin 128) :
    KV.val_main_v4 (F := Ideal) a (ix1 k) = a (ix3 (0 : Fin 1) (Cert.Gat.headOf k) (Cert.Gat.featOf k)) := by
  refine shapeCast_apply a shapeCasts_S1x4x32_S128 (ix1 k) (ix3 (0 : Fin 1) (Cert.Gat.headOf k) (Cert.Gat.featOf k)) ?_
  rw [Shape.rowMajor_val_three, Shape.rowMajor_val_one]
  show ((0 : Nat) * 4 + k.val / 32) * 32 + k.val % 32 = k.val
  omega

/-- A vector laid along the rows of a 128 × 4 rectangle reads the vector at the row. -/
theorem rows_apply (v : FVec Ideal S128 .f32) (k : Fin 128) (h : Fin 4) :
    broadcastInDim S128x4 ![0, 1] bcast_S128x1_S128x4_0_1 (broadcastInDim S128x1 ![0] bcast_S128_S128x1_0 v) (ix2 k h)
      = v (ix1 k) := by
  refine (broadcastInDim_apply ![0, 1] bcast_S128x1_S128x4_0_1 _ (ix2 k h) (ix2 k (0 : Fin 1)) ?_).trans ?_
  · intro a
    match a with
    | ⟨0, _⟩ => rfl
    | ⟨1, _⟩ => rfl
  · refine broadcastInDim_apply ![0] bcast_S128_S128x1_0 v (ix2 k (0 : Fin 1)) (ix1 k) ?_
    intro a
    match a with
    | ⟨0, _⟩ => rfl

/-- The masked first vector at (k, h): its entry at head k / 32, feature k % 32 where that head is h, else 0 (1 · x = x, 0 · x = 0). -/
theorem att_left (a3 : FVec Ideal S1x4x32 .f32) (k : Fin 128) (h : Fin 4) :
    KV.val_main_v17 (F := Ideal) a3 (ix2 k h)
      = if k.val / 32 = h.val then a3 (ix3 (0 : Fin 1) (Cert.Gat.headOf k) (Cert.Gat.featOf k)) else 0 := by
  show KV.val_main_v14 (F := Ideal) (ix2 k h) * KV.val_main_v16 (F := Ideal) a3 (ix2 k h) = _
  rw [mask_apply k h]
  have e : KV.val_main_v16 (F := Ideal) a3 (ix2 k h) = a3 (ix3 (0 : Fin 1) (Cert.Gat.headOf k) (Cert.Gat.featOf k)) :=
    (rows_apply (KV.val_main_v4 (F := Ideal) a3) k h).trans (flat_apply a3 k)
  rw [e]
  by_cases hc : k.val / 32 = h.val
  · rw [if_pos hc, if_pos hc]; exact one_mul _
  · rw [if_neg hc, if_neg hc]; exact zero_mul _

/-- Likewise the masked second vector. -/
theorem att_right (a4 : FVec Ideal S1x4x32 .f32) (k : Fin 128) (h : Fin 4) :
    KV.val_main_v20 (F := Ideal) a4 (ix2 k h)
      = if k.val / 32 = h.val then a4 (ix3 (0 : Fin 1) (Cert.Gat.headOf k) (Cert.Gat.featOf k)) else 0 := by
  show KV.val_main_v14 (F := Ideal) (ix2 k h) * KV.val_main_v19 (F := Ideal) a4 (ix2 k h) = _
  rw [mask_apply k h]
  have e : KV.val_main_v19 (F := Ideal) a4 (ix2 k h) = a4 (ix3 (0 : Fin 1) (Cert.Gat.headOf k) (Cert.Gat.featOf k)) :=
    (rows_apply (KV.val_main_v5 (F := Ideal) a4) k h).trans (flat_apply a4 k)
  rw [e]
  by_cases hc : k.val / 32 = h.val
  · rw [if_pos hc, if_pos hc]; exact one_mul _
  · rw [if_neg hc, if_neg hc]; exact zero_mul _

theorem att_apply (a3 a4 : FVec Ideal S1x4x32 .f32) (k : Fin 128) (j : Fin 8) :
    KV.val_main_v22 (F := Ideal) a3 a4 (ix2 k j)
      = if j.val < 4 then (if k.val / 32 = j.val then a3 (ix3 (0 : Fin 1) (Cert.Gat.headOf k) (Cert.Gat.featOf k)) else 0)
        else (if k.val / 32 = j.val - 4 then a4 (ix3 (0 : Fin 1) (Cert.Gat.headOf k) (Cert.Gat.featOf k)) else 0) := by
  show concatenate S128x8 1 [⟨S128x4, KV.val_main_v17 (F := Ideal) a3⟩, ⟨S128x4, KV.val_main_v20 (F := Ideal) a4⟩]
      concatenates_S128x4_S128x4_S128x8_d1 (ix2 k j) = _
  by_cases hj : j.val < 4
  · rw [if_pos hj]
    refine (concatenate_pair_apply_left (t := S128x8) (s₁ := S128x4) (s₂ := S128x4) (1 : Fin 2)
      (KV.val_main_v17 (F := Ideal) a3) (KV.val_main_v20 (F := Ideal) a4) concatenates_S128x4_S128x4_S128x8_d1 (ix2 k j) rfl
      (ix2 k (⟨j.val, hj⟩ : Fin 4)) ?_).trans (att_left a3 k ⟨j.val, hj⟩)
    intro b
    match b with
    | ⟨0, _⟩ => rfl
    | ⟨1, _⟩ => rfl
  · rw [if_neg hj]
    have hj' : j.val - 4 < 4 := by have := j.isLt; omega
    refine (concatenate_pair_apply_right (t := S128x8) (s₁ := S128x4) (s₂ := S128x4) (1 : Fin 2)
      (KV.val_main_v17 (F := Ideal) a3) (KV.val_main_v20 (F := Ideal) a4) concatenates_S128x4_S128x4_S128x8_d1 (ix2 k j) rfl rfl
      (ix2 k (⟨j.val - 4, hj'⟩ : Fin 4)) ?_ ?_).trans (att_right a4 k ⟨j.val - 4, hj'⟩)
    · intro b hb
      match b, hb with
      | ⟨0, _⟩, _ => rfl
      | ⟨1, _⟩, hb => exact absurd rfl hb
    · show j.val - 4 + 4 = j.val
      omega

theorem expand_apply (h : Fin 4) (c : Fin 128) :
    KV.val_main_v74 (F := Ideal) (ix2 h c) = if c.val / 32 = h.val then 1 else 0 := by
  show (((IntOp.cmpi .eq (fdivW (BitVec.ofNat 32 c.val)) (BitVec.ofNat 32 h.val)).toNat : ℝ) : EReal) = _
  rw [fdivW_ofNat c, cmpEqW c h]
  exact bitReal _

end Cert.KernelIdeal.Consts

end
-- ==== Proof.Score.lean ====
/-
  The score arrays and the head pick.

  A 128-wide row holds four heads of 32 features; column 32·h + f is feature f of head h. The reference reshapes the
  projected rows to node × head × feature, multiplies by an attention vector broadcast along the nodes and sums over
  the feature axis: the score of head h at node n is ∑ f, proj (n, 32h + f) · a (0, h, f). The kernel multiplies the
  projected rows by a 128 × 8 matrix whose column j holds head j of the first vector (j below 4) or head j − 4 of the
  second (j from 4) at that head's columns and zero elsewhere, and slices the product's columns 0…3 and 4…7. The two
  agree because a sum over the 128 columns whose terms vanish outside head h is the sum over that head's 32 features;
  zero times anything is zero over the extended reals, so nothing need be finite. The last statement picks, from the
  four weights of an edge, the one of the head a column belongs to: the 0/1 matrix's column c has its single one in
  row c / 32.
-/
import proofs.«132320_j74148315398470_1_alg».proof.Proof.KVals
import proofs.«132320_j74148315398470_1_alg».proof.Proof.RVals
import proofs.«132320_j74148315398470_1_alg».proof.Proof.Spec
import proofs.«132320_j74148315398470_1_alg».proof.Proof.Consts
import proofs.«132320_j74148315398470_1_alg».proof.Proof.LibDotPlain
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx

namespace Cert.Score

/-- Columns of a 128-wide row correspond one to one to pairs (head, feature): column 32·h + f. -/
def hfEquiv : Fin 4 × Fin 32 ≃ Fin 128 where
  toFun p := Cert.Gat.hf p.1 p.2
  invFun k := (Cert.Gat.headOf k, Cert.Gat.featOf k)
  left_inv p := Prod.ext (Cert.Gat.headOf_hf p.1 p.2) (Cert.Gat.featOf_hf p.1 p.2)
  right_inv k := Cert.Gat.hf_headOf_featOf k

/-- A sum over the 128 columns whose terms vanish outside head h is the sum over the 32 features of head h:
    the columns are renamed by (head, feature), the double sum keeps only the head h, and there every term is kept. -/
theorem sum_head (g : Fin 128 → EReal) (h : Fin 4) :
    ∑ k : Fin 128, (if k.val / 32 = h.val then g k else 0) = ∑ f : Fin 32, g (Cert.Gat.hf h f) := by
  rw [← Equiv.sum_comp hfEquiv, Fintype.sum_prod_type, Finset.sum_eq_single h]
  · refine Finset.sum_congr rfl fun f _ => ?_
    have hh : (hfEquiv (h, f)).val / 32 = h.val := by
      show (32 * h.val + f.val) / 32 = h.val
      have := f.isLt; omega
    rw [if_pos hh]; rfl
  · intro h' _ hne
    refine Finset.sum_eq_zero fun f _ => ?_
    have hh : ¬ (hfEquiv (h', f)).val / 32 = h.val := by
      show ¬ (32 * h'.val + f.val) / 32 = h.val
      have := f.isLt
      have : h'.val ≠ h.val := fun e => hne (Fin.ext e)
      omega
    rw [if_neg hh]
  · intro hh; exact absurd (Finset.mem_univ h) hh

theorem proj3_apply (x : FVec Ideal Cert.ReferenceIdeal.S100000x128 .f32) (w : FVec Ideal Cert.ReferenceIdeal.S128x128 .f32)
    (n : Fin 100000) (h : Fin 4) (f : Fin 32) :
    Cert.ReferenceIdeal.RV.val_main_v1 (F := Ideal) x w (ix3 n h f) = Cert.Gat.proj x w (ix2 n (Cert.Gat.hf h f)) := by
  unfold Cert.ReferenceIdeal.RV.val_main_v1
  refine (shapeCast_apply _ _ (ix3 n h f) (ix2 n (Cert.Gat.hf h f)) ?_).trans ?_
  · rw [Shape.rowMajor_val_two, Shape.rowMajor_val_three]
    show n.val * 128 + (32 * h.val + f.val) = (n.val * 4 + h.val) * 32 + f.val
    omega
  · unfold Cert.ReferenceIdeal.RV.val_main_v0
    exact Cert.LibDotPlain.dotGeneral_plain 100000 128 128 none .single x w n (Cert.Gat.hf h f)

/-- A sum of products against the attention matrix's column h (h below 4): that column holds head h of the
    first attention vector at the columns of head h and zero elsewhere. -/
theorem att_sum_src (g : Fin 128 → EReal) (a3 a4 : FVec Ideal Cert.ReferenceIdeal.S1x4x32 .f32) (h : Fin 4) :
    ∑ k : Fin 128, g k * Cert.KernelIdeal.KV.val_main_v22 (F := Ideal) a3 a4 (ix2 k (⟨h.val, by omega⟩ : Fin 8))
      = ∑ f : Fin 32, g (Cert.Gat.hf h f) * a3 (ix3 (0 : Fin 1) h f) := by
  have hterm : ∀ k : Fin 128,
      g k * Cert.KernelIdeal.KV.val_main_v22 (F := Ideal) a3 a4 (ix2 k (⟨h.val, by omega⟩ : Fin 8))
        = if k.val / 32 = h.val then g k * a3 (ix3 (0 : Fin 1) (Cert.Gat.headOf k) (Cert.Gat.featOf k)) else 0 := by
    intro k
    rw [Cert.KernelIdeal.Consts.att_apply]
    have hlt : (⟨h.val, by omega⟩ : Fin 8).val < 4 := h.isLt
    rw [if_pos hlt]
    show g k * (if k.val / 32 = h.val then _ else 0) = _
    by_cases hk : k.val / 32 = h.val
    · rw [if_pos hk, if_pos hk]
    · rw [if_neg hk, if_neg hk, mul_zero]
  rw [Finset.sum_congr rfl fun k _ => hterm k,
    sum_head (fun k => g k * a3 (ix3 (0 : Fin 1) (Cert.Gat.headOf k) (Cert.Gat.featOf k))) h]
  refine Finset.sum_congr rfl fun f _ => ?_
  show g (Cert.Gat.hf h f) * a3 (ix3 (0 : Fin 1) (Cert.Gat.headOf (Cert.Gat.hf h f)) (Cert.Gat.featOf (Cert.Gat.hf h f))) = _
  rw [Cert.Gat.headOf_hf, Cert.Gat.featOf_hf]

/-- The same against column 4 + h: head h of the second attention vector. -/
theorem att_sum_dst (g : Fin 128 → EReal) (a3 a4 : FVec Ideal Cert.ReferenceIdeal.S1x4x32 .f32) (h : Fin 4) :
    ∑ k : Fin 128, g k * Cert.KernelIdeal.KV.val_main_v22 (F := Ideal) a3 a4 (ix2 k (⟨4 + h.val, by omega⟩ : Fin 8))
      = ∑ f : Fin 32, g (Cert.Gat.hf h f) * a4 (ix3 (0 : Fin 1) h f) := by
  have hterm : ∀ k : Fin 128,
      g k * Cert.KernelIdeal.KV.val_main_v22 (F := Ideal) a3 a4 (ix2 k (⟨4 + h.val, by omega⟩ : Fin 8))
        = if k.val / 32 = h.val then g k * a4 (ix3 (0 : Fin 1) (Cert.Gat.headOf k) (Cert.Gat.featOf k)) else 0 := by
    intro k
    rw [Cert.KernelIdeal.Consts.att_apply]
    have hlt : ¬ (⟨4 + h.val, by omega⟩ : Fin 8).val < 4 := by show ¬ 4 + h.val < 4; omega
    rw [if_neg hlt]
    have hsub : (⟨4 + h.val, by omega⟩ : Fin 8).val - 4 = h.val := by show 4 + h.val - 4 = h.val; omega
    rw [hsub]
    by_cases hk : k.val / 32 = h.val
    · rw [if_pos hk, if_pos hk]
    · rw [if_neg hk, if_neg hk, mul_zero]
  rw [Finset.sum_congr rfl fun k _ => hterm k,
    sum_head (fun k => g k * a4 (ix3 (0 : Fin 1) (Cert.Gat.headOf k) (Cert.Gat.featOf k))) h]
  refine Finset.sum_congr rfl fun f _ => ?_
  show g (Cert.Gat.hf h f) * a4 (ix3 (0 : Fin 1) (Cert.Gat.headOf (Cert.Gat.hf h f)) (Cert.Gat.featOf (Cert.Gat.hf h f))) = _
  rw [Cert.Gat.headOf_hf, Cert.Gat.featOf_hf]

/-- The reference's score of head h at node n against an attention vector a: the host sum over the feature axis of
    the projection by heads times the vector broadcast along the nodes, from the initial value zero, is the sum over
    the 32 features of proj (n, 32h + f) · a (0, h, f). -/
theorem ref_score (x : FVec Ideal Cert.ReferenceIdeal.S100000x128 .f32) (w : FVec Ideal Cert.ReferenceIdeal.S128x128 .f32)
    (a : FVec Ideal Cert.ReferenceIdeal.S1x4x32 .f32) (n : Fin 100000) (h : Fin 4) :
    Host.reduceAdd (F := Ideal)
        (mulf (Cert.ReferenceIdeal.RV.val_main_v1 (F := Ideal) x w)
          (broadcastInDim Cert.ReferenceIdeal.S100000x4x32 ![0, 1, 2] Cert.ReferenceIdeal.Facts₀.bcast_S1x4x32_S100000x4x32_0_1_2 a))
        (constant Cert.ReferenceIdeal.S_ .f32 0x00000000#32)
        Cert.ReferenceIdeal.Facts₀.reducesTo_S100000x4x32_S100000x4_d2 Cert.ReferenceIdeal.Facts₀.h_S_ (ix2 n h)
      = ∑ f : Fin 32, Cert.Gat.proj x w (ix2 n (Cert.Gat.hf h f)) * a (ix3 (0 : Fin 1) h f) := by
  have h' := Cert.ReferenceIdeal.Facts₀.reducesTo_S100000x4x32_S100000x4_d2
  have hR : Cert.ReferenceIdeal.S100000x4x32.Reduces [2] Cert.ReferenceIdeal.S100000x4 := ⟨h'.1, Nat.two_pos, h'.2⟩
  refine (Ideal.hostReduceAdd_single h' hR _ _ (ix2 n h)).trans ?_
  rw [constant_apply, Ideal.ofBits_zero_f32, zero_add]
  refine Finset.sum_congr rfl ?_
  intro (f : Fin 32) _
  have hl : hR.lift (ix2 n h) f = ix3 n h f := by
    funext c; apply Fin.ext
    match c with
    | ⟨0, _⟩ => rfl
    | ⟨1, _⟩ => rfl
    | ⟨2, _⟩ => rfl
  rw [hl]
  show Cert.ReferenceIdeal.RV.val_main_v1 (F := Ideal) x w (ix3 n h f)
      * broadcastInDim Cert.ReferenceIdeal.S100000x4x32 ![0, 1, 2] Cert.ReferenceIdeal.Facts₀.bcast_S1x4x32_S100000x4x32_0_1_2 a (ix3 n h f) = _
  rw [proj3_apply]
  congr 1
  refine broadcastInDim_apply _ _ a (ix3 n h f) (ix3 (0 : Fin 1) h f) fun c => ?_
  match c with
  | ⟨0, _⟩ => rfl
  | ⟨1, _⟩ => rfl
  | ⟨2, _⟩ => rfl

theorem score_src (x : FVec Ideal Cert.ReferenceIdeal.S100000x128 .f32) (w : FVec Ideal Cert.ReferenceIdeal.S128x128 .f32)
    (a3 a4 : FVec Ideal Cert.ReferenceIdeal.S1x4x32 .f32) (SC : FVec Ideal Cert.KernelIdeal.S100000x8 .f32)
    (hSC : ∀ i : Cert.KernelIdeal.S100000x8.Idx, SC i = ∑ k : Fin 128, Cert.Gat.proj x w (ix2 (i 0 : Fin 100000) k)
        * Cert.KernelIdeal.KV.val_main_v22 (F := Ideal) a3 a4 (ix2 k (i 1 : Fin 8))) :
    Cert.KernelIdeal.KV.val_main_v24 (F := Ideal) SC = Cert.ReferenceIdeal.RV.val_main_v4 (F := Ideal) x w a3 := by
  funext i
  obtain ⟨n, h, rfl⟩ : ∃ (n : Fin 100000) (h : Fin 4), i = ix2 n h := ⟨i 0, i 1, eq_ix2 i⟩
  refine Eq.trans ?_ (ref_score x w a3 n h).symm
  unfold Cert.KernelIdeal.KV.val_main_v24
  refine (extractStridedSlice_apply _ SC _ (ix2 n h) (ix2 n (⟨h.val, by omega⟩ : Fin 8)) fun c => ?_).trans ?_
  · match c with
    | ⟨0, _⟩ => show n.val = 0 + n.val; omega
    | ⟨1, _⟩ => show h.val = 0 + h.val; omega
  · rw [hSC]
    exact att_sum_src (fun k => Cert.Gat.proj x w (ix2 n k)) a3 a4 h

theorem score_dst (x : FVec Ideal Cert.ReferenceIdeal.S100000x128 .f32) (w : FVec Ideal Cert.ReferenceIdeal.S128x128 .f32)
    (a3 a4 : FVec Ideal Cert.ReferenceIdeal.S1x4x32 .f32) (SC : FVec Ideal Cert.KernelIdeal.S100000x8 .f32)
    (hSC : ∀ i : Cert.KernelIdeal.S100000x8.Idx, SC i = ∑ k : Fin 128, Cert.Gat.proj x w (ix2 (i 0 : Fin 100000) k)
        * Cert.KernelIdeal.KV.val_main_v22 (F := Ideal) a3 a4 (ix2 k (i 1 : Fin 8))) :
    Cert.KernelIdeal.KV.val_main_v25 (F := Ideal) SC = Cert.ReferenceIdeal.RV.val_main_v7 (F := Ideal) x w a4 := by
  funext i
  obtain ⟨n, h, rfl⟩ : ∃ (n : Fin 100000) (h : Fin 4), i = ix2 n h := ⟨i 0, i 1, eq_ix2 i⟩
  refine Eq.trans ?_ (ref_score x w a4 n h).symm
  unfold Cert.KernelIdeal.KV.val_main_v25
  refine (extractStridedSlice_apply _ SC _ (ix2 n h) (ix2 n (⟨4 + h.val, by omega⟩ : Fin 8)) fun c => ?_).trans ?_
  · match c with
    | ⟨0, _⟩ => show n.val = 0 + n.val; omega
    | ⟨1, _⟩ => show 4 + h.val = 4 + h.val; rfl
  · rw [hSC]
    exact att_sum_dst (fun k => Cert.Gat.proj x w (ix2 n k)) a3 a4 h

theorem alpha_pick (a : FVec Ideal Cert.KernelIdeal.S1600000x4 .f32) (e : Fin 1600000) (c : Fin 128) :
    ∑ h : Fin 4, a (ix2 e h) * Cert.KernelIdeal.KV.val_main_v74 (F := Ideal) (ix2 h c) = a (ix2 e (Cert.Gat.headOf c)) := by
  rw [Finset.sum_eq_single (Cert.Gat.headOf c)]
  · have hh : c.val / 32 = (Cert.Gat.headOf c).val := rfl
    rw [Cert.KernelIdeal.Consts.expand_apply, if_pos hh, mul_one]
  · intro h _ hne
    have hh : ¬ c.val / 32 = h.val := fun e' => hne (Fin.ext e'.symm)
    rw [Cert.KernelIdeal.Consts.expand_apply, if_neg hh, mul_zero]
  · intro hh; exact absurd (Finset.mem_univ _) hh

end Cert.Score

end
-- ==== Proof.Scatter.lean ====
/-
  The final aggregation, two ways.

  The kernel adds the 128-wide weighted rows into their destination rows with one 2-D scatter; the reference adds
  4×32 slabs into a 100000×4×32 array with a 3-D scatter and then flattens each slab to a 128-wide row. Read at one
  entry both are the same sum: over the edges whose destination is row n, the entry of the edge's update in column
  c = 32·h + f. The two updates agree entry by entry: the source row of the projection (the same clamped row on both
  sides) times the edge's attention weight for head h.
-/
import proofs.«132320_j74148315398470_1_alg».proof.Proof.KVals
import proofs.«132320_j74148315398470_1_alg».proof.Proof.RVals
import proofs.«132320_j74148315398470_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx

namespace Cert.Aggregate

/-! ## The kernel's row scatter: where an update lands, and the scatter read at an index -/

section Scatter2
open Cert.KernelIdeal

/-- The kernel's row scatter: updates E×128 into an operand N×128, one row index per update row. -/
abbrev sc2 := scatter_S100000x128_S1600000x1_S1600000x128_1_0_0_1

theorem sc2_start0 {w : Nat} (idx : IVec S1600000x1 w) (e : Fin 1600000) (c : Fin 128) :
    sc2.start (ix2 e c) idx 0 = (idx (ix2 e (0 : Fin 1))).toInt := by
  unfold ScatterDims.start
  rw [dif_pos (show (0 : Fin 2) ∈ sc2.scatterDimsToOperandDims from List.mem_singleton.mpr rfl)]
  congr 2
  funext b; refine Fin.ext ?_
  match b with
  | ⟨0, _⟩ => rfl
  | ⟨1, _⟩ => rfl

theorem sc2_start1 {w : Nat} (idx : IVec S1600000x1 w) (e : Fin 1600000) (c : Fin 128) :
    sc2.start (ix2 e c) idx 1 = 0 := by
  unfold ScatterDims.start
  rw [dif_neg (by decide)]

theorem sc2_window0 (e : Fin 1600000) (c : Fin 128) : sc2.window (ix2 e c) 0 = 0 := by
  unfold ScatterDims.window
  rw [dif_neg (by decide)]

theorem sc2_window1 (e : Fin 1600000) (c : Fin 128) : sc2.window (ix2 e c) 1 = c.val := by
  unfold ScatterDims.window
  rw [dif_pos (by decide)]
  rfl

end Scatter2

section Scatter2b
open Cert.KernelIdeal

/-- Update (e, c') of the kernel's row scatter lands on (n, c) exactly when edge e's row index is n and c' = c. -/
theorem sc2_lands {w : Nat} (idx : IVec S1600000x1 w) (e : Fin 1600000) (c' : Fin 128) (n : Fin 100000) (c : Fin 128) :
    sc2.resultIdx? (ix2 e c') idx = some (ix2 n c) ↔ (idx (ix2 e (0 : Fin 1))).toInt = (n.val : Int) ∧ c' = c := by
  have hn := n.isLt
  have hc' := c'.isLt
  unfold ScatterDims.resultIdx?
  split
  · next h =>
    rw [Option.some.injEq]
    constructor
    · intro hi
      have h0 := congrArg (fun k => (k 0).val) hi
      have h1 := congrArg (fun k => (k 1).val) hi
      simp only [sc2_start0, sc2_start1, sc2_window0, sc2_window1] at h0 h1
      have hh := (h 0).1
      rw [sc2_start0, sc2_window0] at hh
      refine ⟨?_, Fin.ext ?_⟩
      · change _ = n.val at h0
        omega
      · change _ = c.val at h1
        omega
    · rintro ⟨hr, rfl⟩
      funext a; refine Fin.ext ?_
      match a with
      | ⟨0, _⟩ =>
        show (sc2.start (ix2 e c') idx 0 + sc2.window (ix2 e c') 0).toNat = n.val
        rw [sc2_start0, sc2_window0, hr]; omega
      | ⟨1, _⟩ =>
        show (sc2.start (ix2 e c') idx 1 + sc2.window (ix2 e c') 1).toNat = c'.val
        rw [sc2_start1, sc2_window1]; omega
  · next h =>
    constructor
    · intro hi; cases hi
    · rintro ⟨hr, rfl⟩
      exfalso; apply h
      intro a
      match a with
      | ⟨0, _⟩ =>
        show 0 ≤ sc2.start (ix2 e c') idx 0 + sc2.window (ix2 e c') 0 ∧ sc2.start (ix2 e c') idx 0 + sc2.window (ix2 e c') 0 < (100000 : Nat)
        rw [sc2_start0, sc2_window0, hr]; omega
      | ⟨1, _⟩ =>
        show 0 ≤ sc2.start (ix2 e c') idx 1 + sc2.window (ix2 e c') 1 ∧ sc2.start (ix2 e c') idx 1 + sc2.window (ix2 e c') 1 < (128 : Nat)
        rw [sc2_start1, sc2_window1]; omega

end Scatter2b

section Scatter2c
open Cert.KernelIdeal

/-- THE KERNEL'S ROW SCATTER READ AT (n, c): the operand's entry plus, over the edges whose row index is n, the
    update's entry in column c. -/
theorem scatterAdd2_apply {w : Nat} (x : FVec Ideal S100000x128 .f32) (idx : IVec S1600000x1 w)
    (upd : FVec Ideal S1600000x128 .f32) (n : Fin 100000) (c : Fin 128) :
    Host.scatterAdd sc2 x idx upd (ix2 n c)
      = x (ix2 n c) + ∑ e : Fin 1600000, if (idx (ix2 e (0 : Fin 1))).toInt = (n.val : Int) then upd (ix2 e c) else 0 := by
  show Ideal.hostScatterAdd sc2 x idx upd (ix2 n c) = _
  unfold Ideal.hostScatterAdd
  refine congrArg (fun t => x (ix2 n c) + t) ?_
  rw [Finset.sum_filter, sum_idx2]
  refine Finset.sum_congr rfl fun e _ => ?_
  simp only [sc2_lands]
  rw [Finset.sum_eq_single c (fun b _ hb => if_neg (fun h => hb h.2)) (fun h => absurd (Finset.mem_univ c) h)]
  by_cases hr : (idx (ix2 e (0 : Fin 1))).toInt = (n.val : Int)
  · rw [if_pos ⟨hr, rfl⟩, if_pos hr]
  · rw [if_neg (fun h => hr h.1), if_neg hr]

end Scatter2c

/-! ## A sum over a rank-3 index set, by coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The reference's row scatter: the same, with the row cut into heads and features -/
section Scatter3
open Cert.ReferenceIdeal

/-- The reference's row scatter: updates E×4×32 into an operand N×4×32, one row index per update row. -/
abbrev sc3 := scatter_S100000x4x32_S1600000x1_S1600000x4x32_12_0_0_1

theorem sc3_start0 {w : Nat} (idx : IVec S1600000x1 w) (e : Fin 1600000) (h : Fin 4) (f : Fin 32) :
    sc3.start (ix3 e h f) idx 0 = (idx (ix2 e (0 : Fin 1))).toInt := by
  unfold ScatterDims.start
  rw [dif_pos (show (0 : Fin 3) ∈ sc3.scatterDimsToOperandDims from List.mem_singleton.mpr rfl)]
  congr 2
  funext b; refine Fin.ext ?_
  match b with
  | ⟨0, _⟩ => rfl
  | ⟨1, _⟩ => rfl

theorem sc3_start1 {w : Nat} (idx : IVec S1600000x1 w) (e : Fin 1600000) (h : Fin 4) (f : Fin 32) :
    sc3.start (ix3 e h f) idx 1 = 0 := by
  unfold ScatterDims.start
  rw [dif_neg (by decide)]

theorem sc3_start2 {w : Nat} (idx : IVec S1600000x1 w) (e : Fin 1600000) (h : Fin 4) (f : Fin 32) :
    sc3.start (ix3 e h f) idx 2 = 0 := by
  unfold ScatterDims.start
  rw [dif_neg (by decide)]

theorem sc3_window0 (e : Fin 1600000) (h : Fin 4) (f : Fin 32) : sc3.window (ix3 e h f) 0 = 0 := by
  unfold ScatterDims.window
  rw [dif_neg (by decide)]

theorem sc3_window1 (e : Fin 1600000) (h : Fin 4) (f : Fin 32) : sc3.window (ix3 e h f) 1 = h.val := by
  unfold ScatterDims.window
  rw [dif_pos (by decide)]
  rfl

theorem sc3_window2 (e : Fin 1600000) (h : Fin 4) (f : Fin 32) : sc3.window (ix3 e h f) 2 = f.val := by
  unfold ScatterDims.window
  rw [dif_pos (by decide)]
  rfl

/-- Update (e, h', f') of the reference's row scatter lands on (n, h, f) exactly when edge e's row index is n,
    h' = h and f' = f. -/
theorem sc3_lands {w : Nat} (idx : IVec S1600000x1 w) (e : Fin 1600000) (h' : Fin 4) (f' : Fin 32)
    (n : Fin 100000) (h : Fin 4) (f : Fin 32) :
    sc3.resultIdx? (ix3 e h' f') idx = some (ix3 n h f)
      ↔ (idx (ix2 e (0 : Fin 1))).toInt = (n.val : Int) ∧ h' = h ∧ f' = f := by
  have hn := n.isLt
  have hh' := h'.isLt
  have hf' := f'.isLt
  unfold ScatterDims.resultIdx?
  split
  · next hin =>
    rw [Option.some.injEq]
    constructor
    · intro hi
      have h0 := congrArg (fun k => (k 0).val) hi
      have h1 := congrArg (fun k => (k 1).val) hi
      have h2 := congrArg (fun k => (k 2).val) hi
      simp only [sc3_start0, sc3_start1, sc3_start2, sc3_window0, sc3_window1, sc3_window2] at h0 h1 h2
      have hh := (hin 0).1
      rw [sc3_start0, sc3_window0] at hh
      refine ⟨?_, Fin.ext ?_, Fin.ext ?_⟩
      · change _ = n.val at h0
        omega
      · change _ = h.val at h1
        omega
      · change _ = f.val at h2
        omega
    · rintro ⟨hr, rfl, rfl⟩
      funext a; refine Fin.ext ?_
      match a with
      | ⟨0, _⟩ =>
        show (sc3.start (ix3 e h' f') idx 0 + sc3.window (ix3 e h' f') 0).toNat = n.val
        rw [sc3_start0, sc3_window0, hr]; omega
      | ⟨1, _⟩ =>
        show (sc3.start (ix3 e h' f') idx 1 + sc3.window (ix3 e h' f') 1).toNat = h'.val
        rw [sc3_start1, sc3_window1]; omega
      | ⟨2, _⟩ =>
        show (sc3.start (ix3 e h' f') idx 2 + sc3.window (ix3 e h' f') 2).toNat = f'.val
        rw [sc3_start2, sc3_window2]; omega
  · next hout =>
    constructor
    · intro hi; cases hi
    · rintro ⟨hr, rfl, rfl⟩
      exfalso; apply hout
      intro a
      match a with
      | ⟨0, _⟩ =>
        show 0 ≤ sc3.start (ix3 e h' f') idx 0 + sc3.window (ix3 e h' f') 0
          ∧ sc3.start (ix3 e h' f') idx 0 + sc3.window (ix3 e h' f') 0 < (100000 : Nat)
        rw [sc3_start0, sc3_window0, hr]; omega
      | ⟨1, _⟩ =>
        show 0 ≤ sc3.start (ix3 e h' f') idx 1 + sc3.window (ix3 e h' f') 1
          ∧ sc3.start (ix3 e h' f') idx 1 + sc3.window (ix3 e h' f') 1 < (4 : Nat)
        rw [sc3_start1, sc3_window1]; omega
      | ⟨2, _⟩ =>
        show 0 ≤ sc3.start (ix3 e h' f') idx 2 + sc3.window (ix3 e h' f') 2
          ∧ sc3.start (ix3 e h' f') idx 2 + sc3.window (ix3 e h' f') 2 < (32 : Nat)
        rw [sc3_start2, sc3_window2]; omega

/-- THE REFERENCE'S ROW SCATTER READ AT (n, h, f): the operand's entry plus, over the edges whose row index is n,
    the update's entry at (h, f). -/
theorem scatterAdd3_apply {w : Nat} (x : FVec Ideal S100000x4x32 .f32) (idx : IVec S1600000x1 w)
    (upd : FVec Ideal S1600000x4x32 .f32) (n : Fin 100000) (h : Fin 4) (f : Fin 32) :
    Host.scatterAdd sc3 x idx upd (ix3 n h f)
      = x (ix3 n h f)
        + ∑ e : Fin 1600000, if (idx (ix2 e (0 : Fin 1))).toInt = (n.val : Int) then upd (ix3 e h f) else 0 := by
  show Ideal.hostScatterAdd sc3 x idx upd (ix3 n h f) = _
  unfold Ideal.hostScatterAdd
  refine congrArg (fun t => x (ix3 n h f) + t) ?_
  rw [Finset.sum_filter, sum_idx3]
  refine Finset.sum_congr rfl fun e _ => ?_
  simp only [sc3_lands]
  rw [Finset.sum_eq_single h (fun b _ hb => Finset.sum_eq_zero fun g _ => if_neg (fun k => hb k.2.1))
    (fun k => absurd (Finset.mem_univ h) k)]
  rw [Finset.sum_eq_single f (fun b _ hb => if_neg (fun k => hb k.2.2)) (fun k => absurd (Finset.mem_univ f) k)]
  by_cases hr : (idx (ix2 e (0 : Fin 1))).toInt = (n.val : Int)
  · rw [if_pos ⟨hr, rfl, rfl⟩, if_pos hr]
  · rw [if_neg (fun k => hr k.1), if_neg hr]

end Scatter3

/-! ## The two row gathers, read at an index -/

section Gather2
open Cert.KernelIdeal
variable {α : Type}

/-- The kernel's row gather: rows of an operand N×128 at one row index per result row. -/
abbrev g2 := gather_S100000x128_S1600000x1_S1600000x128_1_0_n_n_0_1_1128

/-- THE KERNEL'S ROW GATHER READ AT (e, c): the operand at row "edge e's index, read signed and clamped into
    [0, N − 1]", column c. -/
theorem gather2_apply {w : Nat} (x : S100000x128.Idx → α) (idx : IVec S1600000x1 w) (e : Fin 1600000) (c : Fin 128) :
    Host.gather g2 x idx (ix2 e c)
      = x (ix2 (⟨min (idx (ix2 e (0 : Fin 1))).toInt.toNat 99999, by omega⟩ : Fin 100000) c) := by
  unfold Host.gather
  refine congrArg x (funext fun a => Fin.ext ?_)
  match a with
  | ⟨0, _⟩ =>
    show g2.start (ix2 e c) idx 0 + g2.batchCoord (ix2 e c) 0 + g2.offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ g2.startIndexMap from List.mem_singleton.mpr rfl)]
    have hsi : g2.siIdx (ix2 e c) ⟨List.idxOf (0 : Fin 2) g2.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show g2.start (ix2 e c) idx 1 + g2.batchCoord (ix2 e c) 1 + g2.offCoord (ix2 e c) 1 = c.val
    rw [GatherDims.batchCoord_eq_zero _ _ _ List.not_mem_nil]
    have hs : g2.start (ix2 e c) idx 1 = 0 := by
      unfold GatherDims.start
      rw [dif_neg (by decide)]
    have ho : g2.offCoord (ix2 e c) 1 = c.val := by
      unfold GatherDims.offCoord
      rw [dif_pos (by decide)]
      rfl
    rw [hs, ho, Nat.zero_add]

end Gather2

section Gather3
open Cert.ReferenceIdeal
variable {α : Type}

/-- The reference's row gather: 4×32 slabs of an operand N×4×32 at one row index per result slab. -/
abbrev g3 := gather_S100000x4x32_S1600000x1_S1600000x4x32_12_0_n_n_0_1_1432

/-- THE REFERENCE'S ROW GATHER READ AT (e, h, f): the operand at row "edge e's index, read signed and clamped into
    [0, N − 1]", at (h, f). -/
theorem gather3_apply {w : Nat} (x : S100000x4x32.Idx → α) (idx : IVec S1600000x1 w) (e : Fin 1600000)
    (h : Fin 4) (f : Fin 32) :
    Host.gather g3 x idx (ix3 e h f)
      = x (ix3 (⟨min (idx (ix2 e (0 : Fin 1))).toInt.toNat 99999, by omega⟩ : Fin 100000) h f) := by
  unfold Host.gather
  refine congrArg x (funext fun a => Fin.ext ?_)
  match a with
  | ⟨0, _⟩ =>
    show g3.start (ix3 e h f) idx 0 + g3.batchCoord (ix3 e h f) 0 + g3.offCoord (ix3 e h f) 0 = _
    rw [GatherDims.batchCoord_eq_zero _ _ _ List.not_mem_nil,
      GatherDims.offCoord_eq_zero _ _ _ (fun k => ((GatherDims.mem_sKept _ _).mp k).1 (List.mem_singleton.mpr rfl))]
    simp only [Nat.add_zero]
    unfold GatherDims.start
    rw [dif_pos (show (0 : Fin 3) ∈ g3.startIndexMap from List.mem_singleton.mpr rfl)]
    have hsi : g3.siIdx (ix3 e h f) ⟨List.idxOf (0 : Fin 3) g3.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show g3.start (ix3 e h f) idx 1 + g3.batchCoord (ix3 e h f) 1 + g3.offCoord (ix3 e h f) 1 = h.val
    rw [GatherDims.batchCoord_eq_zero _ _ _ List.not_mem_nil]
    have hs : g3.start (ix3 e h f) idx 1 = 0 := by
      unfold GatherDims.start
      rw [dif_neg (by decide)]
    have ho : g3.offCoord (ix3 e h f) 1 = h.val := by
      unfold GatherDims.offCoord
      rw [dif_pos (by decide)]
      rfl
    rw [hs, ho, Nat.zero_add]
  | ⟨2, _⟩ =>
    show g3.start (ix3 e h f) idx 2 + g3.batchCoord (ix3 e h f) 2 + g3.offCoord (ix3 e h f) 2 = f.val
    rw [GatherDims.batchCoord_eq_zero _ _ _ List.not_mem_nil]
    have hs : g3.start (ix3 e h f) idx 2 = 0 := by
      unfold GatherDims.start
      rw [dif_neg (by decide)]
    have ho : g3.offCoord (ix3 e h f) 2 = f.val := by
      unfold GatherDims.offCoord
      rw [dif_pos (by decide)]
      rfl
    rw [hs, ho, Nat.zero_add]

end Gather3

/-! ## The aggregation -/

open Cert.Gat in
theorem final_eq (P : FVec Ideal Cert.KernelIdeal.S100000x128 .bf16) (p3 : FVec Ideal Cert.ReferenceIdeal.S100000x4x32 .f32)
    (hP : ∀ (n : Fin 100000) (h : Fin 4) (f : Fin 32), p3 (ix3 n h f) = P (ix2 n (Cert.Gat.hf h f)))
    (al : FVec Ideal Cert.KernelIdeal.S1600000x4 .f32) (wk : FVec Ideal Cert.KernelIdeal.S1600000x128 .f32)
    (adj : (⟨Cert.KernelIdeal.S2x1600000, .i32⟩ : BufTy).Contents (Elt Ideal))
    (hwk : ∀ (e : Fin 1600000) (c : Fin 128), wk (ix2 e c)
        = Cert.KernelIdeal.KV.val_main_v65 (F := Ideal) (Cert.KernelIdeal.KV.val_main_v1 (F := Ideal) adj) P (ix2 e c) * al (ix2 e (Cert.Gat.headOf c))) :
    Cert.KernelIdeal.KV.val_main_v78 (F := Ideal) wk (Cert.KernelIdeal.KV.val_main_v3 (F := Ideal) adj)
      = Cert.ReferenceIdeal.RV.val_main_v58 (F := Ideal) al (Cert.ReferenceIdeal.RV.val_main_v9 (F := Ideal) adj)
          (Cert.ReferenceIdeal.RV.val_main_v11 (F := Ideal) adj) p3 := by
  funext i
  obtain ⟨n, c, rfl⟩ : ∃ (n : Fin 100000) (c : Fin 128), i = ix2 n c := ⟨i 0, i 1, eq_ix2 i⟩
  -- the flattening on the right reads the 3-D sum at (n, c / 32, c % 32): the same row-major position
  have hR : Cert.ReferenceIdeal.RV.val_main_v58 (F := Ideal) al (Cert.ReferenceIdeal.RV.val_main_v9 (F := Ideal) adj)
        (Cert.ReferenceIdeal.RV.val_main_v11 (F := Ideal) adj) p3 (ix2 n c)
      = Cert.ReferenceIdeal.RV.val_main_v57 (F := Ideal) al (Cert.ReferenceIdeal.RV.val_main_v9 (F := Ideal) adj)
        (Cert.ReferenceIdeal.RV.val_main_v11 (F := Ideal) adj) p3 (ix3 n (headOf c) (featOf c)) := by
    refine shapeCast_apply _ _ _ _ ?_
    rw [Shape.rowMajor_val_three, Shape.rowMajor_val_two]
    show (n.val * 4 + c.val / 32) * 32 + c.val % 32 = n.val * 128 + c.val
    omega
  rw [hR]
  -- both scatters, read at that entry, are the initial entry plus a sum over the edges with destination n
  show Host.scatterAdd sc2 (Cert.KernelIdeal.KV.val_main_v76 (F := Ideal))
        (Cert.KernelIdeal.KV.val_main_v77 (F := Ideal) (Cert.KernelIdeal.KV.val_main_v3 (F := Ideal) adj)) wk (ix2 n c)
      = Host.scatterAdd sc3 (Cert.ReferenceIdeal.RV.val_main_v55 (F := Ideal))
        (Cert.ReferenceIdeal.RV.val_main_v56 (F := Ideal) (Cert.ReferenceIdeal.RV.val_main_v11 (F := Ideal) adj))
        (Cert.ReferenceIdeal.RV.val_main_v54 (F := Ideal) al (Cert.ReferenceIdeal.RV.val_main_v9 (F := Ideal) adj) p3)
        (ix3 n (headOf c) (featOf c))
  rw [scatterAdd2_apply, scatterAdd3_apply]
  -- the two initial arrays are the same splat constant, and the destination column is the same array on both sides
  refine congrArg₂ (· + ·) rfl (Finset.sum_congr rfl fun e _ => ?_)
  refine if_congr Iff.rfl ?_ rfl
  -- the two updates at edge e: the projection's source row times the edge's weight for the head of column c
  have hU : Cert.ReferenceIdeal.RV.val_main_v54 (F := Ideal) al (Cert.ReferenceIdeal.RV.val_main_v9 (F := Ideal) adj) p3
        (ix3 e (headOf c) (featOf c))
      = Cert.ReferenceIdeal.RV.val_main_v51 (F := Ideal) (Cert.ReferenceIdeal.RV.val_main_v9 (F := Ideal) adj) p3
          (ix3 e (headOf c) (featOf c))
        * Cert.ReferenceIdeal.RV.val_main_v53 (F := Ideal) al (ix3 e (headOf c) (featOf c)) := rfl
  rw [hwk, hU]
  refine congrArg₂ (· * ·) ?_ ?_
  · -- the two row gathers read the same clamped source row; p3 is P with the column cut into head and feature
    show Host.gather g2 P (Cert.KernelIdeal.KV.val_main_v64 (F := Ideal) (Cert.KernelIdeal.KV.val_main_v1 (F := Ideal) adj)) (ix2 e c)
      = Host.gather g3 p3 (Cert.ReferenceIdeal.RV.val_main_v50 (F := Ideal) (Cert.ReferenceIdeal.RV.val_main_v9 (F := Ideal) adj))
          (ix3 e (headOf c) (featOf c))
    rw [gather2_apply, gather3_apply, hP, hf_headOf_featOf]
    rfl
  · -- the weight, laid along a new unit axis and then along the 32 features, reads al at (e, h)
    symm
    show broadcastInDim Cert.ReferenceIdeal.S1600000x4x32 ![0, 1, 2] _
        (broadcastInDim Cert.ReferenceIdeal.S1600000x4x1 ![0, 1] _ al) (ix3 e (headOf c) (featOf c)) = al (ix2 e (headOf c))
    refine (broadcastInDim_apply _ _ _ _ (ix3 e (headOf c) (0 : Fin 1)) fun a => ?_).trans
      (broadcastInDim_apply _ _ _ _ (ix2 e (headOf c)) fun a => ?_)
    · match a with
      | ⟨0, _⟩ => rfl
      | ⟨1, _⟩ => rfl
      | ⟨2, _⟩ => rfl
    · match a with
      | ⟨0, _⟩ => rfl
      | ⟨1, _⟩ => rfl

end Cert.Aggregate

end
-- ==== Proof.RefRun.lean ====
/-
  The reference's run.

  The reference's entry function is a straight line of host operations (its one call, leaky-relu with its inner
  select, being the callee's operations on the call's own buffers). Every weakly fair execution therefore ends with
  each buffer at the composition of the operations' functions over the launch contents: no operation writes an
  argument, and the result buffer holds the projection by heads, the two score arrays, the attention weights and the
  aggregation composed in that order.
-/
import proofs.«132320_j74148315398470_1_alg».proof.Proof.RVals
import Idealize.ShloMosaic.Lib.StableHlo.Run
import Idealize.ShloMosaic.Lib.ValueIdx

set_option maxRecDepth 16384
noncomputable section

open scoped BigOperators
open Idealize.ShloMosaic Idealize.ShloMosaic.TcCoe Idealize.SL.Sem Idealize.ShloMosaic.ValueIdx

namespace Cert.ReferenceIdeal.RefRun

open Cert.ReferenceIdeal Cert.ReferenceIdeal.Gen Idealize.ShloMosaic.StableHlo

variable {F : FTy → Type} [FloatOps F]

set_option maxHeartbeats 4000000 in
/-- The reference's entry function is the straight line of its operations: its two printed windows one after the
    other, the leaky-relu call replaced by the callee's six operations and the select of the inner call, all
    over the call's own buffers. Both sides are the same chain of operation steps once the binds are computed. -/
theorem main_eq (c : Dev nD) : main (F := F) c = seq RV.ops := rfl

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation of the line touches TensorCore buffers only. -/
theorem ops_sub : (RV.ops : List (HloOp τ sig (Elt F))).Forall fun op => op.bufs ⊆ tcRefs τ sig :=
  ⟨binary_bufs_sub .., reshape_bufs_sub .., unary_bufs_sub .., binary_bufs_sub .., nullary_bufs_sub .., binary_bufs_sub ..,
    unary_bufs_sub .., binary_bufs_sub .., nullary_bufs_sub .., binary_bufs_sub .., unary_bufs_sub .., reshape_bufs_sub ..,
    unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., nullary_bufs_sub .., unary_bufs_sub ..,
    binary_bufs_sub .., unary_bufs_sub .., unary_bufs_sub .., binary_bufs_sub .., ternary_bufs_sub .., nullary_bufs_sub ..,
    binary_bufs_sub .., unary_bufs_sub .., binary_bufs_sub .., unary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub .., nullary_bufs_sub .., unary_bufs_sub .., unary_bufs_sub ..,
    ternary_bufs_sub .., reshape_bufs_sub ..⟩

set_option maxHeartbeats 4000000 in
/-- No operation of the line writes argument 0: after the line it holds what it held. -/
theorem arg0_eq (V : Valuation τ sig (Elt F)) :
    after RV.ops V (main_arg0 : DevRef τ sig) = V (main_arg0 : DevRef τ sig) := by
  after_results_simp

set_option maxHeartbeats 4000000 in
/-- No operation of the line writes argument 1: after the line it holds what it held. -/
theorem arg1_eq (V : Valuation τ sig (Elt F)) :
    after RV.ops V (main_arg1 : DevRef τ sig) = V (main_arg1 : DevRef τ sig) := by
  after_results_simp

set_option maxHeartbeats 4000000 in
/-- No operation of the line writes argument 2: after the line it holds what it held. -/
theorem arg2_eq (V : Valuation τ sig (Elt F)) :
    after RV.ops V (main_arg2 : DevRef τ sig) = V (main_arg2 : DevRef τ sig) := by
  after_results_simp

set_option maxHeartbeats 4000000 in
/-- No operation of the line writes argument 3: after the line it holds what it held. -/
theorem arg3_eq (V : Valuation τ sig (Elt F)) :
    after RV.ops V (main_arg3 : DevRef τ sig) = V (main_arg3 : DevRef τ sig) := by
  after_results_simp

set_option maxHeartbeats 4000000 in
/-- No operation of the line writes argument 4: after the line it holds what it held. -/
theorem arg4_eq (V : Valuation τ sig (Elt F)) :
    after RV.ops V (main_arg4 : DevRef τ sig) = V (main_arg4 : DevRef τ sig) := by
  after_results_simp

set_option maxHeartbeats 4000000 in
/-- What the result buffer holds after the line, from contents `V`: each operation's result at its own buffer is its
    function of its operands' contents, any other buffer keeps what it held; composed from the last reshape back to
    the arguments this is the nested term of the operations' functions. The stage definitions `RV.val_…` are that
    same term named buffer by buffer (each one its operation's function applied to its operands' definitions), so
    once they are unfolded the two sides agree up to η at the four reshapes. -/
theorem out_eq (V : Valuation τ sig (Elt F)) :
    after RV.ops V (main_v58 : DevRef τ sig)
      = RV.val_main_v58
          (RV.val_main_v44
            (RV.val_main_v4 (V (main_arg0 : DevRef τ sig)) (V (main_arg2 : DevRef τ sig)) (V (main_arg3 : DevRef τ sig)))
            (RV.val_main_v7 (V (main_arg0 : DevRef τ sig)) (V (main_arg2 : DevRef τ sig)) (V (main_arg4 : DevRef τ sig)))
            (RV.val_main_v9 (V (main_arg1 : DevRef τ sig))) (RV.val_main_v11 (V (main_arg1 : DevRef τ sig))))
          (RV.val_main_v9 (V (main_arg1 : DevRef τ sig))) (RV.val_main_v11 (V (main_arg1 : DevRef τ sig)))
          (RV.val_main_v1 (V (main_arg0 : DevRef τ sig)) (V (main_arg2 : DevRef τ sig))) := by
  after_results_simp
  simp only [RV.val_main_v0, RV.val_main_v1, RV.val_main_v2, RV.val_main_v3, RV.val_main_cst, RV.val_main_v4, RV.val_main_v5,
    RV.val_main_v6, RV.val_main_cst_0, RV.val_main_v7, RV.val_main_v8, RV.val_main_v9, RV.val_main_v10, RV.val_main_v11,
    RV.val_main_c, RV.val_main_v12, RV.val_main_v13, RV.val_main_c_1, RV.val_main_v14, RV.val_main_v15, RV.val_main_v16,
    RV.val_main_v17, RV.val_main_v18, RV.val_main_c_2, RV.val_main_v19, RV.val_main_v20, RV.val_main_c_3, RV.val_main_v21,
    RV.val_main_v22, RV.val_main_v23, RV.val_main_v24, RV.val_main_v25, RV.val_main_v26, RV.val_main_cst_4, RV.val_main_call0_cst,
    RV.val_main_call0_v0, RV.val_main_call0_v1, RV.val_main_call0_v2, RV.val_main_call0_v3, RV.val_main_call0_v4, RV.val_main_v27, RV.val_main_cst_5,
    RV.val_main_v28, RV.val_main_v29, RV.val_main_v30, RV.val_main_v31, RV.val_main_cst_6, RV.val_main_v32, RV.val_main_v33,
    RV.val_main_v34, RV.val_main_c_7, RV.val_main_v35, RV.val_main_v36, RV.val_main_c_8, RV.val_main_v37, RV.val_main_v38,
    RV.val_main_v39, RV.val_main_v40, RV.val_main_v41, RV.val_main_cst_9, RV.val_main_v42, RV.val_main_v43, RV.val_main_v44,
    RV.val_main_c_10, RV.val_main_v45, RV.val_main_v46, RV.val_main_c_11, RV.val_main_v47, RV.val_main_v48, RV.val_main_v49,
    RV.val_main_v50, RV.val_main_v51, RV.val_main_v52, RV.val_main_v53, RV.val_main_v54, RV.val_main_cst_12, RV.val_main_v55,
    RV.val_main_v56, RV.val_main_v57, RV.val_main_v58]
  rfl

/-- On every device, for any float values, from any memory with zero counters: every weakly fair execution of the
    reference's entry function terminates with the result buffer at the composed stage definitions of the five
    arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v58)
          = RV.val_main_v58
              (RV.val_main_v44
                (RV.val_main_v4 (m ((c.tc : Thread nD τ).loc main_arg0)) (m ((c.tc : Thread nD τ).loc main_arg2)) (m ((c.tc : Thread nD τ).loc main_arg3)))
                (RV.val_main_v7 (m ((c.tc : Thread nD τ).loc main_arg0)) (m ((c.tc : Thread nD τ).loc main_arg2)) (m ((c.tc : Thread nD τ).loc main_arg4)))
                (RV.val_main_v9 (m ((c.tc : Thread nD τ).loc main_arg1))) (RV.val_main_v11 (m ((c.tc : Thread nD τ).loc main_arg1))))
              (RV.val_main_v9 (m ((c.tc : Thread nD τ).loc main_arg1))) (RV.val_main_v11 (m ((c.tc : Thread nD τ).loc main_arg1)))
              (RV.val_main_v1 (m ((c.tc : Thread nD τ).loc main_arg0)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v58).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c))⟩)
    (run_seq scopedRefs_eq scopedSems_eq defs main (fun _ => RV.ops) main_eq (fun _ => ops_sub) m ρ)

/-- The reference's frame: its run with the result dropped — every weakly fair execution terminates with the five
    arguments unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => (h c).2) (run m ρ)

end Cert.ReferenceIdeal.RefRun

end
-- ==== Proof.Bridge.lean ====
/-
  The two idealized programs end with equal result arrays.

  Both compute, per destination node n and column c (head c / 32),
      ∑ over the edges e into n of  proj (src e, c) · alpha (e, c / 32),
  where proj = x · W and alpha is one and the same chain of host operations applied to the two score arrays and
  the two index rows. The kernel program gets the scores as proj · Att with Att a 0/1 head mask times the flattened
  attention vectors, and spreads alpha over the 128 columns by a product with a 0/1 matrix; the reference sums
  proj by heads against the attention vectors and broadcasts alpha. Over the extended reals 0 · y = 0 and 1 · y = y
  for every y, so the masked sums collapse to the head's 32 terms and to the head's weight with no finiteness used.
-/
import proofs.«132320_j74148315398470_1_alg».proof.Proof.KRun
import proofs.«132320_j74148315398470_1_alg».proof.Proof.KRead
import proofs.«132320_j74148315398470_1_alg».proof.Proof.R0Val
import proofs.«132320_j74148315398470_1_alg».proof.Proof.R1Val
import proofs.«132320_j74148315398470_1_alg».proof.Proof.Score
import proofs.«132320_j74148315398470_1_alg».proof.Proof.Scatter
import proofs.«132320_j74148315398470_1_alg».proof.Proof.RefRun

set_option maxRecDepth 16384
noncomputable section

open scoped BigOperators
open Idealize.ShloMosaic Idealize.ShloMosaic.TcCoe Idealize.SL.Sem Idealize.ShloMosaic.ValueIdx

namespace Cert.Bridge

/-- The two programs compute the attention weights by the same host operations of the two score arrays and the
    two index rows. -/
theorem chain_eq (ss sd : FVec Ideal Cert.KernelIdeal.S100000x4 .f32) (src dst : (⟨Cert.KernelIdeal.S1600000, .i32⟩ : BufTy).Contents (Elt Ideal)) :
    Cert.KernelIdeal.KV.val_main_v58 (F := Ideal) ss sd src dst = Cert.ReferenceIdeal.RV.val_main_v44 (F := Ideal) ss sd src dst := rfl

/-- The source row of the edge list is read off it by the same two operations in both programs. -/
theorem src_eq (adj : (⟨Cert.KernelIdeal.S2x1600000, .i32⟩ : BufTy).Contents (Elt Ideal)) :
    Cert.KernelIdeal.KV.val_main_v1 (F := Ideal) adj = Cert.ReferenceIdeal.RV.val_main_v9 (F := Ideal) adj := rfl

/-- The destination row likewise. -/
theorem dst_eq (adj : (⟨Cert.KernelIdeal.S2x1600000, .i32⟩ : BufTy).Contents (Elt Ideal)) :
    Cert.KernelIdeal.KV.val_main_v3 (F := Ideal) adj = Cert.ReferenceIdeal.RV.val_main_v11 (F := Ideal) adj := rfl

/-- The kernel program's result array, as the last segment boundary holds it, is the reference's result term of the
    same five arguments. -/
theorem result_eq (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (x : FVec Ideal Cert.KernelIdeal.S100000x128 .f32) (adj : (⟨Cert.KernelIdeal.S2x1600000, .i32⟩ : BufTy).Contents (Elt Ideal))
    (w : FVec Ideal Cert.KernelIdeal.S128x128 .f32) (a3 a4 : FVec Ideal Cert.KernelIdeal.S1x4x32 .f32)
    (hx : m ((c.tc : Thread Cert.KernelIdeal.nD Cert.KernelIdeal.τ).loc Cert.KernelIdeal.main_arg0) = x)
    (hadj : m ((c.tc : Thread Cert.KernelIdeal.nD Cert.KernelIdeal.τ).loc Cert.KernelIdeal.main_arg1) = adj)
    (hw : m ((c.tc : Thread Cert.KernelIdeal.nD Cert.KernelIdeal.τ).loc Cert.KernelIdeal.main_arg2) = w)
    (h3 : m ((c.tc : Thread Cert.KernelIdeal.nD Cert.KernelIdeal.τ).loc Cert.KernelIdeal.main_arg3) = a3)
    (h4 : m ((c.tc : Thread Cert.KernelIdeal.nD Cert.KernelIdeal.τ).loc Cert.KernelIdeal.main_arg4) = a4) :
    Cert.KernelIdeal.Gen.W11 m ρ c (Proc.devRef .tc Cert.KernelIdeal.main_v78)
      = Cert.ReferenceIdeal.RV.val_main_v58 (F := Ideal)
          (Cert.ReferenceIdeal.RV.val_main_v44 (F := Ideal) (Cert.ReferenceIdeal.RV.val_main_v4 (F := Ideal) x w a3) (Cert.ReferenceIdeal.RV.val_main_v7 (F := Ideal) x w a4)
            (Cert.ReferenceIdeal.RV.val_main_v9 (F := Ideal) adj) (Cert.ReferenceIdeal.RV.val_main_v11 (F := Ideal) adj))
          (Cert.ReferenceIdeal.RV.val_main_v9 (F := Ideal) adj) (Cert.ReferenceIdeal.RV.val_main_v11 (F := Ideal) adj) (Cert.ReferenceIdeal.RV.val_main_v1 (F := Ideal) x w) := by
  rw [Cert.KernelIdeal.KRead.W11_v78 m ρ c, hadj]
  -- what the first region finds, and what it leaves
  have e0 := (Cert.KernelIdeal.KRead.V3_arg0 m ρ c).trans hx
  have e2 := (Cert.KernelIdeal.KRead.V3_arg2 m ρ c).trans hw
  have e22 : Cert.KernelIdeal.Gen.V3 m ρ c Cert.KernelIdeal.main_v22 = Cert.KernelIdeal.KV.val_main_v22 (F := Ideal) a3 a4 := by
    rw [Cert.KernelIdeal.KRead.V3_v22 m ρ c, h3, h4]
  have hP := Cert.KernelIdeal.R0.proj_arr (Cert.KernelIdeal.Gen.V3 m ρ) c x w e0 e2
  have hSC := Cert.KernelIdeal.R0.score_arr (Cert.KernelIdeal.Gen.V3 m ρ) c x w _ e0 e2 e22
  have hss := Cert.Score.score_src x w a3 a4 _ (fun i => congrFun hSC i)
  have hsd := Cert.Score.score_dst x w a3 a4 _ (fun i => congrFun hSC i)
  -- what the second region finds, and what it leaves
  have hwk := Cert.KernelIdeal.R1.weighted_arr (Cert.KernelIdeal.Gen.V9 m ρ) c _ _ _ (Cert.KernelIdeal.KRead.V9_v65 m ρ c) (Cert.KernelIdeal.KRead.V9_v58 m ρ c)
    (Cert.KernelIdeal.KRead.V9_v74 m ρ c)
  rw [hadj] at hwk
  refine Cert.Aggregate.final_eq ((Cert.KernelIdeal.Gen.dat0 (Cert.KernelIdeal.Gen.V3 m ρ) c).arrAt 3 Cert.KernelIdeal.cfg0.N) _
    (fun n h f => ?_) _ _ adj (fun e cc => ?_)
  · rw [Cert.Score.proj3_apply, hP]
  · rw [congrFun hwk (ix2 e cc)]
    show _ * (∑ h : Fin 4, _ * Cert.KernelIdeal.KV.val_main_v74 (F := Ideal) (ix2 h cc)) = _
    rw [Cert.Score.alpha_pick, hss, hsd, chain_eq, src_eq, dst_eq]

end Cert.Bridge

end
-- ==== Proof.lean ====
/-
  A graph-attention layer on 100000 nodes and 1600000 edges, four heads of 32 features.

  Both programs compute, per destination node n and column c (head c / 32, feature c % 32),
      out (n, c) = ∑ over the edges e with dst e = n of  proj (src e, c) · alpha (e, c / 32),
  where proj = x · W, the score of a node for a head is the sum over the head's 32 features of proj times the
  attention vector, and alpha is the softmax over each destination's incoming edges of the leaky-relu of the summed
  source and destination scores (the global maximum subtracted, 1e-16 added to the denominator) — one and the same
  chain of host operations in both programs.

  The kernel program computes the scores inside its first kernel as proj · Att, where Att is a 0/1 head mask times the
  flattened attention vectors (two halves side by side), and inside its second kernel spreads alpha over the 128
  columns by a product with a 0/1 matrix before multiplying by the gathered rows of proj; the reference reshapes proj
  to heads, multiplies, sums along the feature axis, and broadcasts alpha. Over the extended reals 0 · y = 0 and
  1 · y = y for every y, so a masked sum of 128 terms is the head's 32 terms and a masked sum of 4 terms is the head's
  weight: the two results are equal entry by entry, and the precondition (finite inputs) is not used.

  The modules: the run of the kernel program with its result array named (KRun), that array and the kernels' input
  arrays read back through @main's host operations (KVals, KRead), each kernel's output as one whole-array function
  (R0Val, R1Val), the 0/1 matrices at an entry (Consts), the masked sums (Score), the two scatter-adds (Scatter), the
  reference's run (RVals, RefRun), and their composition (Bridge).
-/
import proofs.«132320_j74148315398470_1_alg».proof.Defs
import proofs.«132320_j74148315398470_1_alg».proof.Proof.Gen.Kernel
import proofs.«132320_j74148315398470_1_alg».proof.Proof.Gen.Kernel.Skeleton
import proofs.«132320_j74148315398470_1_alg».proof.Proof.Gen.Kernel.Launch
import proofs.«132320_j74148315398470_1_alg».proof.Proof.Gen.Kernel.Points
import proofs.«132320_j74148315398470_1_alg».proof.Proof.Gen.Kernel.Frame
import proofs.«132320_j74148315398470_1_alg».proof.Proof.Gen.KernelIdeal
import proofs.«132320_j74148315398470_1_alg».proof.Proof.Gen.KernelIdeal.Skeleton
import proofs.«132320_j74148315398470_1_alg».proof.Proof.Gen.KernelIdeal.Launch
import proofs.«132320_j74148315398470_1_alg».proof.Proof.Gen.KernelIdeal.Points
import proofs.«132320_j74148315398470_1_alg».proof.Proof.Gen.KernelIdeal.Frame
import proofs.«132320_j74148315398470_1_alg».proof.Proof.Gen.ReferenceIdeal
import proofs.«132320_j74148315398470_1_alg».proof.Proof.Gen.Pre_finite_inputs
import proofs.«132320_j74148315398470_1_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: it runs, and writes no argument. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- From memories agreeing on the five arguments both idealized programs end with the same result array: the
    kernel program's, read off its last segment boundary, is the reference's result term of those arguments. -/
theorem algebraic : Cert.algebraic_KernelIdeal_ReferenceIdeal := by
  intro m ρ m' ρ' _ hagree
  refine ⟨fun c => Cert.KernelIdeal.Gen.W11 m ρ c (Proc.devRef .tc Cert.KernelIdeal.main_v78),
    Cert.KernelIdeal.Gen.run_val (F := Ideal) m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4⟩ := hagree c
  exact (Cert.Bridge.result_eq m ρ c _ _ _ _ _ h0.symm h1.symm h2.symm h3.symm h4.symm).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
